-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S2048x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v28)) (v4 : (c : Dev Cert.KernelIdeal.nD) → Buf (Elt Ideal) ((c.tc : Thread Cert.KernelIdeal.nD Cert.KernelIdeal.τ).loc Cert.KernelIdeal.main_v12)) (v5 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_v17) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v21) = v4 c
          ∧ r.2.mem ((c.tc : Thread Cert.ReferenceIdeal.nD Cert.ReferenceIdeal.τ).loc Cert.ReferenceIdeal.main_v26) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x32x512 : Shape := ⟨4, ![32, 32, 32, 512]⟩
abbrev S32768 : Shape := ⟨1, ![32768]⟩
abbrev S512x4096 : Shape := ⟨2, ![512, 4096]⟩
abbrev S4096 : Shape := ⟨1, ![4096]⟩
abbrev S_ : Shape := ⟨0, ![]⟩

class Facts : Prop where
  bcast_S_S32x32x32x512 : S_.BroadcastsInDim S32x32x32x512 (![] : Fin 0 → Fin S32x32x32x512.rank)
  reducesTo_S32x32x32x512_S_d0_1_2_3 : S32x32x32x512.ReducesTo [0, 1, 2, 3] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S4096 : S_.BroadcastsInDim S4096 (![] : Fin 0 → Fin S4096.rank)
  reducesTo_S4096_S_d0 : S4096.ReducesTo [0] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg1 : IVec S32768 32) (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  let main_c_6 : IVec S_ 32 := constantI S_ 32 0#32
  let main_v19 : IVec S32768 32 := broadcastInDim S32768 ![] bcast_S_S32768 main_c_6
  let main_v20 : IVec S32768 1 := cmpi .sge main_arg1 main_v19
  let main_c_7 : IVec S_ 1 := constantI S_ 1 1#1
  let main_v21 : IVec S_ 1 := (fun x v => Host.reduce IntOp.andi x v reducesTo_S32768_S_d0 h_S_) main_v20 main_c_7
  let main_v22 : IVec S_ 1 := andi main_v18 main_v21
  let main_c_8 : IVec S_ 32 := constantI S_ 32 4096#32
  let main_v23 : IVec S32768 32 := broadcastInDim S32768 ![] bcast_S_S32768 main_c_8
  let main_v24 : IVec S32768 1 := cmpi .slt main_arg1 main_v23
  let main_c_9 : IVec S_ 1 := constantI S_ 1 1#1
  let main_v25 : IVec S_ 1 := (fun x v => Host.reduce IntOp.andi x v reducesTo_S32768_S_d0 h_S_) main_v24 main_c_9
  let main_v26 : IVec S_ 1 := andi main_v22 main_v25
  main_v26

def fn {F : FTy → Type} [FloatOps F] (main_arg0 : FVec F S32x32x32x512 .f32) (main_arg1 : IVec S32768 32) (main_arg2 : FVec F S512x4096 .f32) (main_arg3 : FVec F S4096 .f32) (main_arg4 : FVec F S512x4096 .f32) : IVec S_ 1 :=
  let main_v0 : FVec F S32x32x32x512 .f32 := Host.absf main_arg0
  let main_cst : FVec F S_ .f32 := constant S_ .f32 0x7F800000#32
  let main_v1 : FVec F S32x32x32x512 .f32 := broadcastInDim S32x32x32x512 ![] bcast_S_S32x32x32x512 main_cst
  let main_v2 : IVec S32x32x32x512 1 := cmpf .olt main_v0 main_v1
  let main_c : IVec S_ 1 := constantI S_ 1 1#1
  let main_v3 : IVec S_ 1 := (fun x v => Host.reduce IntOp.andi x v reducesTo_S32x32x32x512_S_d0_1_2_3 h_S_) main_v2 main_c
  let main_v4 : FVec F S512x4096 .f32 := Host.absf main_arg2
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S512x4096 .f32 := Host.absf main_arg4
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_arg1 main_v13 main_v16
-- ==== Kernel.lean ====
abbrev S32x32x32x512 : Shape := ⟨4, ![32, 32, 32, 512]⟩
abbrev S32768 : Shape := ⟨1, ![32768]⟩
abbrev S512x4096 : Shape := ⟨2, ![512, 4096]⟩
abbrev S4096 : Shape := ⟨1, ![4096]⟩
abbrev S32768x512 : Shape := ⟨2, ![32768, 512]⟩
abbrev S32768x1 : Shape := ⟨2, ![32768, 1]⟩
abbrev S1x4096 : Shape := ⟨2, ![1, 4096]⟩
abbrev S2048x512 : Shape := ⟨2, ![2048, 512]⟩
abbrev S2048x1 : Shape := ⟨2, ![2048, 1]⟩
abbrev S512x1024 : Shape := ⟨2, ![512, 1024]⟩
abbrev S1x1024 : Shape := ⟨2, ![1, 1024]⟩
abbrev S2048x1024 : Shape := ⟨2, ![2048, 1024]⟩
abbrev S1024 : Shape := ⟨1, ![1024]⟩
abbrev S512x512 : Shape := ⟨2, ![512, 512]⟩
abbrev S32x32x32 : Shape := ⟨3, ![32, 32, 32]⟩
abbrev S_ : Shape := ⟨0, ![]⟩

abbrev nBuf : Space → Nat
  | .hbm => 48
  | .vmem => 16
  | .smem => 0
  | _ => 0

abbrev bufTy : (tb : Table) → Fin (tcTables nBuf tb) → BufTy
  | .hbm, ⟨0, _⟩ => ⟨S32x32x32x512, .f32⟩
  | .hbm, ⟨1, _⟩ => ⟨S32768, .i32⟩
  | .hbm, ⟨2, _⟩ => ⟨S512x4096, .f32⟩
  | .hbm, ⟨3, _⟩ => ⟨S4096, .f32⟩
  | .hbm, ⟨4, _⟩ => ⟨S512x4096, .f32⟩
  | .hbm, ⟨5, _⟩ => ⟨S32768x512, .f32⟩
  | .hbm, ⟨6, _⟩ => ⟨S32768x1, .i32⟩
  | .hbm, ⟨7, _⟩ => ⟨S32768x512, .bf16⟩
  | .hbm, ⟨8, _⟩ => ⟨S512x4096, .f32⟩
  | .hbm, ⟨9, _⟩ => ⟨S1x4096, .f32⟩
  | .hbm, ⟨10, _⟩ => ⟨S4096, .f32⟩
  | .hbm, ⟨11, _⟩ => ⟨S32768x512, .f32⟩
  | .hbm, ⟨12, _⟩ => ⟨S32x32x32x512, .f32⟩
  | .hbm, ⟨13, _⟩ => ⟨S32x32x32, .i32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S512x4096, .f32⟩
  | .hbm, ⟨23, _⟩ => ⟨S512x4096, .f32⟩
  | .hbm, ⟨24, _⟩ => ⟨S_, .f32⟩
  | .hbm, ⟨25, _⟩ => ⟨S512x4096, .f32⟩
  | .hbm, ⟨26, _⟩ => ⟨S512x4096, .f32⟩
  | .hbm, ⟨27, _⟩ => ⟨S512x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S1x4096, .f32⟩
  | .hbm, ⟨40, _⟩ => ⟨S512x4096, .f32⟩
  | .hbm, ⟨41, _⟩ => ⟨S512x4096, .f32⟩
  | .hbm, ⟨42, _⟩ => ⟨S32x32x32x512, .f32⟩
  | .hbm, ⟨43, _⟩ => ⟨S32x32x32x512, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S2048x512, .bf16⟩
  | .local _ .vmem, ⟨1, _⟩ => ⟨S2048x512, .bf16⟩
  | .local _ .vmem, ⟨2, _⟩ => ⟨S2048x1, .i32⟩
  | .local _ .vmem, ⟨3, _⟩ => ⟨S2048x1, .i32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S1x1024, .f32⟩
  | .local _ .vmem, ⟨10, _⟩ => ⟨S512x4096, .f32⟩
  | .local _ .vmem, ⟨11, _⟩ => ⟨S2048x1, .i32⟩
  | .local _ .vmem, ⟨12, _⟩ => ⟨S2048x1, .i32⟩
  | .local _ .vmem, ⟨13, _⟩ => ⟨S2048x512, .f32⟩
  | .local _ .vmem, ⟨14, _⟩ => ⟨S2048x512, .f32⟩
  | .local _ .vmem, ⟨15, _⟩ => ⟨S2048x512, .f32⟩
  | _, _ => ⟨S32x32x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 8], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let c0_2 : Index := 0#32
  let arg1 : BitVec 32 := BitVec.ofNat 32 (i 1).val
  let c512_i32 : BitVec 32 := 512#32
  let v3 : BitVec 32 := Scalar.muli arg1 c512_i32
  let v4 : BitVec 32 := v3
  let v15 : Index := Scalar.indexCast v4
  ![0, v15.toNat]
def k1_cond2 (i : grid1.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_7 : BitVec 32 := 0#32
  let v26 : BitVec 1 := Scalar.cmpi .ne v25 c0_i32_7
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S512x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S32x32x32x512_S32768x512 : S32x32x32x512.ShapeCasts S32768x512
  shapeCasts_S32768_S32768x1 : S32768.ShapeCasts S32768x1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S2048x1024_d1_w32 : S2048x1024.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  natLt_1_32 : 1 < 32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S2048x1024_S1024 : S2048x1024.Reduces [0] S1024
  shapeCasts_S1024_S1x1024 : S1024.ShapeCasts S1x1024
  shapeCasts_S1x4096_S4096 : S1x4096.ShapeCasts S4096
  iota_S2048x512_d1_w32 : S2048x512.Iotas .tc 32 [1]
  broadcasts_S2048x1_S2048x512 : S2048x1.Broadcasts S2048x512
  h_S512x512 : 0 < S512x512.numel
  shapeCasts_S32768x512_S32x32x32x512 : S32768x512.ShapeCasts S32x32x32x512
  shapeCasts_S32768_S32x32x32 : S32768.ShapeCasts S32x32x32
  bcast_S_S4096 : S_.BroadcastsInDim S4096 (![] : Fin 0 → Fin S4096.rank)
  bcast_S_S512x4096 : S_.BroadcastsInDim S512x4096 (![] : Fin 0 → Fin S512x4096.rank)
  reducesTo_S4096_S_d0 : S4096.ReducesTo [0] S_
  h_S_ : 0 < S_.numel
  bcast_S4096_S1x4096_1 : S4096.BroadcastsInDim S1x4096 (![1] : Fin 1 → Fin S1x4096.rank)
  bcast_S1x4096_S512x4096_0_1 : S1x4096.BroadcastsInDim S512x4096 (![0, 1] : Fin 2 → Fin S512x4096.rank)
  reducesTo_S32x32x32x512_S_d0_1_2_3 : S32x32x32x512.ReducesTo [0, 1, 2, 3] S_
  dot_S2048x512_S2048x1024_S512x1024_0_0_1_1_n_n_wf : DotDims.WF S2048x512 S2048x1024 S512x1024 [0] [0] [1] [1] [] []
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .bf16 = 32 ∨ (Rect.block (s := S32768x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S32768x1.size a
  hwx0_1 : ∀ i : grid0.Coords, EltTy.bits .i32 = 32 ∨ (Rect.block (s := S32768x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x4096.size a
  hwx0_2 : ∀ i : grid0.Coords, EltTy.bits .f32 = 32 ∨ (Rect.block (s := S512x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S512x512.size a ≤ S512x4096.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S512x4096.size a
  hwx1_0 : ∀ i : grid1.Coords, EltTy.bits .f32 = 32 ∨ (Rect.block (s := S512x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S32768x1.size a
  hwx1_1 : ∀ i : grid1.Coords, EltTy.bits .i32 = 32 ∨ (Rect.block (s := S32768x1) S2048x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S32768x512.size a
  hwx1_2 : ∀ i : grid1.Coords, EltTy.bits .f32 = 32 ∨ (Rect.block (s := S32768x512) S2048x512.size (cc1_transform_2 i) (hinb1_2 i)).WholeWords (EltTy.packing .f32)

variable [Facts₀]

def dot_S2048x512_S2048x1024_S512x1024_0_0_1_1_n_n : DotDims S2048x512 S2048x1024 S512x1024 where
  lhsContracting := [0]
  rhsContracting := [0]
  lhsNonContracting := [1]
  rhsNonContracting := [1]
  lhsBatch := []
  rhsBatch := []
  wf := dot_S2048x512_S2048x1024_S512x1024_0_0_1_1_n_n_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_v2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg2) S512x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S32x32x32x512 : Shape := ⟨4, ![32, 32, 32, 512]⟩
abbrev S32768 : Shape := ⟨1, ![32768]⟩
abbrev S512x4096 : Shape := ⟨2, ![512, 4096]⟩
abbrev S4096 : Shape := ⟨1, ![4096]⟩
abbrev S32768x512 : Shape := ⟨2, ![32768, 512]⟩
abbrev S32x32x32 : Shape := ⟨3, ![32, 32, 32]⟩
abbrev S4096x512 : Shape := ⟨2, ![4096, 512]⟩
abbrev S_ : Shape := ⟨0, ![]⟩
abbrev S32x32x32x1 : Shape := ⟨4, ![32, 32, 32, 1]⟩
abbrev S1 : Shape := ⟨1, ![1]⟩
abbrev S1x1x1x1 : Shape := ⟨4, ![1, 1, 1, 1]⟩
abbrev S32768x1 : Shape := ⟨2, ![32768, 1]⟩
abbrev S1x4096 : Shape := ⟨2, ![1, 4096]⟩

abbrev nBuf : Space → Nat
  | .hbm => 83
  | .vmem => 0
  | .smem => 0
  | _ => 0

abbrev bufTy : (tb : Table) → Fin (tcTables nBuf tb) → BufTy
  | .hbm, ⟨0, _⟩ => ⟨S32x32x32x512, .f32⟩
  | .hbm, ⟨1, _⟩ => ⟨S32768, .i32⟩
  | .hbm, ⟨2, _⟩ => ⟨S512x4096, .f32⟩
  | .hbm, ⟨3, _⟩ => ⟨S4096, .f32⟩
  | .hbm, ⟨4, _⟩ => ⟨S512x4096, .f32⟩
  | .hbm, ⟨5, _⟩ => ⟨S32768x512, .f32⟩
  | .hbm, ⟨6, _⟩ => ⟨S32x32x32, .i32⟩
  | .hbm, ⟨7, _⟩ => ⟨S4096x512, .f32⟩
  | .hbm, ⟨8, _⟩ => ⟨S_, .i32⟩
  | .hbm, ⟨9, _⟩ => ⟨S32x32x32, .i32⟩
  | .hbm, ⟨10, _⟩ => ⟨S32x32x32, .i1⟩
  | .hbm, ⟨11, _⟩ => ⟨S_, .i32⟩
  | .hbm, ⟨12, _⟩ => ⟨S32x32x32, .i32⟩
  | .hbm, ⟨13, _⟩ => ⟨S32x32x32, .i32⟩
  | .hbm, ⟨14, _⟩ => ⟨S32x32x32, .i32⟩
  | .hbm, ⟨15, _⟩ => ⟨S32x32x32x1, .i32⟩
  | .hbm, ⟨16, _⟩ => ⟨S1, .i32⟩
  | .hbm, ⟨17, _⟩ => ⟨S_, .i32⟩
  | .hbm, ⟨18, _⟩ => ⟨S32x32x32x1, .i32⟩
  | .hbm, ⟨19, _⟩ => ⟨S32x32x32x1, .i1⟩
  | .hbm, ⟨20, _⟩ => ⟨S1x1x1x1, .i32⟩
  | .hbm, ⟨21, _⟩ => ⟨S32x32x32x1, .i32⟩
  | .hbm, ⟨22, _⟩ => ⟨S32x32x32x1, .i1⟩
  | .hbm, ⟨23, _⟩ => ⟨S32x32x32x1, .i1⟩
  | .hbm, ⟨24, _⟩ => ⟨S_, .i1⟩
  | .hbm, ⟨25, _⟩ => ⟨S32x32x32, .i1⟩
  | .hbm, ⟨26, _⟩ => ⟨S32x32x32x512, .f32⟩
  | .hbm, ⟨27, _⟩ => ⟨S32x32x32x512, .i1⟩
  | .hbm, ⟨28, _⟩ => ⟨S_, .f32⟩
  | .hbm, ⟨29, _⟩ => ⟨S32x32x32x512, .f32⟩
  | .hbm, ⟨30, _⟩ => ⟨S32x32x32x512, .f32⟩
  | .hbm, ⟨31, _⟩ => ⟨S_, .f32⟩
  | .hbm, ⟨32, _⟩ => ⟨S4096, .f32⟩
  | .hbm, ⟨33, _⟩ => ⟨S_, .i32⟩
  | .hbm, ⟨34, _⟩ => ⟨S32768, .i32⟩
  | .hbm, ⟨35, _⟩ => ⟨S32768, .i1⟩
  | .hbm, ⟨36, _⟩ => ⟨S_, .i32⟩
  | .hbm, ⟨37, _⟩ => ⟨S32768, .i32⟩
  | .hbm, ⟨38, _⟩ => ⟨S32768, .i32⟩
  | .hbm, ⟨39, _⟩ => ⟨S32768, .i32⟩
  | .hbm, ⟨40, _⟩ => ⟨S32768x1, .i32⟩
  | .hbm, ⟨41, _⟩ => ⟨S_, .f32⟩
  | .hbm, ⟨42, _⟩ => ⟨S32768, .f32⟩
  | .hbm, ⟨43, _⟩ => ⟨S4096, .f32⟩
  | .hbm, ⟨44, _⟩ => ⟨S_, .f32⟩
  | .hbm, ⟨45, _⟩ => ⟨S4096x512, .f32⟩
  | .hbm, ⟨46, _⟩ => ⟨S32768x1, .i32⟩
  | .hbm, ⟨47, _⟩ => ⟨S4096x512, .f32⟩
  | .hbm, ⟨48, _⟩ => ⟨S512x4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S512x4096, .f32⟩
  | .hbm, ⟨58, _⟩ => ⟨S512x4096, .f32⟩
  | .hbm, ⟨59, _⟩ => ⟨S_, .f32⟩
  | .hbm, ⟨60, _⟩ => ⟨S512x4096, .f32⟩
  | .hbm, ⟨61, _⟩ => ⟨S512x4096, .f32⟩
  | .hbm, ⟨62, _⟩ => ⟨S512x4096, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S1x4096, .f32⟩
  | .hbm, ⟨75, _⟩ => ⟨S512x4096, .f32⟩
  | .hbm, ⟨76, _⟩ => ⟨S512x4096, .f32⟩
  | .hbm, ⟨77, _⟩ => ⟨S32x32x32x512, .f32⟩
  | .hbm, ⟨78, _⟩ => ⟨S32x32x32x512, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S32x32x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_c : Ref sig .tc := ⟨.hbm, 33, rfl⟩
abbrev main_v5 : Ref sig .tc := ⟨.hbm, 34, rfl⟩
abbrev main_v6 : Ref sig .tc := ⟨.hbm, 35, rfl⟩
abbrev main_c_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_cst_2 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_3 : Ref sig .tc := ⟨.hbm, 49, rfl⟩
abbrev main_v17 : Ref sig .tc := ⟨.hbm, 50, rfl⟩
abbrev main_v18 : Ref sig .tc := ⟨.hbm, 51, rfl⟩
abbrev main_cst_4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_5 : Ref sig .tc := ⟨.hbm, 56, rfl⟩
abbrev main_v22 : Ref sig .tc := ⟨.hbm, 57, rfl⟩
abbrev main_v23 : Ref sig .tc := ⟨.hbm, 58, rfl⟩
abbrev main_cst_6 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_7 : Ref sig .tc := ⟨.hbm, 63, rfl⟩
abbrev main_v27 : Ref sig .tc := ⟨.hbm, 64, rfl⟩
abbrev main_cst_8 : Ref sig .tc := ⟨.hbm, 65, rfl⟩
abbrev main_v28 : Ref sig .tc := ⟨.hbm, 66, rfl⟩
abbrev main_v29 : Ref sig .tc := ⟨.hbm, 67, rfl⟩
abbrev main_cst_9 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_10 : Ref sig .tc := ⟨.hbm, 79, rfl⟩
abbrev main_v40 : Ref sig .tc := ⟨.hbm, 80, rfl⟩
abbrev main_cst_11 : Ref sig .tc := ⟨.hbm, 81, rfl⟩
abbrev main_v41 : Ref sig .tc := ⟨.hbm, 82, rfl⟩

abbrev nD : Nat := 1
abbrev τ : Topo := Topo.v7x

variable {F : FTy → Type} [FloatOps F]

class Facts₀ : Prop where
  shapeCasts_S32x32x32x512_S32768x512 : S32x32x32x512.ShapeCasts S32768x512
  shapeCasts_S32768_S32x32x32 : S32768.ShapeCasts S32x32x32
  transposes_S512x4096_S4096x512_1_0 : S512x4096.Transposes [1, 0] S4096x512
  bcast_S_S32x32x32 : S_.BroadcastsInDim S32x32x32 (![] : Fin 0 → Fin S32x32x32.rank)
  bcast_S32x32x32_S32x32x32x1_0_1_2 : S32x32x32.BroadcastsInDim S32x32x32x1 (![0, 1, 2] : Fin 3 → Fin S32x32x32x1.rank)
  bcast_S_S32x32x32x1 : S_.BroadcastsInDim S32x32x32x1 (![] : Fin 0 → Fin S32x32x32x1.rank)
  bcast_S1_S1x1x1x1_3 : S1.BroadcastsInDim S1x1x1x1 (![3] : Fin 1 → Fin S1x1x1x1.rank)
  bcast_S1x1x1x1_S32x32x32x1_0_1_2_3 : S1x1x1x1.BroadcastsInDim S32x32x32x1 (![0, 1, 2, 3] : Fin 4 → Fin S32x32x32x1.rank)
  reducesTo_S32x32x32x1_S32x32x32_d3 : S32x32x32x1.ReducesTo [3] S32x32x32
  h_S_ : 0 < S_.numel
  bcast_S32x32x32_S32x32x32x512_0_1_2 : S32x32x32.BroadcastsInDim S32x32x32x512 (![0, 1, 2] : Fin 3 → Fin S32x32x32x512.rank)
  bcast_S_S32x32x32x512 : S_.BroadcastsInDim S32x32x32x512 (![] : Fin 0 → Fin S32x32x32x512.rank)
  bcast_S_S4096 : S_.BroadcastsInDim S4096 (![] : Fin 0 → Fin S4096.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S4096x512 : S_.BroadcastsInDim S4096x512 (![] : Fin 0 → Fin S4096x512.rank)
  transposes_S4096x512_S512x4096_1_0 : S4096x512.Transposes [1, 0] S512x4096
  bcast_S_S512x4096 : S_.BroadcastsInDim S512x4096 (![] : Fin 0 → Fin S512x4096.rank)
  reducesTo_S4096_S_d0 : S4096.ReducesTo [0] S_
  bcast_S4096_S1x4096_1 : S4096.BroadcastsInDim S1x4096 (![1] : Fin 1 → Fin S1x4096.rank)
  bcast_S1x4096_S512x4096_0_1 : S1x4096.BroadcastsInDim S512x4096 (![0, 1] : Fin 2 → Fin S512x4096.rank)
  reducesTo_S32x32x32x512_S_d0_1_2_3 : S32x32x32x512.ReducesTo [0, 1, 2, 3] S_
  gather_S4096x512_S32x32x32x1_S32x32x32x512_3_0_n_n_0_3_1512_wf : GatherDims.WF S4096x512 S32x32x32x1 S32x32x32x512 [3] [0] [] [0] [] 3 ![1, 512]
  scatter_S4096_S32768x1_S32768_n_0_0_1_wf : ScatterDims.WF S4096 S32768x1 S32768 [] [0] [0] 1
  scatter_S4096x512_S32768x1_S32768x512_1_0_0_1_wf : ScatterDims.WF S4096x512 S32768x1 S32768x512 [1] [0] [0] 1

variable [Facts₀]

def gather_S4096x512_S32x32x32x1_S32x32x32x512_3_0_n_n_0_3_1512 : GatherDims S4096x512 S32x32x32x1 S32x32x32x512 where
  offsetDims := [3]
  collapsedSliceDims := [0]
  operandBatchingDims := []
  startIndicesBatchingDims := []
  startIndexMap := [0]
  indexVectorDim := 3
  sliceSizes := ![1, 512]
  wf := gather_S4096x512_S32x32x32x1_S32x32x32x512_3_0_n_n_0_3_1512_wf
def scatter_S4096_S32768x1_S32768_n_0_0_1 : ScatterDims S4096 S32768x1 S32768 where
  updateWindowDims := []
  insertedWindowDims := [0]
  scatterDimsToOperandDims := [0]
  indexVectorDim := 1
  wf := scatter_S4096_S32768x1_S32768_n_0_0_1_wf
def scatter_S4096x512_S32768x1_S32768x512_1_0_0_1 : ScatterDims S4096x512 S32768x1 S32768x512 where
  updateWindowDims := [1]
  insertedWindowDims := [0]
  scatterDimsToOperandDims := [0]
  indexVectorDim := 1
  wf := scatter_S4096x512_S32768x1_S32768x512_1_0_0_1_wf

class Facts : Prop extends Facts₀ where

variable [Facts]
-- ==== Proof.LibWhole.lean ====
/-
  Two facts about a two-axis buffer accessed only through its whole rectangle (offset zero on both axes, the buffer's
  own extents): reading back after a list of stores whose LAST one went through the whole rectangle gives that store's
  payload, whatever the earlier stores and the prior contents were; and a load through the whole rectangle — of the
  contents, or of what one such store left — is the contents, respectively that store's payload.
-/
import Idealize.ShloMosaic.Lib.Pipeline.FrameBody
import Idealize.ShloMosaic.Lib.Pipeline.Value

noncomputable section

namespace Cert.Whole

open Idealize.ShloMosaic

variable {Val : EltTy → Type} [∀ e, Nonempty (Val e)] {sig : RefSig} {κ : Kind} {sp : Space} {e : EltTy} {n0 n1 : ℕ}

/-- Both offsets of the whole rectangle are zero. -/
theorem hz : (![0, 0] : Fin 2 → ℕ) = fun _ => 0 := by
  funext a
  match a with
  | ⟨0, _⟩ => rfl
  | ⟨1, _⟩ => rfl

/-- After stores the last of which covers the buffer, the buffer reads as that store's payload. -/
theorem read_writes_cons (v : View sig κ sp ⟨2, ![n0, n1]⟩ e) (f : v.ty.Contents Val)
    (inb : ∀ a, (![0, 0] : Fin (⟨2, ![n0, n1]⟩ : Shape).rank → ℕ) a + (⟨2, ![n0, n1]⟩ : Shape).size a ≤ (⟨2, ![n0, n1]⟩ : Shape).size a)
    (w : (⟨2, ![n0, n1]⟩ : Shape).Idx → Val e) (L : List (View.Piece Val ⟨2, ![n0, n1]⟩ e)) :
    v.read Val (v.writes Val f ((⟨Rect.unit (s := ⟨2, ![n0, n1]⟩) ![0, 0] (⟨2, ![n0, n1]⟩ : Shape).size inb, w⟩ : View.Piece Val ⟨2, ![n0, n1]⟩ e) :: L)) = w := by
  rw [View.read_writes_eq_canon _ _ _ (fun y => ⟨_, List.mem_cons_self, by
    have h := hz
    show y ∈ (Rect.unit (s := ⟨2, ![n0, n1]⟩) ![0, 0] (⟨2, ![n0, n1]⟩ : Shape).size inb).set
    rw [Rect.mem_set_unit]
    intro a
    constructor
    · rw [congrFun h a]; exact Nat.zero_le _
    · rw [congrFun h a, Nat.zero_add]; exact (y a).isLt⟩), View.canon_cons_unit_zero hz]

/-- A load through the whole rectangle reads the contents. -/
theorem readAt_whole (v : View sig κ sp ⟨2, ![n0, n1]⟩ e) (f : v.ty.Contents Val)
    (inb : ∀ a, (![0, 0] : Fin (⟨2, ![n0, n1]⟩ : Shape).rank → ℕ) a + (⟨2, ![n0, n1]⟩ : Shape).size a ≤ (⟨2, ![n0, n1]⟩ : Shape).size a) :
    v.readAt Val (Rect.unit (s := ⟨2, ![n0, n1]⟩) ![0, 0] (⟨2, ![n0, n1]⟩ : Shape).size inb).toLoadRect f = v.read Val f := by
  rw [View.readAt_eq_ld, View.ld_unit_zero hz]

/-- A load through the whole rectangle of what one store through it left reads that store's payload. -/
theorem readCov_whole (v : View sig κ sp ⟨2, ![n0, n1]⟩ e)
    (inb : ∀ a, (![0, 0] : Fin (⟨2, ![n0, n1]⟩ : Shape).rank → ℕ) a + (⟨2, ![n0, n1]⟩ : Shape).size a ≤ (⟨2, ![n0, n1]⟩ : Shape).size a)
    (w : (⟨2, ![n0, n1]⟩ : Shape).Idx → Val e) :
    v.readCov [(⟨Rect.unit (s := ⟨2, ![n0, n1]⟩) ![0, 0] (⟨2, ![n0, n1]⟩ : Shape).size inb, w⟩ : View.Piece Val ⟨2, ![n0, n1]⟩ e)]
      (Rect.unit (s := ⟨2, ![n0, n1]⟩) ![0, 0] (⟨2, ![n0, n1]⟩ : Shape).size inb).toLoadRect = w :=
  View.readCov_unit_zero v hz inb w

end Cert.Whole

end
-- ==== Proof.KScatter.lean ====
/-
  The first of the program's two kernel regions: for each block of 1024 codes, a pass over the 16 blocks of 2048 rows
  that accumulates, in two buffers the kernel keeps between grid points, the product of the rows' features (transposed)
  with the rows' one-hot label matrix — the per-code feature sums — and that matrix's column sums — the per-code
  counts. The accumulators are cleared at the first row block and copied into the two output blocks at the last.
  Stated here: what the accumulators hold after every grid point, as a recursion over the points through the body's
  own arithmetic; the invariant that carries them from point to point; and that the body, run at any point, takes
  the invariant one point on, leaves the inputs' staging buffers alone and, at a last row block, leaves the
  accumulators' contents in the outputs' staging buffers.
-/
import proofs.«408632_j30477087933017_3_alg».proof.Proof.Gen.Kernel.Launch
import proofs.«408632_j30477087933017_3_alg».proof.Proof.Gen.Kernel.Skeleton
import proofs.«408632_j30477087933017_3_alg».proof.Proof.Gen.Kernel.Points
import proofs.«408632_j30477087933017_3_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The conditions of the body's two branches, and where the output windows are idle

The grid is 4 column blocks by 16 row blocks, the row blocks innermost: point t is column block t / 16, row block
t % 16. The accumulators are cleared where the row block is 0 and copied out where it is 15. -/

/-- The row block is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The row block is the last. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The input blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 2048 rows of row block t % 16, all 512 features. -/
abbrev xblk0 (c : Dev nD) (t : Fin cfg0.N) : Vec F S2048x512 .bf16 := iblk0 V c 0 t
/-- Their 2048 labels, as a column. -/
abbrev lblk0 (c : Dev nD) (t : Fin cfg0.N) : Vec F S2048x1 .i32 := iblk0 V c 1 t

/-- An input's staging buffer holds the input's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two accumulators, point by point -/

/-- One point's work on the pair (feature sums, counts): add the block's product with its one-hot matrix, and the
    one-hot matrix's column sums. -/
def step0 (c : Dev nD) (t : Fin cfg0.N) (p : Vec F S512x1024 .f32 × Vec F S1x1024 .f32) : Vec F S512x1024 .f32 × Vec F S1x1024 .f32 :=
  (k0_pay4 (grid0.coords t) (lblk0 V c t) (xblk0 V c t) p.1, k0_pay5 (grid0.coords t) (lblk0 V c t) p.2)

/-- What the two accumulators hold after the point at position n: the point's work on zeros where the row block is the
    first, on what the point before left elsewhere. -/
def acc0 (c : Dev nD) : (n : ℕ) → n < cfg0.N → Vec F S512x1024 .f32 × Vec F S1x1024 .f32
  | 0, hn => step0 V c ⟨0, hn⟩ (k0_pay1, k0_pay2)
  | n + 1, hn => step0 V c ⟨n + 1, hn⟩ (if (n + 1) % 16 = 0 then (k0_pay1, k0_pay2) else acc0 c n (Nat.lt_of_succ_lt hn))

theorem acc0_first (c : Dev nD) (t : Fin cfg0.N) (h : t.val % 16 = 0) :
    acc0 V c t.val t.isLt = step0 V c t (k0_pay1, k0_pay2) := by
  obtain ⟨n, hn⟩ := t
  cases n with
  | zero => rfl
  | succ n => show step0 V c _ (if (n + 1) % 16 = 0 then _ else _) = _; rw [if_pos h]

theorem acc0_next (c : Dev nD) (t : Fin cfg0.N) (h : ¬t.val % 16 = 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod _) h
  | succ n => show step0 V c _ (if (n + 1) % 16 = 0 then _ else _) = _; rw [if_neg h]; rfl

/-! ## The region's invariant -/

/-- The two accumulators: scratch buffers of the kernel's own. -/
abbrev sc0_0 : Memref sig .tc .vmem S512x1024 .f32 := Memref.whole cc0_scratch0
abbrev sc0_1 : Memref sig .tc .vmem S1x1024 .f32 := Memref.whole cc0_scratch1

/-- The core's other scoped buffers that this region does not stage: the second region's, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the launch hands the region: both accumulators at anything, the other scoped buffers, the generator register. -/
theorem PhiA0_eq (c : Dev nD) :
    (Pipeline.ΦA spec0 c : sProp 𝕄)
      = iprop(((∃ d, owns (c : Thread nD τ) sc0_0 fullShare d) ∗ (∃ d, owns (c : Thread nD τ) sc0_1 fullShare d) ∗ rest0 c) ∗ (∃ r, prngReg c r)) := by
  unfold Pipeline.ΦA rest0; rw [scopedRest0_eq]; simp only [sc0_0, sc0_1, owns_whole]; rfl

/-- The invariant before position n: at the start the launch's; afterwards the accumulators at what the point before
    left in them. -/
def Phi0 (c : Dev nD) : (n : ℕ) → n ≤ cfg0.N → sProp 𝕄
  | 0, _ => Pipeline.ΦA spec0 c
  | n + 1, hn => iprop((owns (c : Thread nD τ) sc0_0 fullShare (acc0 V c n hn).1 ∗ owns (c : Thread nD τ) sc0_1 fullShare (acc0 V c n hn).2 ∗ rest0 c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) sc0_0 fullShare (acc0 V c n hn).1 ∗ owns (c : Thread nD τ) sc0_1 fullShare (acc0 V c n hn).2 ∗ rest0 c) ∗ (∃ r, prngReg c r)) := rfl
theorem Phi0_pos (c : Dev nD) (n : ℕ) (h : n ≤ cfg0.N) (hz : n ≠ 0) :
    Phi0 V c n h = iprop((owns (c : Thread nD τ) sc0_0 fullShare (acc0 V c (n - 1) (by omega)).1 ∗ owns (c : Thread nD τ) sc0_1 fullShare (acc0 V c (n - 1) (by omega)).2 ∗ rest0 c) ∗ (∃ r, prngReg c r)) := by
  cases n with
  | zero => exact absurd rfl hz
  | succ n => rfl

/-! ## The proof data -/

/-- The arrays as the region finds them; after the body each input's buffer at its block, the outputs' at the
    accumulators (read only where they are copied out); the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's triple, one per case of its two branches

On whole staging memrefs: the two inputs are only loaded; the accumulators are loaded and stored whole; the two
outputs are stored whole where the row block is the last and untouched elsewhere. -/

section Triples
omit V

set_option maxHeartbeats 1000000 in
/-- First row block: the accumulators are cleared, then the point's work is added. -/
theorem sound0_A (c : Dev nD) (E : Set ℕ) (i : grid0.Coords) (hc0 : cond0_0 i) (hc1 : ¬cond0_1 i)
    (arg2 : Memref sig .tc .vmem S2048x512 .bf16) (harg2 : arg2.IsWhole) (arg3 : Memref sig .tc .vmem S2048x1 .i32) (harg3 : arg3.IsWhole)
    (arg4 : Memref sig .tc .vmem S512x1024 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1x1024 .f32) (harg7 : arg7.IsWhole)
    (x0 : Vec F S2048x512 .bf16) (x1 : Vec F S2048x1 .i32) (y2 : Vec F S512x1024 .f32) (y3 : Vec F S1x1024 .f32)
    (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare y2 ∗ owns (c : Thread nD τ) arg5 fullShare y3
            ∗ owns (c : Thread nD τ) arg6 fullShare (k0_pay4 i x1 x0 k0_pay1) ∗ owns (c : Thread nD τ) arg7 fullShare (k0_pay5 i x1 k0_pay2)) -∗ K ⟨⟩))
      ⊢ wp frame (wpE (defs₀ (F := F)) Variants.none c none) E (cc0__scatter_kernel i arg2 harg2 arg3 harg3 arg4 harg4 arg5 harg5 arg6 harg6 arg7 harg7) K := by
  simp only [cc0__scatter_kernel_eq_skeleton]; unfold cc0__scatter_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
  subst hf0; subst hf1; subst hf2; subst hf3
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]
  · iexists _; isplitr
    swap; · iexact H6
    ipureintro
    try sl_unfold_words
    rw [Cert.Whole.read_writes_cons, Cert.Whole.readAt_whole, Cert.Whole.readAt_whole, Cert.Whole.readCov_whole]
  · iexists _; isplitr
    swap; · iexact H7
    ipureintro
    try sl_unfold_words
    rw [Cert.Whole.read_writes_cons, Cert.Whole.readAt_whole, Cert.Whole.readCov_whole]

set_option maxHeartbeats 1000000 in
/-- A row block strictly between: the point's work is added to what the accumulators hold. -/
theorem sound0_B (c : Dev nD) (E : Set ℕ) (i : grid0.Coords) (hc0 : ¬cond0_0 i) (hc1 : ¬cond0_1 i)
    (arg2 : Memref sig .tc .vmem S2048x512 .bf16) (harg2 : arg2.IsWhole) (arg3 : Memref sig .tc .vmem S2048x1 .i32) (harg3 : arg3.IsWhole)
    (arg4 : Memref sig .tc .vmem S512x1024 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1x1024 .f32) (harg7 : arg7.IsWhole)
    (x0 : Vec F S2048x512 .bf16) (x1 : Vec F S2048x1 .i32) (y2 : Vec F S512x1024 .f32) (y3 : Vec F S1x1024 .f32)
    (a : Vec F S512x1024 .f32) (b : Vec F S1x1024 .f32) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ owns (c : Thread nD τ) arg6 fullShare a ∗ owns (c : Thread nD τ) arg7 fullShare b
        ∗ (iprop(owns (c : Thread nD τ) arg2 fullShare x0 ∗ owns (c : Thread nD τ) arg3 fullShare x1
            ∗ owns (c : Thread nD τ) arg4 fullShare y2 ∗ owns (c : Thread nD τ) arg5 fullShare y3
            ∗ owns (c : Thread nD τ) arg6 fullShare (k0_pay4 i x1 x0 a) ∗ owns (c : Thread nD τ) arg7 fullShare (k0_pay5 i x1 b)) -∗ K ⟨⟩))
      ⊢ wp frame (wpE (defs₀ (F := F)) Variants.none c none) E (cc0__scatter_kernel i arg2 harg2 arg3 harg3 arg4 harg4 arg5 harg5 arg6 harg6 arg7 harg7) K := by
  simp only [cc0__scatter_kernel_eq_skeleton]; unfold cc0__scatter_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]
  · iexists _; isplitr
    swap; · iexact H6
    ipureintro
    try sl_unfold_words
    rw [Cert.Whole.read_writes_cons, Cert.Whole.readAt_whole, Cert.Whole.readAt_whole, Cert.Whole.readAt_whole]
  · iexists _; isplitr
    swap; · iexact H7
    ipureintro
    try sl_unfold_words
    rw [Cert.Whole.read_writes_cons, Cert.Whole.readAt_whole, Cert.Whole.readAt_whole]

set_option maxHeartbeats 1000000 in
/-- Last row block: the point's work is added, and the accumulators are copied into the two output buffers. -/
theorem sound0_C (c : Dev nD) (E : Set ℕ) (i : grid0.Coords) (hc0 : ¬cond0_0 i) (hc1 : cond0_1 i)
    (arg2 : Memref sig .tc .vmem S2048x512 .bf16) (harg2 : arg2.IsWhole) (arg3 : Memref sig .tc .vmem S2048x1 .i32) (harg3 : arg3.IsWhole)
    (arg4 : Memref sig .tc .vmem S512x1024 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1x1024 .f32) (harg7 : arg7.IsWhole)
    (x0 : Vec F S2048x512 .bf16) (x1 : Vec F S2048x1 .i32)
    (a : Vec F S512x1024 .f32) (b : Vec F S1x1024 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare a ∗ owns (c : Thread nD τ) arg7 fullShare b
        ∗ (iprop(owns (c : Thread nD τ) arg2 fullShare x0 ∗ owns (c : Thread nD τ) arg3 fullShare x1
            ∗ owns (c : Thread nD τ) arg4 fullShare (k0_pay4 i x1 x0 a) ∗ owns (c : Thread nD τ) arg5 fullShare (k0_pay5 i x1 b)
            ∗ owns (c : Thread nD τ) arg6 fullShare (k0_pay4 i x1 x0 a) ∗ owns (c : Thread nD τ) arg7 fullShare (k0_pay5 i x1 b)) -∗ K ⟨⟩))
      ⊢ wp frame (wpE (defs₀ (F := F)) Variants.none c none) E (cc0__scatter_kernel i arg2 harg2 arg3 harg3 arg4 harg4 arg5 harg5 arg6 harg6 arg7 harg7) K := by
  simp only [cc0__scatter_kernel_eq_skeleton]; unfold cc0__scatter_kernel_skel
  unfold owns
  iintro ⟨⟨%f0, %hf0, H0⟩, ⟨%f1, %hf1, H1⟩, ⟨%d2, %f2, -, H2⟩, ⟨%d3, %f3, -, H3⟩, ⟨%f6, %hf6, H6⟩, ⟨%f7, %hf7, H7⟩, Hk⟩
  subst hf0; subst hf1; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]
  · iexists _; isplitr
    swap; · iexact H2
    ipureintro
    try sl_unfold_words
    rw [Cert.Whole.read_writes_cons, Cert.Whole.readCov_whole, Cert.Whole.readAt_whole, Cert.Whole.readAt_whole, Cert.Whole.readAt_whole]
  isplitl [H3]
  · iexists _; isplitr
    swap; · iexact H3
    ipureintro
    try sl_unfold_words
    rw [Cert.Whole.read_writes_cons, Cert.Whole.readCov_whole, Cert.Whole.readAt_whole, Cert.Whole.readAt_whole]
  isplitl [H6]
  · iexists _; isplitr
    swap; · iexact H6
    ipureintro
    try sl_unfold_words
    rw [Cert.Whole.read_writes_cons, Cert.Whole.readAt_whole, Cert.Whole.readAt_whole, Cert.Whole.readAt_whole]
  · iexists _; isplitr
    swap; · iexact H7
    ipureintro
    try sl_unfold_words
    rw [Cert.Whole.read_writes_cons, Cert.Whole.readAt_whole, Cert.Whole.readAt_whole]

end Triples

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t
    ∗ (dat0 V c).leavesExact 2 t ∗ (dat0 V c).leavesExact 3 t)

/-- Whatever the invariant holds before a point, it holds both accumulators at something. -/
theorem Phi0_any (c : Dev nD) (n : ℕ) (h : n ≤ cfg0.N) :
    Phi0 V c n h ⊢ iprop(((∃ d, owns (c : Thread nD τ) sc0_0 fullShare d) ∗ (∃ d, owns (c : Thread nD τ) sc0_1 fullShare d) ∗ rest0 c) ∗ (∃ r, prngReg c r)) := by
  by_cases hz : n = 0
  · rw [Phi0_zero V c _ _ hz, PhiA0_eq]
  · rw [Phi0_pos V c _ _ hz]
    iintro ⟨⟨HS0, HS1, Hr⟩, Hg⟩
    isplitl [HS0 HS1 Hr]
    · isplitl [HS0]; · iexists _; iexact HS0
      isplitl [HS1]; · iexists _; iexact HS1
      iexact Hr
    iexact Hg

set_option maxHeartbeats 4000000 in
/-- The body at any point: the inputs' buffers hold their blocks; the position says which case the point is in; the
    invariant hands over the accumulators at what the point before left (at anything where they are about to be
    cleared) and takes them back at this point's; an output not copied out here goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [Phi0_castSucc V c t]
  have hN : t.val < 64 := lt_of_lt_of_eq t.isLt (show cfg0.N = 64 from N_0)
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t hc1),
      Dat.leavesExact_idle (dat0 V c) 3 t (idleAt0_3 t hc1) (noFlush0_3 t hc1)]
    rw [acc0_first V c t h0]; unfold step0; dsimp only
    iintro ⟨HΦ, Ho, ⟨%d0, H0⟩, ⟨%d1, H1⟩, ⟨%d2, H2⟩, ⟨%d3, H3⟩⟩
    ihave HΦ' := (Phi0_any V c _ _) $$ HΦ
    icases HΦ' with ⟨⟨HS0, HS1, Hr⟩, Hg⟩
    iapply (sound0_A c Set.univ (grid0.coords t) hc0 hc1 _ _ _ _ _ _ _ _ _ _ _ _ (xblk0 V c t) (lblk0 V c t) _ _ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexists _; iexact H2
    iexists _; iexact H3
  · have hz : t.val ≠ 0 := fun e => h0 (by rw [e])
    have hc0 : ¬cond0_0 (grid0.coords t) := fun h => h0 ((hcond0_0 t).mp h)
    rw [acc0_next V c t h0]; unfold step0; dsimp only
    rw [Phi0_pos V c _ _ hz]
    by_cases h1 : t.val % 16 = 15
    · have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2]
      rw [show (dat0 V c).leavesExact 3 t = owns (c : Thread nD τ) (st0_3 t) fullShare ((dat0 V c).after 3 t) from by
        unfold Dat.leavesExact; rw [liveAt0_3 t hc1], after0_3]
      rw [acc0_next V c t h0]; unfold step0; dsimp only
      iintro ⟨⟨⟨HS0, HS1, Hr⟩, Hg⟩, Ho, ⟨%d0, H0⟩, ⟨%d1, H1⟩, ⟨%d2, H2⟩, ⟨%d3, H3⟩⟩
      iapply (sound0_C c Set.univ (grid0.coords t) hc0 hc1 _ _ _ _ _ _ _ _ _ _ _ _ (xblk0 V c t) (lblk0 V c t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 2 t (idleAt0_2 t hc1) (noFlush0_2 t hc1),
        Dat.leavesExact_idle (dat0 V c) 3 t (idleAt0_3 t hc1) (noFlush0_3 t hc1)]
      iintro ⟨⟨⟨HS0, HS1, Hr⟩, Hg⟩, Ho, ⟨%d0, H0⟩, ⟨%d1, H1⟩, ⟨%d2, H2⟩, ⟨%d3, H3⟩⟩
      iapply (sound0_B c Set.univ (grid0.coords t) hc0 hc1 _ _ _ _ _ _ _ _ _ _ _ _ (xblk0 V c t) (lblk0 V c t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the launch's back: what the accumulators hold is forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl, PhiA0_eq]
  exact Phi0_any V c _ _

end Cert.Kernel.Hand

end
-- ==== Proof.KGather.lean ====
/-
  The second of the program's two kernel regions: for each block of 2048 rows, a pass over the 8 blocks of 512 codes
  that accumulates, in a buffer the kernel keeps between grid points, the product of the rows' one-hot label matrix
  over the code block with the code block's columns of the codebook (transposed) — so that after all 8 the accumulator
  holds each row's code looked up in the codebook. The accumulator is cleared at the first code block and copied into
  the output block at the last. Stated here: what the accumulator holds after every grid point, as a recursion over the
  points through the body's own arithmetic; the invariant that carries it from point to point; and that the body, run at
  any point, takes the invariant one point on, leaves the inputs' staging buffers alone and, at a last code block,
  leaves the accumulator's contents in the output's staging buffer.
-/
import proofs.«408632_j30477087933017_3_alg».proof.Proof.Gen.Kernel.Launch
import proofs.«408632_j30477087933017_3_alg».proof.Proof.Gen.Kernel.Skeleton
import proofs.«408632_j30477087933017_3_alg».proof.Proof.Gen.Kernel.Points
import proofs.«408632_j30477087933017_3_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The conditions of the body's two branches, and where the output window is idle

The grid is 16 row blocks by 8 code blocks, the code blocks innermost: point t is row block t / 8, code block t % 8.
The accumulator is cleared where the code block is 0 and copied out where it is 7. -/

/-- The code block is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The code block is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The input blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole codebook, features by codes (one block: the window does not move). -/
abbrev wblk1 (c : Dev nD) (t : Fin cfg1.N) : Vec F S512x4096 .f32 := iblk1 V c 0 t
/-- The 2048 labels of row block t / 8, as a column. -/
abbrev lblk1 (c : Dev nD) (t : Fin cfg1.N) : Vec F S2048x1 .i32 := iblk1 V c 1 t

/-- The 512 codes of code block (i 1) of a codebook: all features, columns 512·(i 1) onwards. -/
def etile1 (i : grid1.Coords) (x0 : Vec F S512x4096 .f32) : Vec F S512x512 .f32 :=
  fun j => x0 ((Rect.unit (s := S512x4096) (k1_off1 i) S512x512.size (k1_off1_inb i)).toLoadRect.idx j)

/-- An input's staging buffer holds the input's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- One point's work on the accumulator: add the product of the rows' one-hot matrix over the code block with the
    code block's columns of the codebook, transposed. -/
def step1 (c : Dev nD) (t : Fin cfg1.N) (p : Vec F S2048x512 .f32) : Vec F S2048x512 .f32 :=
  k1_pay2 (grid1.coords t) (lblk1 V c t) (etile1 (grid1.coords t) (wblk1 V c t)) p

/-- What the accumulator holds after the point at position n: the point's work on zeros where the code block is the
    first, on what the point before left elsewhere. -/
def acc1 (c : Dev nD) : (n : ℕ) → n < cfg1.N → Vec F S2048x512 .f32
  | 0, hn => step1 V c ⟨0, hn⟩ k1_pay1
  | n + 1, hn => step1 V c ⟨n + 1, hn⟩ (if (n + 1) % 8 = 0 then k1_pay1 else acc1 c n (Nat.lt_of_succ_lt hn))

theorem acc1_first (c : Dev nD) (t : Fin cfg1.N) (h : t.val % 8 = 0) :
    acc1 V c t.val t.isLt = step1 V c t k1_pay1 := by
  obtain ⟨n, hn⟩ := t
  cases n with
  | zero => rfl
  | succ n => show step1 V c _ (if (n + 1) % 8 = 0 then _ else _) = _; rw [if_pos h]

theorem acc1_next (c : Dev nD) (t : Fin cfg1.N) (h : ¬t.val % 8 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h
  | succ n => show step1 V c _ (if (n + 1) % 8 = 0 then _ else _) = _; rw [if_neg h]; rfl

/-! ## The region's invariant -/

/-- The accumulator: a scratch buffer of the kernel's own. -/
abbrev sc1_0 : Memref sig .tc .vmem S2048x512 .f32 := Memref.whole cc1_scratch0

/-- The core's scoped buffers that this region does not stage — the first region's, each at some contents — and last
    the accumulator, at X. -/
def scoped1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

/-- What the launch hands the region: the accumulator at anything among the other scoped buffers, and the generator
    register. -/
theorem PhiA1_eq (c : Dev nD) :
    (Pipeline.ΦA spec1 c : sProp 𝕄)
      = iprop(scoped1 c (iprop(∃ d, owns (c : Thread nD τ) sc1_0 fullShare d)) ∗ (∃ r, prngReg c r)) := by
  unfold Pipeline.ΦA scoped1; rw [scopedRest1_eq]; simp only [sc1_0, owns_whole]; rfl

theorem scoped1_mono (c : Dev nD) {X Y : sProp 𝕄} (h : X ⊢ Y) : scoped1 (F := F) c X ⊢ scoped1 c Y := by
  unfold scoped1
  iintro ⟨B0, B1, B2, B3, B4, B5, B6, B7, B8, B9, HX⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iapply h; iexact HX

/-- The invariant before position n: at the start the launch's; afterwards the accumulator at what the point before
    left in it. -/
def Phi1 (c : Dev nD) : (n : ℕ) → n ≤ cfg1.N → sProp 𝕄
  | 0, _ => Pipeline.ΦA spec1 c
  | n + 1, hn => iprop(scoped1 c (owns (c : Thread nD τ) sc1_0 fullShare (acc1 V c n hn)) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(scoped1 c (owns (c : Thread nD τ) sc1_0 fullShare (acc1 V c n hn)) ∗ (∃ r, prngReg c r)) := rfl
theorem Phi1_pos (c : Dev nD) (n : ℕ) (h : n ≤ cfg1.N) (hz : n ≠ 0) :
    Phi1 V c n h = iprop(scoped1 c (owns (c : Thread nD τ) sc1_0 fullShare (acc1 V c (n - 1) (by omega))) ∗ (∃ r, prngReg c r)) := by
  cases n with
  | zero => exact absurd rfl hz
  | succ n => rfl

/-! ## The proof data -/

/-- The arrays as the region finds them; after the body each input's buffer at its block, the output's at the
    accumulator (read only where it is copied out); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's triple, one per case of its two branches

On whole staging memrefs: the codebook and the labels are only loaded (the codebook through the code block's column
range); the accumulator is loaded and stored whole; the output is stored whole where the code block is the last and
untouched elsewhere. -/

section Triples
omit V

theorem tile_eq (i : grid1.Coords) (arg2 : Memref sig .tc .vmem S512x4096 .f32) (f0 : arg2.view.ty.Contents (Elt F)) :
    View.readAt (Elt F) arg2.view (Rect.unit (s := S512x4096) (k1_off1 i) S512x512.size (k1_off1_inb i)).toLoadRect f0
      = etile1 i (View.read (Elt F) arg2.view f0) := rfl

set_option maxHeartbeats 1000000 in
/-- First code block: the accumulator is cleared, then the point's work is added. -/
theorem sound1_A (c : Dev nD) (E : Set ℕ) (i : grid1.Coords) (hc0 : cond1_0 i) (hc1 : ¬cond1_1 i)
    (arg2 : Memref sig .tc .vmem S512x4096 .f32) (harg2 : arg2.IsWhole) (arg3 : Memref sig .tc .vmem S2048x1 .i32) (harg3 : arg3.IsWhole)
    (arg4 : Memref sig .tc .vmem S2048x512 .f32) (harg4 : arg4.IsWhole) (arg5 : Memref sig .tc .vmem S2048x512 .f32) (harg5 : arg5.IsWhole)
    (x0 : Vec F S512x4096 .f32) (x1 : Vec F S2048x1 .i32) (y2 : Vec F S2048x512 .f32) (K : PUnit → sProp 𝕄) :
    iprop(owns (c : Thread nD τ) arg2 fullShare x0 ∗ owns (c : Thread nD τ) arg3 fullShare x1
        ∗ owns (c : Thread nD τ) arg4 fullShare y2 ∗ (∃ d, owns (c : Thread nD τ) arg5 fullShare d)
        ∗ (iprop(owns (c : Thread nD τ) arg2 fullShare x0 ∗ owns (c : Thread nD τ) arg3 fullShare x1
            ∗ owns (c : Thread nD τ) arg4 fullShare y2
            ∗ owns (c : Thread nD τ) arg5 fullShare (k1_pay2 i x1 (etile1 i x0) k1_pay1)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%d5, %f5, -, H5⟩, Hk⟩
  subst hf0; subst hf1; subst hf2
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  iexists _; isplitr
  swap; · iexact H5
  ipureintro
  try sl_unfold_run_names
  rw [Cert.Whole.read_writes_cons, Cert.Whole.readAt_whole, tile_eq, Cert.Whole.readCov_whole]

set_option maxHeartbeats 1000000 in
/-- A code block strictly between: the point's work is added to what the accumulator holds. -/
theorem sound1_B (c : Dev nD) (E : Set ℕ) (i : grid1.Coords) (hc0 : ¬cond1_0 i) (hc1 : ¬cond1_1 i)
    (arg2 : Memref sig .tc .vmem S512x4096 .f32) (harg2 : arg2.IsWhole) (arg3 : Memref sig .tc .vmem S2048x1 .i32) (harg3 : arg3.IsWhole)
    (arg4 : Memref sig .tc .vmem S2048x512 .f32) (harg4 : arg4.IsWhole) (arg5 : Memref sig .tc .vmem S2048x512 .f32) (harg5 : arg5.IsWhole)
    (x0 : Vec F S512x4096 .f32) (x1 : Vec F S2048x1 .i32) (y2 : Vec F S2048x512 .f32) (a : Vec F S2048x512 .f32) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare a
        ∗ (iprop(owns (c : Thread nD τ) arg2 fullShare x0 ∗ owns (c : Thread nD τ) arg3 fullShare x1
            ∗ owns (c : Thread nD τ) arg4 fullShare y2
            ∗ owns (c : Thread nD τ) arg5 fullShare (k1_pay2 i x1 (etile1 i x0) a)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%f5, %hf5, H5⟩, Hk⟩
  subst hf0; subst hf1; subst hf2; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  iexists _; isplitr
  swap; · iexact H5
  ipureintro
  try sl_unfold_run_names
  rw [Cert.Whole.read_writes_cons, Cert.Whole.readAt_whole, tile_eq, Cert.Whole.readAt_whole]

set_option maxHeartbeats 1000000 in
/-- Last code block: the point's work is added, and the accumulator is copied into the output buffer. -/
theorem sound1_C (c : Dev nD) (E : Set ℕ) (i : grid1.Coords) (hc0 : ¬cond1_0 i) (hc1 : cond1_1 i)
    (arg2 : Memref sig .tc .vmem S512x4096 .f32) (harg2 : arg2.IsWhole) (arg3 : Memref sig .tc .vmem S2048x1 .i32) (harg3 : arg3.IsWhole)
    (arg4 : Memref sig .tc .vmem S2048x512 .f32) (harg4 : arg4.IsWhole) (arg5 : Memref sig .tc .vmem S2048x512 .f32) (harg5 : arg5.IsWhole)
    (x0 : Vec F S512x4096 .f32) (x1 : Vec F S2048x1 .i32) (a : Vec F S2048x512 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare a
        ∗ (iprop(owns (c : Thread nD τ) arg2 fullShare x0 ∗ owns (c : Thread nD τ) arg3 fullShare x1
            ∗ owns (c : Thread nD τ) arg4 fullShare (k1_pay2 i x1 (etile1 i x0) a)
            ∗ owns (c : Thread nD τ) arg5 fullShare (k1_pay2 i x1 (etile1 i x0) a)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%d2, %f2, -, H2⟩, ⟨%f5, %hf5, H5⟩, Hk⟩
  subst hf0; subst hf1; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]
  · iexists _; isplitr
    swap; · iexact H2
    ipureintro
    try sl_unfold_run_names
    rw [Cert.Whole.read_writes_cons, Cert.Whole.readCov_whole, Cert.Whole.readAt_whole, tile_eq, Cert.Whole.readAt_whole]
  · iexists _; isplitr
    swap; · iexact H5
    ipureintro
    try sl_unfold_run_names
    rw [Cert.Whole.read_writes_cons, Cert.Whole.readAt_whole, tile_eq, Cert.Whole.readAt_whole]

end Triples

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

/-- Whatever the invariant holds before a point, it holds the accumulator at something. -/
theorem Phi1_any (c : Dev nD) (n : ℕ) (h : n ≤ cfg1.N) :
    Phi1 V c n h ⊢ iprop(scoped1 c (iprop(∃ d, owns (c : Thread nD τ) sc1_0 fullShare d)) ∗ (∃ r, prngReg c r)) := by
  by_cases hz : n = 0
  · rw [Phi1_zero V c _ _ hz, PhiA1_eq]
  · rw [Phi1_pos V c _ _ hz]
    iintro ⟨HS, Hg⟩
    isplitl [HS]
    · iapply (scoped1_mono c (X := owns (c : Thread nD τ) sc1_0 fullShare (acc1 V c (n - 1) (by omega))) (by iintro H; iexists _; iexact H))
      iexact HS
    iexact Hg

/-- The accumulator taken out of the scoped buffers and put back at other contents. -/
theorem scoped1_swap (c : Dev nD) (X Y : sProp 𝕄) : scoped1 (F := F) c X ⊢ iprop(X ∗ (Y -∗ scoped1 c Y)) := by
  unfold scoped1
  iintro ⟨B0, B1, B2, B3, B4, B5, B6, B7, B8, B9, HX⟩
  isplitl [HX]; · iexact HX
  iintro HY
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact HY

set_option maxHeartbeats 4000000 in
/-- The body at any point: the inputs' buffers hold their blocks; the position says which case the point is in; the
    invariant hands over the accumulator at what the point before left (at anything where it is about to be cleared)
    and takes it back at this point's; the output, where it is not copied out, goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [Phi1_castSucc V c t]
  have hN : t.val < 128 := lt_of_lt_of_eq t.isLt (show cfg1.N = 128 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [acc1_first V c t h0]; unfold step1
    iintro ⟨HΦ, Ho, ⟨%d0, H0⟩, ⟨%d1, H1⟩, ⟨%d2, H2⟩⟩
    ihave HΦ' := (Phi1_any V c _ _) $$ HΦ
    icases HΦ' with ⟨HS, Hg⟩
    ihave HS' := (scoped1_swap c _ (owns (c : Thread nD τ) sc1_0 fullShare (k1_pay2 (grid1.coords t) (lblk1 V c t) (etile1 (grid1.coords t) (wblk1 V c t)) k1_pay1))) $$ HS
    icases HS' with ⟨HS, Hback⟩
    iapply (sound1_A c Set.univ (grid1.coords t) hc0 hc1 _ _ _ _ _ _ _ _ (wblk1 V c t) (lblk1 V c t) _ _)
    isplitl [H0]; · iexact H0
    isplitl [H1]; · iexact H1
    isplitl [H2]; · iexact H2
    isplitl [HS]; · iexact HS
    iintro ⟨H0, H1, H2, HS⟩
    isplitl [HS Hback Hg]
    · isplitl [HS Hback]
      · iapply Hback; iexact HS
      iexact Hg
    isplitl [Ho]; · iexact Ho
    isplitl [H0]; · iexact H0
    isplitl [H1]; · iexact H1
    iexists _; iexact H2
  · have hz : t.val ≠ 0 := fun e => h0 (by rw [e])
    have hc0 : ¬cond1_0 (grid1.coords t) := fun h => h0 ((hcond1_0 t).mp h)
    rw [acc1_next V c t h0]; unfold step1
    rw [Phi1_pos V c _ _ hz]
    by_cases h1 : t.val % 8 = 7
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2]
      rw [acc1_next V c t h0]; unfold step1
      iintro ⟨⟨HS, Hg⟩, Ho, ⟨%d0, H0⟩, ⟨%d1, H1⟩, ⟨%d2, H2⟩⟩
      ihave HS' := (scoped1_swap c _ (owns (c : Thread nD τ) sc1_0 fullShare (k1_pay2 (grid1.coords t) (lblk1 V c t) (etile1 (grid1.coords t) (wblk1 V c t)) (acc1 V c (t.val - 1) (Nat.lt_of_le_of_lt (Nat.sub_le _ _) t.isLt))))) $$ HS
      icases HS' with ⟨HS, Hback⟩
      iapply (sound1_C c Set.univ (grid1.coords t) hc0 hc1 _ _ _ _ _ _ _ _ (wblk1 V c t) (lblk1 V c t) _ _)
      isplitl [H0]; · iexact H0
      isplitl [H1]; · iexact H1
      isplitl [H2]; · iexists _; iexact H2
      isplitl [HS]; · iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨HS, Hg⟩, Ho, ⟨%d0, H0⟩, ⟨%d1, H1⟩, ⟨%d2, H2⟩⟩
      ihave HS' := (scoped1_swap c _ (owns (c : Thread nD τ) sc1_0 fullShare (k1_pay2 (grid1.coords t) (lblk1 V c t) (etile1 (grid1.coords t) (wblk1 V c t)) (acc1 V c (t.val - 1) (Nat.lt_of_le_of_lt (Nat.sub_le _ _) t.isLt))))) $$ HS
      icases HS' with ⟨HS, Hback⟩
      iapply (sound1_B c Set.univ (grid1.coords t) hc0 hc1 _ _ _ _ _ _ _ _ (wblk1 V c t) (lblk1 V c t) _ _ _)
      isplitl [H0]; · iexact H0
      isplitl [H1]; · iexact H1
      isplitl [H2]; · iexact H2
      isplitl [HS]; · iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the launch's back: what the accumulator holds is forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl, PhiA1_eq]
  exact Phi1_any V c _ _

end Cert.Kernel.Hand

end
-- ==== Proof.KIScatter.lean ====
/-
  The first of the program's two kernel regions: for each block of 1024 codes, a pass over the 16 blocks of 2048 rows
  that accumulates, in two buffers the kernel keeps between grid points, the product of the rows' features (transposed)
  with the rows' one-hot label matrix — the per-code feature sums — and that matrix's column sums — the per-code
  counts. The accumulators are cleared at the first row block and copied into the two output blocks at the last.
  Stated here: what the accumulators hold after every grid point, as a recursion over the points through the body's
  own arithmetic; the invariant that carries them from point to point; and that the body, run at any point, takes
  the invariant one point on, leaves the inputs' staging buffers alone and, at a last row block, leaves the
  accumulators' contents in the outputs' staging buffers.
-/
import proofs.«408632_j30477087933017_3_alg».proof.Proof.Gen.KernelIdeal.Launch
import proofs.«408632_j30477087933017_3_alg».proof.Proof.Gen.KernelIdeal.Skeleton
import proofs.«408632_j30477087933017_3_alg».proof.Proof.Gen.KernelIdeal.Points
import proofs.«408632_j30477087933017_3_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The conditions of the body's two branches, and where the output windows are idle

The grid is 4 column blocks by 16 row blocks, the row blocks innermost: point t is column block t / 16, row block
t % 16. The accumulators are cleared where the row block is 0 and copied out where it is 15. -/

/-- The row block is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The row block is the last. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The input blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 2048 rows of row block t % 16, all 512 features. -/
abbrev xblk0 (c : Dev nD) (t : Fin cfg0.N) : Vec F S2048x512 .bf16 := iblk0 V c 0 t
/-- Their 2048 labels, as a column. -/
abbrev lblk0 (c : Dev nD) (t : Fin cfg0.N) : Vec F S2048x1 .i32 := iblk0 V c 1 t

/-- An input's staging buffer holds the input's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two accumulators, point by point -/

/-- One point's work on the pair (feature sums, counts): add the block's product with its one-hot matrix, and the
    one-hot matrix's column sums. -/
def step0 (c : Dev nD) (t : Fin cfg0.N) (p : Vec F S512x1024 .f32 × Vec F S1x1024 .f32) : Vec F S512x1024 .f32 × Vec F S1x1024 .f32 :=
  (k0_pay4 (grid0.coords t) (lblk0 V c t) (xblk0 V c t) p.1, k0_pay5 (grid0.coords t) (lblk0 V c t) p.2)

/-- What the two accumulators hold after the point at position n: the point's work on zeros where the row block is the
    first, on what the point before left elsewhere. -/
def acc0 (c : Dev nD) : (n : ℕ) → n < cfg0.N → Vec F S512x1024 .f32 × Vec F S1x1024 .f32
  | 0, hn => step0 V c ⟨0, hn⟩ (k0_pay1, k0_pay2)
  | n + 1, hn => step0 V c ⟨n + 1, hn⟩ (if (n + 1) % 16 = 0 then (k0_pay1, k0_pay2) else acc0 c n (Nat.lt_of_succ_lt hn))

theorem acc0_first (c : Dev nD) (t : Fin cfg0.N) (h : t.val % 16 = 0) :
    acc0 V c t.val t.isLt = step0 V c t (k0_pay1, k0_pay2) := by
  obtain ⟨n, hn⟩ := t
  cases n with
  | zero => rfl
  | succ n => show step0 V c _ (if (n + 1) % 16 = 0 then _ else _) = _; rw [if_pos h]

theorem acc0_next (c : Dev nD) (t : Fin cfg0.N) (h : ¬t.val % 16 = 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod _) h
  | succ n => show step0 V c _ (if (n + 1) % 16 = 0 then _ else _) = _; rw [if_neg h]; rfl

/-! ## The region's invariant -/

/-- The two accumulators: scratch buffers of the kernel's own. -/
abbrev sc0_0 : Memref sig .tc .vmem S512x1024 .f32 := Memref.whole cc0_scratch0
abbrev sc0_1 : Memref sig .tc .vmem S1x1024 .f32 := Memref.whole cc0_scratch1

/-- The core's other scoped buffers that this region does not stage: the second region's, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the launch hands the region: both accumulators at anything, the other scoped buffers, the generator register. -/
theorem PhiA0_eq (c : Dev nD) :
    (Pipeline.ΦA spec0 c : sProp 𝕄)
      = iprop(((∃ d, owns (c : Thread nD τ) sc0_0 fullShare d) ∗ (∃ d, owns (c : Thread nD τ) sc0_1 fullShare d) ∗ rest0 c) ∗ (∃ r, prngReg c r)) := by
  unfold Pipeline.ΦA rest0; rw [scopedRest0_eq]; simp only [sc0_0, sc0_1, owns_whole]; rfl

/-- The invariant before position n: at the start the launch's; afterwards the accumulators at what the point before
    left in them. -/
def Phi0 (c : Dev nD) : (n : ℕ) → n ≤ cfg0.N → sProp 𝕄
  | 0, _ => Pipeline.ΦA spec0 c
  | n + 1, hn => iprop((owns (c : Thread nD τ) sc0_0 fullShare (acc0 V c n hn).1 ∗ owns (c : Thread nD τ) sc0_1 fullShare (acc0 V c n hn).2 ∗ rest0 c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) sc0_0 fullShare (acc0 V c n hn).1 ∗ owns (c : Thread nD τ) sc0_1 fullShare (acc0 V c n hn).2 ∗ rest0 c) ∗ (∃ r, prngReg c r)) := rfl
theorem Phi0_pos (c : Dev nD) (n : ℕ) (h : n ≤ cfg0.N) (hz : n ≠ 0) :
    Phi0 V c n h = iprop((owns (c : Thread nD τ) sc0_0 fullShare (acc0 V c (n - 1) (by omega)).1 ∗ owns (c : Thread nD τ) sc0_1 fullShare (acc0 V c (n - 1) (by omega)).2 ∗ rest0 c) ∗ (∃ r, prngReg c r)) := by
  cases n with
  | zero => exact absurd rfl hz
  | succ n => rfl

/-! ## The proof data -/

/-- The arrays as the region finds them; after the body each input's buffer at its block, the outputs' at the
    accumulators (read only where they are copied out); the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's triple, one per case of its two branches

On whole staging memrefs: the two inputs are only loaded; the accumulators are loaded and stored whole; the two
outputs are stored whole where the row block is the last and untouched elsewhere. -/

section Triples
omit V

set_option maxHeartbeats 1000000 in
/-- First row block: the accumulators are cleared, then the point's work is added. -/
theorem sound0_A (c : Dev nD) (E : Set ℕ) (i : grid0.Coords) (hc0 : cond0_0 i) (hc1 : ¬cond0_1 i)
    (arg2 : Memref sig .tc .vmem S2048x512 .bf16) (harg2 : arg2.IsWhole) (arg3 : Memref sig .tc .vmem S2048x1 .i32) (harg3 : arg3.IsWhole)
    (arg4 : Memref sig .tc .vmem S512x1024 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1x1024 .f32) (harg7 : arg7.IsWhole)
    (x0 : Vec F S2048x512 .bf16) (x1 : Vec F S2048x1 .i32) (y2 : Vec F S512x1024 .f32) (y3 : Vec F S1x1024 .f32)
    (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare y2 ∗ owns (c : Thread nD τ) arg5 fullShare y3
            ∗ owns (c : Thread nD τ) arg6 fullShare (k0_pay4 i x1 x0 k0_pay1) ∗ owns (c : Thread nD τ) arg7 fullShare (k0_pay5 i x1 k0_pay2)) -∗ K ⟨⟩))
      ⊢ wp frame (wpE (defs₀ (F := F)) Variants.none c none) E (cc0__scatter_kernel i arg2 harg2 arg3 harg3 arg4 harg4 arg5 harg5 arg6 harg6 arg7 harg7) K := by
  simp only [cc0__scatter_kernel_eq_skeleton]; unfold cc0__scatter_kernel_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, Hk⟩
  subst hf0; subst hf1; subst hf2; subst hf3
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]
  · iexists _; isplitr
    swap; · iexact H6
    ipureintro
    try sl_unfold_words
    rw [Cert.Whole.read_writes_cons, Cert.Whole.readAt_whole, Cert.Whole.readAt_whole, Cert.Whole.readCov_whole]
  · iexists _; isplitr
    swap; · iexact H7
    ipureintro
    try sl_unfold_words
    rw [Cert.Whole.read_writes_cons, Cert.Whole.readAt_whole, Cert.Whole.readCov_whole]

set_option maxHeartbeats 1000000 in
/-- A row block strictly between: the point's work is added to what the accumulators hold. -/
theorem sound0_B (c : Dev nD) (E : Set ℕ) (i : grid0.Coords) (hc0 : ¬cond0_0 i) (hc1 : ¬cond0_1 i)
    (arg2 : Memref sig .tc .vmem S2048x512 .bf16) (harg2 : arg2.IsWhole) (arg3 : Memref sig .tc .vmem S2048x1 .i32) (harg3 : arg3.IsWhole)
    (arg4 : Memref sig .tc .vmem S512x1024 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1x1024 .f32) (harg7 : arg7.IsWhole)
    (x0 : Vec F S2048x512 .bf16) (x1 : Vec F S2048x1 .i32) (y2 : Vec F S512x1024 .f32) (y3 : Vec F S1x1024 .f32)
    (a : Vec F S512x1024 .f32) (b : Vec F S1x1024 .f32) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare y3
        ∗ owns (c : Thread nD τ) arg6 fullShare a ∗ owns (c : Thread nD τ) arg7 fullShare b
        ∗ (iprop(owns (c : Thread nD τ) arg2 fullShare x0 ∗ owns (c : Thread nD τ) arg3 fullShare x1
            ∗ owns (c : Thread nD τ) arg4 fullShare y2 ∗ owns (c : Thread nD τ) arg5 fullShare y3
            ∗ owns (c : Thread nD τ) arg6 fullShare (k0_pay4 i x1 x0 a) ∗ owns (c : Thread nD τ) arg7 fullShare (k0_pay5 i x1 b)) -∗ K ⟨⟩))
      ⊢ wp frame (wpE (defs₀ (F := F)) Variants.none c none) E (cc0__scatter_kernel i arg2 harg2 arg3 harg3 arg4 harg4 arg5 harg5 arg6 harg6 arg7 harg7) K := by
  simp only [cc0__scatter_kernel_eq_skeleton]; unfold cc0__scatter_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H6]
  · iexists _; isplitr
    swap; · iexact H6
    ipureintro
    try sl_unfold_words
    rw [Cert.Whole.read_writes_cons, Cert.Whole.readAt_whole, Cert.Whole.readAt_whole, Cert.Whole.readAt_whole]
  · iexists _; isplitr
    swap; · iexact H7
    ipureintro
    try sl_unfold_words
    rw [Cert.Whole.read_writes_cons, Cert.Whole.readAt_whole, Cert.Whole.readAt_whole]

set_option maxHeartbeats 1000000 in
/-- Last row block: the point's work is added, and the accumulators are copied into the two output buffers. -/
theorem sound0_C (c : Dev nD) (E : Set ℕ) (i : grid0.Coords) (hc0 : ¬cond0_0 i) (hc1 : cond0_1 i)
    (arg2 : Memref sig .tc .vmem S2048x512 .bf16) (harg2 : arg2.IsWhole) (arg3 : Memref sig .tc .vmem S2048x1 .i32) (harg3 : arg3.IsWhole)
    (arg4 : Memref sig .tc .vmem S512x1024 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1x1024 .f32) (harg7 : arg7.IsWhole)
    (x0 : Vec F S2048x512 .bf16) (x1 : Vec F S2048x1 .i32)
    (a : Vec F S512x1024 .f32) (b : Vec F S1x1024 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare a ∗ owns (c : Thread nD τ) arg7 fullShare b
        ∗ (iprop(owns (c : Thread nD τ) arg2 fullShare x0 ∗ owns (c : Thread nD τ) arg3 fullShare x1
            ∗ owns (c : Thread nD τ) arg4 fullShare (k0_pay4 i x1 x0 a) ∗ owns (c : Thread nD τ) arg5 fullShare (k0_pay5 i x1 b)
            ∗ owns (c : Thread nD τ) arg6 fullShare (k0_pay4 i x1 x0 a) ∗ owns (c : Thread nD τ) arg7 fullShare (k0_pay5 i x1 b)) -∗ K ⟨⟩))
      ⊢ wp frame (wpE (defs₀ (F := F)) Variants.none c none) E (cc0__scatter_kernel i arg2 harg2 arg3 harg3 arg4 harg4 arg5 harg5 arg6 harg6 arg7 harg7) K := by
  simp only [cc0__scatter_kernel_eq_skeleton]; unfold cc0__scatter_kernel_skel
  unfold owns
  iintro ⟨⟨%f0, %hf0, H0⟩, ⟨%f1, %hf1, H1⟩, ⟨%d2, %f2, -, H2⟩, ⟨%d3, %f3, -, H3⟩, ⟨%f6, %hf6, H6⟩, ⟨%f7, %hf7, H7⟩, Hk⟩
  subst hf0; subst hf1; subst hf6; subst hf7
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]
  · iexists _; isplitr
    swap; · iexact H2
    ipureintro
    try sl_unfold_words
    rw [Cert.Whole.read_writes_cons, Cert.Whole.readCov_whole, Cert.Whole.readAt_whole, Cert.Whole.readAt_whole, Cert.Whole.readAt_whole]
  isplitl [H3]
  · iexists _; isplitr
    swap; · iexact H3
    ipureintro
    try sl_unfold_words
    rw [Cert.Whole.read_writes_cons, Cert.Whole.readCov_whole, Cert.Whole.readAt_whole, Cert.Whole.readAt_whole]
  isplitl [H6]
  · iexists _; isplitr
    swap; · iexact H6
    ipureintro
    try sl_unfold_words
    rw [Cert.Whole.read_writes_cons, Cert.Whole.readAt_whole, Cert.Whole.readAt_whole, Cert.Whole.readAt_whole]
  · iexists _; isplitr
    swap; · iexact H7
    ipureintro
    try sl_unfold_words
    rw [Cert.Whole.read_writes_cons, Cert.Whole.readAt_whole, Cert.Whole.readAt_whole]

end Triples

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t
    ∗ (dat0 V c).leavesExact 2 t ∗ (dat0 V c).leavesExact 3 t)

/-- Whatever the invariant holds before a point, it holds both accumulators at something. -/
theorem Phi0_any (c : Dev nD) (n : ℕ) (h : n ≤ cfg0.N) :
    Phi0 V c n h ⊢ iprop(((∃ d, owns (c : Thread nD τ) sc0_0 fullShare d) ∗ (∃ d, owns (c : Thread nD τ) sc0_1 fullShare d) ∗ rest0 c) ∗ (∃ r, prngReg c r)) := by
  by_cases hz : n = 0
  · rw [Phi0_zero V c _ _ hz, PhiA0_eq]
  · rw [Phi0_pos V c _ _ hz]
    iintro ⟨⟨HS0, HS1, Hr⟩, Hg⟩
    isplitl [HS0 HS1 Hr]
    · isplitl [HS0]; · iexists _; iexact HS0
      isplitl [HS1]; · iexists _; iexact HS1
      iexact Hr
    iexact Hg

set_option maxHeartbeats 4000000 in
/-- The body at any point: the inputs' buffers hold their blocks; the position says which case the point is in; the
    invariant hands over the accumulators at what the point before left (at anything where they are about to be
    cleared) and takes them back at this point's; an output not copied out here goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [Phi0_castSucc V c t]
  have hN : t.val < 64 := lt_of_lt_of_eq t.isLt (show cfg0.N = 64 from N_0)
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t hc1),
      Dat.leavesExact_idle (dat0 V c) 3 t (idleAt0_3 t hc1) (noFlush0_3 t hc1)]
    rw [acc0_first V c t h0]; unfold step0; dsimp only
    iintro ⟨HΦ, Ho, ⟨%d0, H0⟩, ⟨%d1, H1⟩, ⟨%d2, H2⟩, ⟨%d3, H3⟩⟩
    ihave HΦ' := (Phi0_any V c _ _) $$ HΦ
    icases HΦ' with ⟨⟨HS0, HS1, Hr⟩, Hg⟩
    iapply (sound0_A c Set.univ (grid0.coords t) hc0 hc1 _ _ _ _ _ _ _ _ _ _ _ _ (xblk0 V c t) (lblk0 V c t) _ _ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr Hg]
    · isplitl [HS0 HS1 Hr]
      · isplitl [HS0]; · iexact HS0
        isplitl [HS1]; · iexact HS1
        iexact Hr
      iexact Hg
    isplitl [Ho]; · iexact Ho
    isplitl [H0]; · iexact H0
    isplitl [H1]; · iexact H1
    isplitl [H2]; · iexists _; iexact H2
    iexists _; iexact H3
  · have hz : t.val ≠ 0 := fun e => h0 (by rw [e])
    have hc0 : ¬cond0_0 (grid0.coords t) := fun h => h0 ((hcond0_0 t).mp h)
    rw [acc0_next V c t h0]; unfold step0; dsimp only
    rw [Phi0_pos V c _ _ hz]
    by_cases h1 : t.val % 16 = 15
    · have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2]
      rw [show (dat0 V c).leavesExact 3 t = owns (c : Thread nD τ) (st0_3 t) fullShare ((dat0 V c).after 3 t) from by
        unfold Dat.leavesExact; rw [liveAt0_3 t hc1], after0_3]
      rw [acc0_next V c t h0]; unfold step0; dsimp only
      iintro ⟨⟨⟨HS0, HS1, Hr⟩, Hg⟩, Ho, ⟨%d0, H0⟩, ⟨%d1, H1⟩, ⟨%d2, H2⟩, ⟨%d3, H3⟩⟩
      iapply (sound0_C c Set.univ (grid0.coords t) hc0 hc1 _ _ _ _ _ _ _ _ _ _ _ _ (xblk0 V c t) (lblk0 V c t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 2 t (idleAt0_2 t hc1) (noFlush0_2 t hc1),
        Dat.leavesExact_idle (dat0 V c) 3 t (idleAt0_3 t hc1) (noFlush0_3 t hc1)]
      iintro ⟨⟨⟨HS0, HS1, Hr⟩, Hg⟩, Ho, ⟨%d0, H0⟩, ⟨%d1, H1⟩, ⟨%d2, H2⟩, ⟨%d3, H3⟩⟩
      iapply (sound0_B c Set.univ (grid0.coords t) hc0 hc1 _ _ _ _ _ _ _ _ _ _ _ _ (xblk0 V c t) (lblk0 V c t) _ _ _ _ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the launch's back: what the accumulators hold is forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl, PhiA0_eq]
  exact Phi0_any V c _ _

end Cert.KernelIdeal.Hand

end
-- ==== Proof.KIGather.lean ====
/-
  The second of the program's two kernel regions: for each block of 2048 rows, a pass over the 8 blocks of 512 codes
  that accumulates, in a buffer the kernel keeps between grid points, the product of the rows' one-hot label matrix
  over the code block with the code block's columns of the codebook (transposed) — so that after all 8 the accumulator
  holds each row's code looked up in the codebook. The accumulator is cleared at the first code block and copied into
  the output block at the last. Stated here: what the accumulator holds after every grid point, as a recursion over the
  points through the body's own arithmetic; the invariant that carries it from point to point; and that the body, run at
  any point, takes the invariant one point on, leaves the inputs' staging buffers alone and, at a last code block,
  leaves the accumulator's contents in the output's staging buffer.
-/
import proofs.«408632_j30477087933017_3_alg».proof.Proof.Gen.KernelIdeal.Launch
import proofs.«408632_j30477087933017_3_alg».proof.Proof.Gen.KernelIdeal.Skeleton
import proofs.«408632_j30477087933017_3_alg».proof.Proof.Gen.KernelIdeal.Points
import proofs.«408632_j30477087933017_3_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The conditions of the body's two branches, and where the output window is idle

The grid is 16 row blocks by 8 code blocks, the code blocks innermost: point t is row block t / 8, code block t % 8.
The accumulator is cleared where the code block is 0 and copied out where it is 7. -/

/-- The code block is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The code block is the last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The input blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole codebook, features by codes (one block: the window does not move). -/
abbrev wblk1 (c : Dev nD) (t : Fin cfg1.N) : Vec F S512x4096 .f32 := iblk1 V c 0 t
/-- The 2048 labels of row block t / 8, as a column. -/
abbrev lblk1 (c : Dev nD) (t : Fin cfg1.N) : Vec F S2048x1 .i32 := iblk1 V c 1 t

/-- The 512 codes of code block (i 1) of a codebook: all features, columns 512·(i 1) onwards. -/
def etile1 (i : grid1.Coords) (x0 : Vec F S512x4096 .f32) : Vec F S512x512 .f32 :=
  fun j => x0 ((Rect.unit (s := S512x4096) (k1_off1 i) S512x512.size (k1_off1_inb i)).toLoadRect.idx j)

/-- An input's staging buffer holds the input's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator, point by point -/

/-- One point's work on the accumulator: add the product of the rows' one-hot matrix over the code block with the
    code block's columns of the codebook, transposed. -/
def step1 (c : Dev nD) (t : Fin cfg1.N) (p : Vec F S2048x512 .f32) : Vec F S2048x512 .f32 :=
  k1_pay2 (grid1.coords t) (lblk1 V c t) (etile1 (grid1.coords t) (wblk1 V c t)) p

/-- What the accumulator holds after the point at position n: the point's work on zeros where the code block is the
    first, on what the point before left elsewhere. -/
def acc1 (c : Dev nD) : (n : ℕ) → n < cfg1.N → Vec F S2048x512 .f32
  | 0, hn => step1 V c ⟨0, hn⟩ k1_pay1
  | n + 1, hn => step1 V c ⟨n + 1, hn⟩ (if (n + 1) % 8 = 0 then k1_pay1 else acc1 c n (Nat.lt_of_succ_lt hn))

theorem acc1_first (c : Dev nD) (t : Fin cfg1.N) (h : t.val % 8 = 0) :
    acc1 V c t.val t.isLt = step1 V c t k1_pay1 := by
  obtain ⟨n, hn⟩ := t
  cases n with
  | zero => rfl
  | succ n => show step1 V c _ (if (n + 1) % 8 = 0 then _ else _) = _; rw [if_pos h]

theorem acc1_next (c : Dev nD) (t : Fin cfg1.N) (h : ¬t.val % 8 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h
  | succ n => show step1 V c _ (if (n + 1) % 8 = 0 then _ else _) = _; rw [if_neg h]; rfl

/-! ## The region's invariant -/

/-- The accumulator: a scratch buffer of the kernel's own. -/
abbrev sc1_0 : Memref sig .tc .vmem S2048x512 .f32 := Memref.whole cc1_scratch0

/-- The core's scoped buffers that this region does not stage — the first region's, each at some contents — and last
    the accumulator, at X. -/
def scoped1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ X)

/-- What the launch hands the region: the accumulator at anything among the other scoped buffers, and the generator
    register. -/
theorem PhiA1_eq (c : Dev nD) :
    (Pipeline.ΦA spec1 c : sProp 𝕄)
      = iprop(scoped1 c (iprop(∃ d, owns (c : Thread nD τ) sc1_0 fullShare d)) ∗ (∃ r, prngReg c r)) := by
  unfold Pipeline.ΦA scoped1; rw [scopedRest1_eq]; simp only [sc1_0, owns_whole]; rfl

theorem scoped1_mono (c : Dev nD) {X Y : sProp 𝕄} (h : X ⊢ Y) : scoped1 (F := F) c X ⊢ scoped1 c Y := by
  unfold scoped1
  iintro ⟨B0, B1, B2, B3, B4, B5, B6, B7, B8, B9, HX⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iapply h; iexact HX

/-- The invariant before position n: at the start the launch's; afterwards the accumulator at what the point before
    left in it. -/
def Phi1 (c : Dev nD) : (n : ℕ) → n ≤ cfg1.N → sProp 𝕄
  | 0, _ => Pipeline.ΦA spec1 c
  | n + 1, hn => iprop(scoped1 c (owns (c : Thread nD τ) sc1_0 fullShare (acc1 V c n hn)) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(scoped1 c (owns (c : Thread nD τ) sc1_0 fullShare (acc1 V c n hn)) ∗ (∃ r, prngReg c r)) := rfl
theorem Phi1_pos (c : Dev nD) (n : ℕ) (h : n ≤ cfg1.N) (hz : n ≠ 0) :
    Phi1 V c n h = iprop(scoped1 c (owns (c : Thread nD τ) sc1_0 fullShare (acc1 V c (n - 1) (by omega))) ∗ (∃ r, prngReg c r)) := by
  cases n with
  | zero => exact absurd rfl hz
  | succ n => rfl

/-! ## The proof data -/

/-- The arrays as the region finds them; after the body each input's buffer at its block, the output's at the
    accumulator (read only where it is copied out); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's triple, one per case of its two branches

On whole staging memrefs: the codebook and the labels are only loaded (the codebook through the code block's column
range); the accumulator is loaded and stored whole; the output is stored whole where the code block is the last and
untouched elsewhere. -/

section Triples
omit V

theorem tile_eq (i : grid1.Coords) (arg2 : Memref sig .tc .vmem S512x4096 .f32) (f0 : arg2.view.ty.Contents (Elt F)) :
    View.readAt (Elt F) arg2.view (Rect.unit (s := S512x4096) (k1_off1 i) S512x512.size (k1_off1_inb i)).toLoadRect f0
      = etile1 i (View.read (Elt F) arg2.view f0) := rfl

set_option maxHeartbeats 1000000 in
/-- First code block: the accumulator is cleared, then the point's work is added. -/
theorem sound1_A (c : Dev nD) (E : Set ℕ) (i : grid1.Coords) (hc0 : cond1_0 i) (hc1 : ¬cond1_1 i)
    (arg2 : Memref sig .tc .vmem S512x4096 .f32) (harg2 : arg2.IsWhole) (arg3 : Memref sig .tc .vmem S2048x1 .i32) (harg3 : arg3.IsWhole)
    (arg4 : Memref sig .tc .vmem S2048x512 .f32) (harg4 : arg4.IsWhole) (arg5 : Memref sig .tc .vmem S2048x512 .f32) (harg5 : arg5.IsWhole)
    (x0 : Vec F S512x4096 .f32) (x1 : Vec F S2048x1 .i32) (y2 : Vec F S2048x512 .f32) (K : PUnit → sProp 𝕄) :
    iprop(owns (c : Thread nD τ) arg2 fullShare x0 ∗ owns (c : Thread nD τ) arg3 fullShare x1
        ∗ owns (c : Thread nD τ) arg4 fullShare y2 ∗ (∃ d, owns (c : Thread nD τ) arg5 fullShare d)
        ∗ (iprop(owns (c : Thread nD τ) arg2 fullShare x0 ∗ owns (c : Thread nD τ) arg3 fullShare x1
            ∗ owns (c : Thread nD τ) arg4 fullShare y2
            ∗ owns (c : Thread nD τ) arg5 fullShare (k1_pay2 i x1 (etile1 i x0) k1_pay1)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%d5, %f5, -, H5⟩, Hk⟩
  subst hf0; subst hf1; subst hf2
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  iexists _; isplitr
  swap; · iexact H5
  ipureintro
  try sl_unfold_run_names
  rw [Cert.Whole.read_writes_cons, Cert.Whole.readAt_whole, tile_eq, Cert.Whole.readCov_whole]

set_option maxHeartbeats 1000000 in
/-- A code block strictly between: the point's work is added to what the accumulator holds. -/
theorem sound1_B (c : Dev nD) (E : Set ℕ) (i : grid1.Coords) (hc0 : ¬cond1_0 i) (hc1 : ¬cond1_1 i)
    (arg2 : Memref sig .tc .vmem S512x4096 .f32) (harg2 : arg2.IsWhole) (arg3 : Memref sig .tc .vmem S2048x1 .i32) (harg3 : arg3.IsWhole)
    (arg4 : Memref sig .tc .vmem S2048x512 .f32) (harg4 : arg4.IsWhole) (arg5 : Memref sig .tc .vmem S2048x512 .f32) (harg5 : arg5.IsWhole)
    (x0 : Vec F S512x4096 .f32) (x1 : Vec F S2048x1 .i32) (y2 : Vec F S2048x512 .f32) (a : Vec F S2048x512 .f32) (K : PUnit → sProp 𝕄) :
    iprop(owns (c : Thread nD τ) arg2 fullShare x0 ∗ owns (c : Thread nD τ) arg3 fullShare x1
        ∗ owns (c : Thread nD τ) arg4 fullShare y2 ∗ owns (c : Thread nD τ) arg5 fullShare a
        ∗ (iprop(owns (c : Thread nD τ) arg2 fullShare x0 ∗ owns (c : Thread nD τ) arg3 fullShare x1
            ∗ owns (c : Thread nD τ) arg4 fullShare y2
            ∗ owns (c : Thread nD τ) arg5 fullShare (k1_pay2 i x1 (etile1 i x0) a)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%f2, %hf2, H2⟩, ⟨%f5, %hf5, H5⟩, Hk⟩
  subst hf0; subst hf1; subst hf2; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]; · iexists _; isplitr; · ipureintro; rfl
                  iexact H2
  iexists _; isplitr
  swap; · iexact H5
  ipureintro
  try sl_unfold_run_names
  rw [Cert.Whole.read_writes_cons, Cert.Whole.readAt_whole, tile_eq, Cert.Whole.readAt_whole]

set_option maxHeartbeats 1000000 in
/-- Last code block: the point's work is added, and the accumulator is copied into the output buffer. -/
theorem sound1_C (c : Dev nD) (E : Set ℕ) (i : grid1.Coords) (hc0 : ¬cond1_0 i) (hc1 : cond1_1 i)
    (arg2 : Memref sig .tc .vmem S512x4096 .f32) (harg2 : arg2.IsWhole) (arg3 : Memref sig .tc .vmem S2048x1 .i32) (harg3 : arg3.IsWhole)
    (arg4 : Memref sig .tc .vmem S2048x512 .f32) (harg4 : arg4.IsWhole) (arg5 : Memref sig .tc .vmem S2048x512 .f32) (harg5 : arg5.IsWhole)
    (x0 : Vec F S512x4096 .f32) (x1 : Vec F S2048x1 .i32) (a : Vec F S2048x512 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare a
        ∗ (iprop(owns (c : Thread nD τ) arg2 fullShare x0 ∗ owns (c : Thread nD τ) arg3 fullShare x1
            ∗ owns (c : Thread nD τ) arg4 fullShare (k1_pay2 i x1 (etile1 i x0) a)
            ∗ owns (c : Thread nD τ) arg5 fullShare (k1_pay2 i x1 (etile1 i x0) a)) -∗ K ⟨⟩))
      ⊢ wp frame (wpE (defs₀ (F := F)) Variants.none c none) E (cc1__gather_kernel i arg2 harg2 arg3 harg3 arg4 harg4 arg5 harg5) K := by
  simp only [cc1__gather_kernel_eq_skeleton]; unfold cc1__gather_kernel_skel
  unfold owns
  iintro ⟨⟨%f0, %hf0, H0⟩, ⟨%f1, %hf1, H1⟩, ⟨%d2, %f2, -, H2⟩, ⟨%f5, %hf5, H5⟩, Hk⟩
  subst hf0; subst hf1; subst hf5
  sl_exec (disch := first | exact hc0 | exact hc1)
  sl_step
  iapply Hk
  isplitl [H0]; · iexists _; isplitr; · ipureintro; rfl
                  iexact H0
  isplitl [H1]; · iexists _; isplitr; · ipureintro; rfl
                  iexact H1
  isplitl [H2]
  · iexists _; isplitr
    swap; · iexact H2
    ipureintro
    try sl_unfold_run_names
    rw [Cert.Whole.read_writes_cons, Cert.Whole.readCov_whole, Cert.Whole.readAt_whole, tile_eq, Cert.Whole.readAt_whole]
  · iexists _; isplitr
    swap; · iexact H5
    ipureintro
    try sl_unfold_run_names
    rw [Cert.Whole.read_writes_cons, Cert.Whole.readAt_whole, tile_eq, Cert.Whole.readAt_whole]

end Triples

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

/-- Whatever the invariant holds before a point, it holds the accumulator at something. -/
theorem Phi1_any (c : Dev nD) (n : ℕ) (h : n ≤ cfg1.N) :
    Phi1 V c n h ⊢ iprop(scoped1 c (iprop(∃ d, owns (c : Thread nD τ) sc1_0 fullShare d)) ∗ (∃ r, prngReg c r)) := by
  by_cases hz : n = 0
  · rw [Phi1_zero V c _ _ hz, PhiA1_eq]
  · rw [Phi1_pos V c _ _ hz]
    iintro ⟨HS, Hg⟩
    isplitl [HS]
    · iapply (scoped1_mono c (X := owns (c : Thread nD τ) sc1_0 fullShare (acc1 V c (n - 1) (by omega))) (by iintro H; iexists _; iexact H))
      iexact HS
    iexact Hg

/-- The accumulator taken out of the scoped buffers and put back at other contents. -/
theorem scoped1_swap (c : Dev nD) (X Y : sProp 𝕄) : scoped1 (F := F) c X ⊢ iprop(X ∗ (Y -∗ scoped1 c Y)) := by
  unfold scoped1
  iintro ⟨B0, B1, B2, B3, B4, B5, B6, B7, B8, B9, HX⟩
  isplitl [HX]; · iexact HX
  iintro HY
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  iexact HY

set_option maxHeartbeats 4000000 in
/-- The body at any point: the inputs' buffers hold their blocks; the position says which case the point is in; the
    invariant hands over the accumulator at what the point before left (at anything where it is about to be cleared)
    and takes it back at this point's; the output, where it is not copied out, goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [Phi1_castSucc V c t]
  have hN : t.val < 128 := lt_of_lt_of_eq t.isLt (show cfg1.N = 128 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 2 t (idleAt1_2 t hc1) (noFlush1_2 t hc1)]
    rw [acc1_first V c t h0]; unfold step1
    iintro ⟨HΦ, Ho, ⟨%d0, H0⟩, ⟨%d1, H1⟩, ⟨%d2, H2⟩⟩
    ihave HΦ' := (Phi1_any V c _ _) $$ HΦ
    icases HΦ' with ⟨HS, Hg⟩
    ihave HS' := (scoped1_swap c _ (owns (c : Thread nD τ) sc1_0 fullShare (k1_pay2 (grid1.coords t) (lblk1 V c t) (etile1 (grid1.coords t) (wblk1 V c t)) k1_pay1))) $$ HS
    icases HS' with ⟨HS, Hback⟩
    iapply (sound1_A c Set.univ (grid1.coords t) hc0 hc1 _ _ _ _ _ _ _ _ (wblk1 V c t) (lblk1 V c t) _ _)
    isplitl [H0]; · iexact H0
    isplitl [H1]; · iexact H1
    isplitl [H2]; · iexact H2
    isplitl [HS]; · iexact HS
    iintro ⟨H0, H1, H2, HS⟩
    isplitl [HS Hback Hg]
    · isplitl [HS Hback]
      · iapply Hback; iexact HS
      iexact Hg
    isplitl [Ho]; · iexact Ho
    isplitl [H0]; · iexact H0
    isplitl [H1]; · iexact H1
    iexists _; iexact H2
  · have hz : t.val ≠ 0 := fun e => h0 (by rw [e])
    have hc0 : ¬cond1_0 (grid1.coords t) := fun h => h0 ((hcond1_0 t).mp h)
    rw [acc1_next V c t h0]; unfold step1
    rw [Phi1_pos V c _ _ hz]
    by_cases h1 : t.val % 8 = 7
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2]
      rw [acc1_next V c t h0]; unfold step1
      iintro ⟨⟨HS, Hg⟩, Ho, ⟨%d0, H0⟩, ⟨%d1, H1⟩, ⟨%d2, H2⟩⟩
      ihave HS' := (scoped1_swap c _ (owns (c : Thread nD τ) sc1_0 fullShare (k1_pay2 (grid1.coords t) (lblk1 V c t) (etile1 (grid1.coords t) (wblk1 V c t)) (acc1 V c (t.val - 1) (Nat.lt_of_le_of_lt (Nat.sub_le _ _) t.isLt))))) $$ HS
      icases HS' with ⟨HS, Hback⟩
      iapply (sound1_C c Set.univ (grid1.coords t) hc0 hc1 _ _ _ _ _ _ _ _ (wblk1 V c t) (lblk1 V c t) _ _)
      isplitl [H0]; · iexact H0
      isplitl [H1]; · iexact H1
      isplitl [H2]; · iexists _; iexact H2
      isplitl [HS]; · iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨HS, Hg⟩, Ho, ⟨%d0, H0⟩, ⟨%d1, H1⟩, ⟨%d2, H2⟩⟩
      ihave HS' := (scoped1_swap c _ (owns (c : Thread nD τ) sc1_0 fullShare (k1_pay2 (grid1.coords t) (lblk1 V c t) (etile1 (grid1.coords t) (wblk1 V c t)) (acc1 V c (t.val - 1) (Nat.lt_of_le_of_lt (Nat.sub_le _ _) t.isLt))))) $$ HS
      icases HS' with ⟨HS, Hback⟩
      iapply (sound1_B c Set.univ (grid1.coords t) hc0 hc1 _ _ _ _ _ _ _ _ (wblk1 V c t) (lblk1 V c t) _ _ _)
      isplitl [H0]; · iexact H0
      isplitl [H1]; · iexact H1
      isplitl [H2]; · iexact H2
      isplitl [HS]; · iexact HS
      iintro ⟨H0, H1, H2, HS⟩
      isplitl [HS Hback Hg]
      · isplitl [HS Hback]
        · iapply Hback; iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the launch's back: what the accumulator holds is forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl, PhiA1_eq]
  exact Phi1_any V c _ _

end Cert.KernelIdeal.Hand

end
-- ==== Proof.Tail.lean ====
/-
  The arithmetic that follows the three indexed computations, the same in both programs: from the per-code counts,
  the per-code feature sums and the looked-up rows,
    the moving averages  c' = c · 0.99 + 0.01 · counts  and  a' = a · 0.99 + 0.01 · segsum  (the two factors are the
    binary32 words nearest 0.99 and 0.01),
    the smoothed sizes   (c' + ε) / (s + 4096 ε) · s  with  s = Σ c'  (ε and 4096 ε their binary32 words),
    the new codebook     a' divided, column by column, by the smoothed sizes,
    and the mean squared distance between the looked-up rows and the input rows, the sum divided by 2^24.
  Each is stated once, as a function, over the extended reals.
-/
import proofs.«408632_j30477087933017_3_alg».proof.KernelIdeal
import Idealize.ShloMosaic.PureOps.Ideal

noncomputable section

namespace Cert.KernelIdeal.Tail

open Idealize.ShloMosaic Cert.KernelIdeal Cert.KernelIdeal.Facts₀ Cert.KernelIdeal.Facts

variable [Cert.KernelIdeal.Facts]

/-- c · 0.99 + 0.01 · k, entry by entry. -/
def newCluster (cs k : FVec Ideal S4096 .f32) : FVec Ideal S4096 .f32 :=
  addf (mulf cs (broadcastInDim S4096 ![] bcast_S_S4096 (constant (F := Ideal) S_ .f32 0x3F7D70A4#32)))
    (mulf (broadcastInDim S4096 ![] bcast_S_S4096 (constant (F := Ideal) S_ .f32 0x3C23D70A#32)) k)

/-- a · 0.99 + 0.01 · g, entry by entry. -/
def newAvg (ea g : FVec Ideal S512x4096 .f32) : FVec Ideal S512x4096 .f32 :=
  addf (mulf ea (broadcastInDim S512x4096 ![] bcast_S_S512x4096 (constant (F := Ideal) S_ .f32 0x3F7D70A4#32)))
    (mulf (broadcastInDim S512x4096 ![] bcast_S_S512x4096 (constant (F := Ideal) S_ .f32 0x3C23D70A#32)) g)

/-- The sum of all entries. -/
def total (nc : FVec Ideal S4096 .f32) : FVec Ideal S_ .f32 :=
  Host.reduceAdd (F := Ideal) nc (constant (F := Ideal) S_ .f32 0x00000000#32) reducesTo_S4096_S_d0 h_S_

/-- (c' + ε) / (s + 4096 ε) · s. -/
def smoothed (nc : FVec Ideal S4096 .f32) : FVec Ideal S4096 .f32 :=
  mulf (Host.divf (F := Ideal) (addf nc (broadcastInDim S4096 ![] bcast_S_S4096 (constant (F := Ideal) S_ .f32 0x3727C5AC#32)))
      (broadcastInDim S4096 ![] bcast_S_S4096 (addf (total nc) (constant (F := Ideal) S_ .f32 0x3D27C5AC#32))))
    (broadcastInDim S4096 ![] bcast_S_S4096 (total nc))

/-- a' with column e divided by the smoothed size of code e. -/
def newEmbed (na : FVec Ideal S512x4096 .f32) (nc : FVec Ideal S4096 .f32) : FVec Ideal S512x4096 .f32 :=
  Host.divf (F := Ideal) na (broadcastInDim S512x4096 ![0, 1] bcast_S1x4096_S512x4096_0_1
    (broadcastInDim S1x4096 ![1] bcast_S4096_S1x4096_1 (smoothed nc)))

/-- The sum of the squared differences, divided by 2^24. -/
def meanSq (q x : FVec Ideal S32x32x32x512 .f32) : FVec Ideal S_ .f32 :=
  Host.divf (F := Ideal) (Host.reduceAdd (F := Ideal) (mulf (subf q x) (subf q x)) (constant (F := Ideal) S_ .f32 0x00000000#32)
    reducesTo_S32x32x32x512_S_d0_1_2_3 h_S_) (constant (F := Ideal) S_ .f32 0x4B800000#32)

end Cert.KernelIdeal.Tail

end
-- ==== Proof.KIResults.lean ====
/-
  What the program returns, in terms of what its two kernel regions leave. After the second region the closing host
  arithmetic reads: the second region's output array (the looked-up rows, 32768 x 512), the first region's two output
  arrays (the per-code feature sums, 512 x 4096, and the per-code counts, 1 x 4096, the latter reshaped to a vector
  between the regions), and the argument arrays. Each of the six results is the closing arithmetic's function of those.
-/
import proofs.«408632_j30477087933017_3_alg».proof.Proof.KIRun
import proofs.«408632_j30477087933017_3_alg».proof.Proof.Tail
import Idealize.ShloMosaic.Lib.StableHlo.Run

set_option maxRecDepth 16384

noncomputable section

namespace Cert.KernelIdeal.Hand

open Cert.KernelIdeal Cert.KernelIdeal.Gen Cert.KernelIdeal.Tail
open Idealize.ShloMosaic Idealize.ShloMosaic.TcCoe Idealize.SL.Sem Idealize.ShloMosaic.StableHlo

variable (m : (ℓ : Loc nD τ sig) → Buf (Elt Ideal) ℓ)

/-! ## Through the boundaries: which buffers a region or a host stretch leaves alone -/

/-- A buffer that is no array of the second region and that the middle host stretch does not write holds after the
    second region what it held after the first. -/
theorem W4_eq_W2 (c : Dev nD) (b : Ref sig .tc) (h4 : ∀ w, Pipeline.arrRef spec1 w ≠ b) (h3 : b ∉ hostOps1_W) :
    W4 m c (Proc.devRef .tc b) = W2 m c (Proc.devRef .tc b) :=
  (W4_of_ne m c b h4).trans (StableHlo.after_of_writes_sub hostOps1 _ hostOps1_writes h3)

/-- An argument array holds after the second region what it held at launch. -/
theorem W4_arg (c : Dev nD) (b : Ref sig .tc) (h4 : ∀ w, Pipeline.arrRef spec1 w ≠ b) (h3 : b ∉ hostOps1_W)
    (h2 : ∀ w, Pipeline.arrRef spec0 w ≠ b) (h1 : b ∉ hostOps0_W) :
    W4 m c (Proc.devRef .tc b) = m ((c : Thread nD τ).loc b) :=
  (W4_eq_W2 m c b h4 h3).trans <| (W2_of_ne m c b h2).trans <| (StableHlo.after_of_writes_sub hostOps0 _ hostOps0_writes h1).trans rfl

theorem W4_main_arg0 (c : Dev nD) : W4 m c (Proc.devRef .tc main_arg0) = m ((c : Thread nD τ).loc main_arg0) :=
  W4_arg m c main_arg0 (by decide) (by decide) (by decide) (by decide)
theorem W4_main_arg1 (c : Dev nD) : W4 m c (Proc.devRef .tc main_arg1) = m ((c : Thread nD τ).loc main_arg1) :=
  W4_arg m c main_arg1 (by decide) (by decide) (by decide) (by decide)
theorem W4_main_arg3 (c : Dev nD) : W4 m c (Proc.devRef .tc main_arg3) = m ((c : Thread nD τ).loc main_arg3) :=
  W4_arg m c main_arg3 (by decide) (by decide) (by decide) (by decide)
theorem W4_main_arg4 (c : Dev nD) : W4 m c (Proc.devRef .tc main_arg4) = m ((c : Thread nD τ).loc main_arg4) :=
  W4_arg m c main_arg4 (by decide) (by decide) (by decide) (by decide)

/-- The looked-up rows: the second region's output array. -/
theorem W4_main_v5 (c : Dev nD) : W4 m c (Proc.devRef .tc main_v5) = (dat1 (E3 m) c).arrAt 2 cfg1.N := W4_arr m c 2
/-- The per-code feature sums: the first region's first output array, untouched since. -/
theorem W4_main_v3_0 (c : Dev nD) : W4 m c (Proc.devRef .tc main_v3_0) = (dat0 (E1 m) c).arrAt 2 cfg0.N :=
  (W4_eq_W2 m c main_v3_0 (by decide) (by decide)).trans (W2_arr m c 2)
/-- The per-code counts as a vector: the first region's second output array, reshaped between the regions. -/
theorem W4_main_v4 (c : Dev nD) :
    W4 m c (Proc.devRef .tc main_v4) = shapeCast S4096 (W2 m c (Proc.devRef .tc main_v3_1)) shapeCasts_S1x4096_S4096 := by
  rw [W4_of_ne m c main_v4 (by decide)]
  show StableHlo.after hostOps1 (W2 m c) (Proc.devRef .tc main_v4) = _
  after_results
  rfl
theorem W2_main_v3_1 (c : Dev nD) : W2 m c (Proc.devRef .tc main_v3_1) = (dat0 (E1 m) c).arrAt 3 cfg0.N := W2_arr m c 3

/-- What the first region finds: the flattened rows narrowed to bf16, and the labels as a column. -/
theorem E1_main_v2 (c : Dev nD) :
    (E1 m c main_v2 : FVec Ideal S32768x512 .bf16)
      = truncf (F := Ideal) .bf16 (shapeCast S32768x512 (m ((c : Thread nD τ).loc main_arg0) : FVec Ideal S32x32x32x512 .f32) shapeCasts_S32x32x32x512_S32768x512) bitsLt_bf16_f32 := by
  show StableHlo.after hostOps0 (W0 m c) (Proc.devRef .tc main_v2) = _
  after_results
  rfl
theorem E1_main_v1 (c : Dev nD) :
    (E1 m c main_v1 : IVec S32768x1 32)
      = shapeCast S32768x1 (m ((c : Thread nD τ).loc main_arg1) : IVec S32768 32) shapeCasts_S32768_S32768x1 := by
  show StableHlo.after hostOps0 (W0 m c) (Proc.devRef .tc main_v1) = _
  after_results
  rfl
/-- What the second region finds: the same label column, and the codebook as launched. -/
theorem E3_main_v1 (c : Dev nD) : E3 m c main_v1 = E1 m c main_v1 :=
  (StableHlo.after_of_writes_sub hostOps1 _ hostOps1_writes (by decide)).trans
    ((W2_arr m c 1).trans (((dat0 (E1 m) c).arrAt_in 1 rfl _).trans (A_eq0 (E1 m) c 1)))
theorem E3_main_arg2 (c : Dev nD) : E3 m c main_arg2 = m ((c : Thread nD τ).loc main_arg2) :=
  (StableHlo.after_of_writes_sub hostOps1 _ hostOps1_writes (by decide)).trans <| (W2_of_ne m c main_arg2 (by decide)).trans <|
    (StableHlo.after_of_writes_sub hostOps0 _ hostOps0_writes (by decide)).trans rfl

/-! ## The six results, over the contents at the second region's exit -/

section AtExit
variable (c : Dev nD)

theorem W5_v6 : W5 m c (Proc.devRef .tc main_v6) = shapeCast S32x32x32x512 (W4 m c (Proc.devRef .tc main_v5)) shapeCasts_S32768x512_S32x32x32x512 := by
  show StableHlo.after hostOps2 (W4 m c) (Proc.devRef .tc main_v6) = _
  after_results
  rfl
theorem W5_v7 : W5 m c (Proc.devRef .tc main_v7) = shapeCast S32x32x32 (W4 m c (Proc.devRef .tc main_arg1)) shapeCasts_S32768_S32x32x32 := by
  show StableHlo.after hostOps2 (W4 m c) (Proc.devRef .tc main_v7) = _
  after_results
  rfl
theorem W5_v12 : W5 m c (Proc.devRef .tc main_v12) = newCluster (W4 m c (Proc.devRef .tc main_arg3)) (W4 m c (Proc.devRef .tc main_v4)) := by
  show StableHlo.after hostOps2 (W4 m c) (Proc.devRef .tc main_v12) = _
  after_results
  rfl
theorem W5_v17 : W5 m c (Proc.devRef .tc main_v17) = newAvg (W4 m c (Proc.devRef .tc main_arg4)) (W4 m c (Proc.devRef .tc main_v3_0)) := by
  show StableHlo.after hostOps2 (W4 m c) (Proc.devRef .tc main_v17) = _
  after_results
  rfl
theorem W5_v28 : W5 m c (Proc.devRef .tc main_v28)
    = newEmbed (newAvg (W4 m c (Proc.devRef .tc main_arg4)) (W4 m c (Proc.devRef .tc main_v3_0)))
        (newCluster (W4 m c (Proc.devRef .tc main_arg3)) (W4 m c (Proc.devRef .tc main_v4))) := by
  show StableHlo.after hostOps2 (W4 m c) (Proc.devRef .tc main_v28) = _
  after_results
  rfl
theorem W5_v32 : W5 m c (Proc.devRef .tc main_v32)
    = meanSq (shapeCast S32x32x32x512 (W4 m c (Proc.devRef .tc main_v5)) shapeCasts_S32768x512_S32x32x32x512) (W4 m c (Proc.devRef .tc main_arg0)) := by
  show StableHlo.after hostOps2 (W4 m c) (Proc.devRef .tc main_v32) = _
  after_results
  rfl

end AtExit

end Cert.KernelIdeal.Hand

end
-- ==== Proof.Spec.lean ====
/-
  What the three indexed computations of a codebook update are, as functions on the extended reals.

  There are N = 32768 rows of D = 512 features and a codebook of E = 4096 codes. Each row n carries a label word;
  read as a natural number it names a code. For a code e:
    counts e     = the number of rows labelled e,
    segsum (d,e) = the sum over the rows labelled e of feature d of the row,
  and for a row n:
    pick (n,d)   = entry (d, label n) of the feature-major codebook, and 0 when the label names no code.
  A label's indicator at a code is the extended real 1 or 0, so that each of the three is a plain sum over all rows
  (or a plain lookup) and no finiteness of any entry enters.
-/
import Idealize.ShloMosaic.PureOps.Ideal
import Idealize.ShloMosaic.Lib.ValueIdx

noncomputable section

namespace Cert.Spec

open Idealize.ShloMosaic Idealize.ShloMosaic.ValueIdx

/-- One label per row. -/
abbrev SN : Shape := ⟨1, ![32768]⟩
/-- One entry per code. -/
abbrev SE : Shape := ⟨1, ![4096]⟩
/-- Rows by features. -/
abbrev SND : Shape := ⟨2, ![32768, 512]⟩
/-- Features by codes. -/
abbrev SDE : Shape := ⟨2, ![512, 4096]⟩

/-- The indicator of "the label word, read as a natural number, is the code e". -/
def hot (l : BitVec 32) (e : ℕ) : EReal := if l.toNat = e then 1 else 0

/-- How many rows carry each code. -/
def counts (lab : SN.Idx → BitVec 32) : SE.Idx → EReal :=
  fun e => ∑ n : Fin 32768, hot (lab (ix1 n)) (e 0).val

/-- For each feature and code, the sum of that feature over the rows carrying the code. -/
def segsum (flat : SND.Idx → EReal) (lab : SN.Idx → BitVec 32) : SDE.Idx → EReal :=
  fun i => ∑ n : Fin 32768, flat (ix2 n (i 0)) * hot (lab (ix1 n)) (i 1).val

/-- Each row's code looked up in the feature-major codebook; 0 for a label that names no code. -/
def pick (embed : SDE.Idx → EReal) (lab : SN.Idx → BitVec 32) : SND.Idx → EReal :=
  fun i => if h : (lab (ix1 (i 0))).toNat < 4096 then embed (ix2 (i 1) ⟨(lab (ix1 (i 0))).toNat, h⟩) else 0

/-- Batch by height by width by features: the rows in their three-axis arrangement. -/
abbrev S4 : Shape := ⟨4, ![32, 32, 32, 512]⟩

/-- The row number of position (b, h, w) in row-major order. -/
def rowOf (b h w : Fin 32) : Fin 32768 := ⟨b.val * 1024 + h.val * 32 + w.val, by have := b.isLt; have := h.isLt; have := w.isLt; omega⟩

/-- The lookup, arranged batch by height by width: position (b, h, w) holds the row numbered b·1024 + h·32 + w. -/
def pick4 (embed : SDE.Idx → EReal) (lab : SN.Idx → BitVec 32) : S4.Idx → EReal :=
  fun i => pick embed lab (ix2 (rowOf (i 0) (i 1) (i 2)) (i 3))

theorem hot_self (l : BitVec 32) : hot l l.toNat = 1 := if_pos rfl

theorem hot_of_ne {l : BitVec 32} {e : ℕ} (h : l.toNat ≠ e) : hot l e = 0 := if_neg h

end Cert.Spec

end
-- ==== Proof.LibBlockedMatmul.lean ====
/-
  Products with output-major weights and their accumulation block by block, on the extended reals.

  `mmT a w` is  a · wᵀ : (i, j) ↦ ∑ₖ a(i, k) · w(j, k),  the weights stored one row per output feature.
  A contraction over K = m · n indices can be taken in m consecutive blocks of n: `mmTBlock … t` is the partial
  product over block t, `mmTPartial … j` the running total of the first j partial products STARTED FROM ZERO and
  added in order (the shape of a kernel that clears an accumulator and adds one block product per grid step), and
  `mmT_blocks` says the total after all m blocks is the whole product. Only associativity and commutativity of
  addition are used, so nothing needs to be finite. `sum_blocks_of_eq` is the regrouping of a sum over m · n indices
  into m blocks of n, in any commutative monoid.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Spec

open Idealize.ShloMosaic Idealize.ShloMosaic.ValueIdx

/-- A two-axis array of extended reals. -/
abbrev Arr (a b : ℕ) : Type := (⟨2, ![a, b]⟩ : Shape).Idx → EReal

/-- a · wᵀ : the weights one row per output feature. -/
def mmT {N K M : ℕ} (a : Arr N K) (w : Arr M K) : Arr N M :=
  fun i => ∑ k : Fin K, a (ix2 (i 0) k) * w (ix2 (i 1) k)

theorem mmT_apply {N K M : ℕ} (a : Arr N K) (w : Arr M K) (i : Fin N) (j : Fin M) :
    mmT a w (ix2 i j) = ∑ k : Fin K, a (ix2 i k) * w (ix2 j k) := rfl

/-- The partial product over the k-th block of n contraction indices. -/
def mmTBlock {N M : ℕ} (m n K : ℕ) (h : m * n = K) (a : Arr N K) (w : Arr M K) (t : Fin m) : Arr N M :=
  fun i => ∑ r : Fin n, a (ix2 (i 0) ⟨t.val * n + r.val, by
      have ht := t.isLt; have hr := r.isLt
      calc t.val * n + r.val < t.val * n + n := by omega
        _ = (t.val + 1) * n := by ring
        _ ≤ m * n := Nat.mul_le_mul_right n ht
        _ = K := h⟩)
    * w (ix2 (i 1) ⟨t.val * n + r.val, by
      have ht := t.isLt; have hr := r.isLt
      calc t.val * n + r.val < t.val * n + n := by omega
        _ = (t.val + 1) * n := by ring
        _ ≤ m * n := Nat.mul_le_mul_right n ht
        _ = K := h⟩)

/-- The running total of the first j partial products, from zero, in the order the blocks come. -/
def mmTPartial {N M : ℕ} (m n K : ℕ) (h : m * n = K) (a : Arr N K) (w : Arr M K) : (j : ℕ) → j ≤ m → Arr N M
  | 0, _ => fun _ => 0
  | j + 1, hj => fun i => mmTPartial m n K h a w j (Nat.le_of_succ_le hj) i + mmTBlock m n K h a w ⟨j, hj⟩ i

theorem sum_blocks {A : Type} [AddCommMonoid A] (m n : ℕ) (g : Fin (m * n) → A) :
    ∑ i : Fin (m * n), g i = ∑ t : Fin m, ∑ r : Fin n, g (finProdFinEquiv (t, r)) := by
  rw [← Fintype.sum_prod_type' (f := fun t r => g (finProdFinEquiv (t, r)))]
  exact (Equiv.sum_comp finProdFinEquiv g).symm

theorem sum_blocks_of_eq {A : Type} [AddCommMonoid A] (m n K : ℕ) (h : m * n = K) (g : Fin K → A)
    (hlt : ∀ (t : Fin m) (r : Fin n), t.val * n + r.val < K) :
    ∑ i : Fin K, g i = ∑ t : Fin m, ∑ r : Fin n, g ⟨t.val * n + r.val, hlt t r⟩ := by
  subst h
  rw [sum_blocks]
  refine Finset.sum_congr rfl fun t _ => Finset.sum_congr rfl fun r _ => congrArg g (Fin.ext ?_)
  show r.val + n * t.val = t.val * n + r.val
  ring

/-- The running total after j blocks is the sum of the first j partial products. -/
theorem mmTPartial_eq_sum {N M : ℕ} (m n K : ℕ) (h : m * n = K) (a : Arr N K) (w : Arr M K) :
    ∀ (j : ℕ) (hj : j ≤ m) (i : (⟨2, ![N, M]⟩ : Shape).Idx),
      mmTPartial m n K h a w j hj i = ∑ t : Fin j, mmTBlock m n K h a w ⟨t.val, lt_of_lt_of_le t.isLt hj⟩ i
  | 0, _, _ => by simp [mmTPartial]
  | j + 1, hj, i => by
      show mmTPartial m n K h a w j (Nat.le_of_succ_le hj) i + mmTBlock m n K h a w ⟨j, hj⟩ i = _
      rw [mmTPartial_eq_sum m n K h a w j (Nat.le_of_succ_le hj) i, Fin.sum_univ_castSucc]
      rfl

/-- After all m blocks the running total is the whole product. -/
theorem mmT_blocks {N M : ℕ} (m n K : ℕ) (h : m * n = K) (a : Arr N K) (w : Arr M K) :
    mmTPartial m n K h a w m le_rfl = mmT a w := by
  funext i
  rw [mmTPartial_eq_sum]
  unfold mmT mmTBlock
  rw [sum_blocks_of_eq m n K h (fun k => a (ix2 (i 0) k) * w (ix2 (i 1) k))]

end Cert.Spec

end
-- ==== Proof.KIScatterAcc.lean ====
/-
  What the first kernel region's two accumulators hold when they are copied out.

  At the grid point of code block e (of 4, 1024 codes each) and row block n (of 16, 2048 rows each) the body adds to the
  feature accumulator the product  Xᵀ · H  of the row block's features X (2048 × 512) with its one-hot label matrix
  H (2048 × 1024),  H(r, j) = [label of row 2048 n + r is the code 1024 e + j],  and to the count accumulator the column
  sums of H. Both start from zero at n = 0. So after row block n the feature accumulator at (d, j) is the sum, over the
  rows of blocks 0 … n, of feature d of the row times the indicator of the row's label at the code 1024 e + j, and the
  count accumulator at (0, j) is the sum of those indicators; after n = 15 these run over all 32768 rows: the per-code
  feature sums and the per-code counts of the specification. Only associativity and commutativity of addition enter.
-/
import proofs.«408632_j30477087933017_3_alg».proof.Proof.KIScatter
import proofs.«408632_j30477087933017_3_alg».proof.Proof.Spec
import proofs.«408632_j30477087933017_3_alg».proof.Proof.LibBlockedMatmul
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx
open Idealize.ShloMosaic.TcCoe

/-! ## The one-hot entry

The entry at row r and lane j of the one-hot matrix is computed on 32-bit words: the label less 1024 e is compared with
the lane number, and the one-bit answer is widened and converted. Since 1024 e + j < 4096 < 2^32, the words agree
exactly when the label, read as a natural number, is 1024 e + j, whatever the label is. -/

/-- The word comparison, as a decision about the label's natural number. -/
theorem label_word_eq (l : BitVec 32) (e j : ℕ) (he : e < 4) (hj : j < 1024) :
    (l - BitVec.ofNat 32 e * 1024#32 = BitVec.ofNat 32 j) ↔ l.toNat = e * 1024 + j := by
  constructor
  · intro h
    have h' : l = BitVec.ofNat 32 j + BitVec.ofNat 32 e * 1024#32 := by
      rw [← h, BitVec.sub_add_cancel]
    rw [h']
    simp only [BitVec.toNat_add, BitVec.toNat_mul, BitVec.toNat_ofNat]
    omega
  · intro h
    apply BitVec.eq_of_toNat_eq
    simp only [BitVec.toNat_sub, BitVec.toNat_mul, BitVec.toNat_ofNat]
    have := l.isLt
    omega

/-- A one-bit answer, widened to a word and converted, is the extended real 1 or 0. -/
theorem bit_to_real (b : Bool) :
    FloatOps.sitofp (F := Ideal) .f32 ((BitVec.ofBool b).setWidth 32) = if b then (1 : EReal) else 0 := by
  cases b
  · show (((BitVec.setWidth 32 (BitVec.ofBool false)).toInt : ℝ) : EReal) = 0
    have : (BitVec.setWidth 32 (BitVec.ofBool false)).toInt = 0 := by decide
    rw [this]; simp
  · show (((BitVec.setWidth 32 (BitVec.ofBool true)).toInt : ℝ) : EReal) = 1
    have : (BitVec.setWidth 32 (BitVec.ofBool true)).toInt = 1 := by decide
    rw [this]; simp

/-- The one-hot matrix at (r, j): the indicator of "row r's label is the code 1024 e + j". -/
theorem pay3_apply (i : grid0.Coords) (v5 : Vec Ideal S2048x1 .i32) (r : Fin 2048) (j : Fin 1024) :
    k0_pay3 (F := Ideal) i v5 (ix2 r j) = Cert.Spec.hot (v5 (ix2 r (0 : Fin 1))) ((i 0).val * 1024 + j.val) := by
  unfold k0_pay3
  dsimp only
  rw [sitofp_apply, extui_apply]
  show FloatOps.sitofp (F := Ideal) .f32 ((IntOp.cmpi .eq _ _).setWidth 32) = _
  rw [broadcastTo_apply _ _ (ix2 r j) (ix2 r (0 : Fin 1)) (by
    intro a
    match a with
    | ⟨0, _⟩ => rfl
    | ⟨1, _⟩ => rfl)]
  rw [iota_single_apply, shapeCast_self]
  show FloatOps.sitofp (F := Ideal) .f32 ((BitVec.ofBool (v5 (ix2 r (0 : Fin 1)) - BitVec.ofNat 32 (i 0).val * 1024#32 == BitVec.ofNat 32 j.val)).setWidth 32) = _
  rw [bit_to_real]
  unfold Cert.Spec.hot
  have he : (i 0).val < 4 := (i 0).isLt
  by_cases h : (v5 (ix2 r (0 : Fin 1))).toNat = (i 0).val * 1024 + j.val
  · rw [if_pos h, if_pos (by rw [beq_iff_eq]; exact (label_word_eq _ _ _ he j.isLt).mpr h)]
  · rw [if_neg h, if_neg (by rw [beq_iff_eq]; exact fun h' => h ((label_word_eq _ _ _ he j.isLt).mp h'))]

/-! ## The product with the one-hot matrix

Both operands are contracted over their first axis, the 2048 rows of the block: entry (d, j) of the product is the sum
over the rows r of the left operand at (r, d) times the right operand at (r, j). -/

/-- On its contracted axis the left operand's index is the contraction coordinate, -/
theorem lhs_rows (jj : S512x1024.Idx) (k : dot_S2048x512_S2048x1024_S512x1024_0_0_1_1_n_n.contr.Idx) :
    (dot_S2048x512_S2048x1024_S512x1024_0_0_1_1_n_n.lhsIdx jj k (0 : Fin 2)).val = (k ⟨0, Nat.one_pos⟩).val :=
  DotDims.lhsIdx_val_of_single dot_S2048x512_S2048x1024_S512x1024_0_0_1_1_n_n rfl jj k

/-- and on the other the output's row. -/
theorem lhs_feature (jj : S512x1024.Idx) (k : dot_S2048x512_S2048x1024_S512x1024_0_0_1_1_n_n.contr.Idx) :
    (dot_S2048x512_S2048x1024_S512x1024_0_0_1_1_n_n.lhsIdx jj k (1 : Fin 2)).val = (jj 0).val := by
  unfold DotDims.lhsIdx
  rw [dif_neg (show ¬(1 : Fin S2048x512.rank) ∈ dot_S2048x512_S2048x1024_S512x1024_0_0_1_1_n_n.lhsBatch by decide),
    dif_pos (show (1 : Fin S2048x512.rank) ∈ dot_S2048x512_S2048x1024_S512x1024_0_0_1_1_n_n.lhsNonContracting by decide)]
  rfl

/-- On its contracted axis the right operand's index is the contraction coordinate, -/
theorem rhs_rows (jj : S512x1024.Idx) (k : dot_S2048x512_S2048x1024_S512x1024_0_0_1_1_n_n.contr.Idx) :
    (dot_S2048x512_S2048x1024_S512x1024_0_0_1_1_n_n.rhsIdx jj k (0 : Fin 2)).val = (k ⟨0, Nat.one_pos⟩).val :=
  DotDims.rhsIdx_val_of_single dot_S2048x512_S2048x1024_S512x1024_0_0_1_1_n_n rfl jj k

/-- and on the other the output's column. -/
theorem rhs_lane (jj : S512x1024.Idx) (k : dot_S2048x512_S2048x1024_S512x1024_0_0_1_1_n_n.contr.Idx) :
    (dot_S2048x512_S2048x1024_S512x1024_0_0_1_1_n_n.rhsIdx jj k (1 : Fin 2)).val = (jj 1).val := by
  unfold DotDims.rhsIdx
  rw [dif_neg (show ¬(1 : Fin S2048x1024.rank) ∈ dot_S2048x512_S2048x1024_S512x1024_0_0_1_1_n_n.rhsBatch by decide),
    dif_pos (show (1 : Fin S2048x1024.rank) ∈ dot_S2048x512_S2048x1024_S512x1024_0_0_1_1_n_n.rhsNonContracting by decide)]
  rfl

/-- The product into a zero accumulator, at (d, j): the sum over the block's rows. -/
theorem matmul_rows_apply (x : FVec Ideal S2048x512 .bf16) (h : FVec Ideal S2048x1024 .bf16) (d : Fin 512) (j : Fin 1024) :
    matmul dot_S2048x512_S2048x1024_S512x1024_0_0_1_1_n_n none x h (constant (F := Ideal) S512x1024 .f32 0x00000000#32) (ix2 d j)
      = ∑ r : Fin 2048, x (ix2 r d) * h (ix2 r j) := by
  show FloatOps.matmul _ _ _ _ _ _ = _
  rw [Ideal.matmul_constant_zero_apply,
    ← Equiv.sum_comp (contrEquiv1 dot_S2048x512_S2048x1024_S512x1024_0_0_1_1_n_n 2048 rfl rfl).symm]
  refine Finset.sum_congr rfl fun c _ => ?_
  have hc := contrEquiv1_symm_val dot_S2048x512_S2048x1024_S512x1024_0_0_1_1_n_n 2048 rfl rfl c
  have hl : dot_S2048x512_S2048x1024_S512x1024_0_0_1_1_n_n.lhsIdx (ix2 d j)
      ((contrEquiv1 dot_S2048x512_S2048x1024_S512x1024_0_0_1_1_n_n 2048 rfl rfl).symm c) = ix2 c d := by
    funext ax; apply Fin.ext
    match ax with
    | ⟨0, _⟩ => exact (lhs_rows _ _).trans hc
    | ⟨1, _⟩ => exact lhs_feature _ _
  have hr : dot_S2048x512_S2048x1024_S512x1024_0_0_1_1_n_n.rhsIdx (ix2 d j)
      ((contrEquiv1 dot_S2048x512_S2048x1024_S512x1024_0_0_1_1_n_n 2048 rfl rfl).symm c) = ix2 c j := by
    funext ax; apply Fin.ext
    match ax with
    | ⟨0, _⟩ => exact (rhs_rows _ _).trans hc
    | ⟨1, _⟩ => exact rhs_lane _ _
  rw [hl, hr]

/-! ## One grid point's work, at an index -/

/-- The cleared feature accumulator is zero everywhere, -/
theorem pay1_apply (i : S512x1024.Idx) : k0_pay1 (F := Ideal) i = 0 := by
  unfold k0_pay1
  rw [shapeCast_self, broadcast_apply]
  exact Ideal.ofBits_zero_f32

/-- and so is the cleared count accumulator. -/
theorem pay2_apply (i : S1x1024.Idx) : k0_pay2 (F := Ideal) i = 0 := by
  unfold k0_pay2
  rw [shapeCast_self, broadcast_apply]
  exact Ideal.ofBits_zero_f32

/-- The feature accumulator after a point: what it held, plus the block's features against the block's one-hot matrix. -/
theorem pay4_apply (i : grid0.Coords) (v5 : Vec Ideal S2048x1 .i32) (v14 : Vec Ideal S2048x512 .bf16) (a : Vec Ideal S512x1024 .f32)
    (d : Fin 512) (j : Fin 1024) :
    k0_pay4 (F := Ideal) i v5 v14 a (ix2 d j)
      = a (ix2 d j) + ∑ r : Fin 2048, v14 (ix2 r d) * Cert.Spec.hot (v5 (ix2 r (0 : Fin 1))) ((i 0).val * 1024 + j.val) := by
  unfold k0_pay4
  dsimp only
  rw [shapeCast_self, shapeCast_self, addf_apply, matmul_rows_apply]
  refine congrArg (a (ix2 d j) + ·) (Finset.sum_congr rfl fun r _ => ?_)
  rw [truncf_apply, pay3_apply]

/-- The count accumulator after a point: what it held, plus the column sums of the block's one-hot matrix. -/
theorem pay5_apply (i : grid0.Coords) (v5 : Vec Ideal S2048x1 .i32) (b : Vec Ideal S1x1024 .f32) (j : Fin 1024) :
    k0_pay5 (F := Ideal) i v5 b (ix2 (0 : Fin 1) j)
      = b (ix2 (0 : Fin 1) j) + ∑ r : Fin 2048, Cert.Spec.hot (v5 (ix2 r (0 : Fin 1))) ((i 0).val * 1024 + j.val) := by
  unfold k0_pay5
  dsimp only
  rw [shapeCast_self, addf_apply]
  rw [shapeCast_apply _ _ (ix2 (0 : Fin 1) j) (ix1 j) (by
    rw [Shape.rowMajor_val_two, Shape.rowMajor_val_one]
    show j.val = 0 * 1024 + j.val
    omega)]
  refine congrArg (b (ix2 (0 : Fin 1) j) + ·)
    ((Ideal.multiReduction_add_single (k0_pay3 (F := Ideal) i v5) 0x00000000#32 reduces_S2048x1024_S1024 (.inl rfl) rfl (ix1 j)).trans ?_)
  show ∑ r : Fin 2048, k0_pay3 (F := Ideal) i v5 (reduces_S2048x1024_S1024.lift (ix1 j) r) = _
  refine Finset.sum_congr rfl fun (r : Fin 2048) _ => ?_
  have e : reduces_S2048x1024_S1024.lift (ix1 j) r = ix2 r j := by
    funext a; apply Fin.ext
    match a with
    | ⟨0, _⟩ => rfl
    | ⟨1, _⟩ => rfl
  rw [e]
  exact pay3_apply i v5 r j

/-! ## The blocks the body reads, in the arrays as the region finds them -/

variable (V : (c : Dev nD) → (b : Ref sig .tc) → Buf (Elt Ideal) ((c : Thread nD τ).loc b))

/-- The narrowed flattened rows as the region finds them (32768 x 512), -/
abbrev flat0 (c : Dev nD) : Vec Ideal S32768x512 .bf16 := V c main_v2
/-- and the labels, one per row. -/
def lab0 (c : Dev nD) : Cert.Spec.SN.Idx → BitVec 32 := fun n => (V c main_v1 : Vec Ideal S32768x1 .i32) (ix2 (n 0) 0)

/-- Point t is code block t / 16; both input windows are at row block t % 16, the features over all 512 columns, the
    labels in their one column. -/
theorem point0 : ∀ t : Fin cfg0.N, ((grid0.coords t) 0).val = t.val / 16
    ∧ win0_0.index t (0 : Fin 2) = t.val % 16 ∧ win0_0.index t (1 : Fin 2) = 0
    ∧ win0_1.index t (0 : Fin 2) = t.val % 16 ∧ win0_1.index t (1 : Fin 2) = 0 :=
  (by decide +kernel : ∀ t : Fin grid0.N, ((grid0.coords t) 0).val = t.val / 16
    ∧ win0_0.index t (0 : Fin 2) = t.val % 16 ∧ win0_0.index t (1 : Fin 2) = 0
    ∧ win0_1.index t (0 : Fin 2) = t.val % 16 ∧ win0_1.index t (1 : Fin 2) = 0)

/-- Row r of the feature block at point t is row 2048 (t % 16) + r of the array. -/
theorem xblk0_apply (c : Dev nD) (t : Fin cfg0.N) (r : Fin 2048) (d : Fin 512) (hb : t.val % 16 * 2048 + r.val < 32768) :
    xblk0 V c t (ix2 r d) = flat0 V c (ix2 ⟨t.val % 16 * 2048 + r.val, hb⟩ d) := by
  obtain ⟨-, e0, e1, -, -⟩ := point0 t
  have hidx : ((cfg0.win 0).blk t).view.emb (ix2 r d) = ix2 ⟨t.val % 16 * 2048 + r.val, hb⟩ d := by
    funext a; apply Fin.ext
    match a with
    | ⟨0, _⟩ => show win0_0.index t (0 : Fin 2) * 2048 + 1 * r.val = t.val % 16 * 2048 + r.val; omega
    | ⟨1, _⟩ => show win0_0.index t (1 : Fin 2) * 512 + 1 * d.val = d.val; omega
  exact congrArg (flat0 V c) hidx

/-- Row r of the label block at point t is the label of row 2048 (t % 16) + r. -/
theorem lblk0_apply (c : Dev nD) (t : Fin cfg0.N) (r : Fin 2048) (hb : t.val % 16 * 2048 + r.val < 32768) :
    lblk0 V c t (ix2 r (0 : Fin 1)) = lab0 V c (ix1 ⟨t.val % 16 * 2048 + r.val, hb⟩) := by
  obtain ⟨-, -, -, e0, e1⟩ := point0 t
  have hidx : ((cfg0.win 1).blk t).view.emb (ix2 r (0 : Fin 1)) = ix2 ⟨t.val % 16 * 2048 + r.val, hb⟩ (0 : Fin 1) := by
    funext a; apply Fin.ext
    match a with
    | ⟨0, _⟩ => show win0_1.index t (0 : Fin 2) * 2048 + 1 * r.val = t.val % 16 * 2048 + r.val; omega
    | ⟨1, _⟩ => show win0_1.index t (1 : Fin 2) * 1 + 1 * 0 = 0; omega
  exact congrArg (V c main_v1 : Vec Ideal S32768x1 .i32) hidx

/-! ## Sums over row blocks -/

/-- The sum of g over row block n (rows 2048 n … 2048 n + 2047); there are sixteen row blocks. -/
def blockSum (g : Fin 32768 → EReal) (n : ℕ) : EReal :=
  if h : n < 16 then ∑ r : Fin 2048, g ⟨n * 2048 + r.val, by have := r.isLt; omega⟩ else 0

/-- The sixteen block sums add up to the sum over all rows. -/
theorem sum_blockSum (g : Fin 32768 → EReal) : ∑ n ∈ Finset.range 16, blockSum g n = ∑ k : Fin 32768, g k := by
  rw [Cert.Spec.sum_blocks_of_eq 16 2048 32768 rfl g (fun t r => by have := t.isLt; have := r.isLt; omega),
    Finset.sum_range]
  refine Finset.sum_congr rfl fun t _ => ?_
  unfold blockSum
  rw [dif_pos t.isLt]

/-- Row k's term of the feature sum at feature d and code e, -/
def featRow (c : Dev nD) (d : Fin 512) (e : ℕ) : Fin 32768 → EReal :=
  fun k => flat0 V c (ix2 k d) * Cert.Spec.hot (lab0 V c (ix1 k)) e
/-- and of the count at code e. -/
def cntRow (c : Dev nD) (e : ℕ) : Fin 32768 → EReal :=
  fun k => Cert.Spec.hot (lab0 V c (ix1 k)) e

/-- What point t adds to the feature accumulator at (d, j) is row block t % 16 of the feature sum at code 1024 (t / 16) + j, -/
theorem feat_block (c : Dev nD) (t : Fin cfg0.N) (d : Fin 512) (j : Fin 1024) :
    ∑ r : Fin 2048, xblk0 V c t (ix2 r d) * Cert.Spec.hot (lblk0 V c t (ix2 r (0 : Fin 1))) (((grid0.coords t) 0).val * 1024 + j.val)
      = blockSum (featRow V c d (t.val / 16 * 1024 + j.val)) (t.val % 16) := by
  have hn : t.val % 16 < 16 := Nat.mod_lt _ (by decide)
  unfold blockSum
  rw [dif_pos hn, (point0 t).1]
  refine Finset.sum_congr rfl fun r _ => ?_
  have hb : t.val % 16 * 2048 + r.val < 32768 := by have := r.isLt; omega
  rw [xblk0_apply V c t r d hb, lblk0_apply V c t r hb]
  rfl

/-- and what it adds to the count accumulator at (0, j) is row block t % 16 of the count at that code. -/
theorem cnt_block (c : Dev nD) (t : Fin cfg0.N) (j : Fin 1024) :
    ∑ r : Fin 2048, Cert.Spec.hot (lblk0 V c t (ix2 r (0 : Fin 1))) (((grid0.coords t) 0).val * 1024 + j.val)
      = blockSum (cntRow V c (t.val / 16 * 1024 + j.val)) (t.val % 16) := by
  have hn : t.val % 16 < 16 := Nat.mod_lt _ (by decide)
  unfold blockSum
  rw [dif_pos hn, (point0 t).1]
  refine Finset.sum_congr rfl fun r _ => ?_
  have hb : t.val % 16 * 2048 + r.val < 32768 := by have := r.isLt; omega
  rw [lblk0_apply V c t r hb]
  rfl

/-! ## The accumulators after each point

After the point at row block n of code block e the feature accumulator at (d, j) holds row blocks 0 … n of the feature
sum at feature d and code 1024 e + j, and the count accumulator at (0, j) row blocks 0 … n of the count at that code: at
n = 0 the point's work lands on zeros, and elsewhere the point before is row block n - 1 of the same code block. -/

/-- The feature accumulator after a first row block. -/
theorem acc0_fst_first (c : Dev nD) (d : Fin 512) (j : Fin 1024) (t : Fin cfg0.N) (h0 : t.val % 16 = 0) :
    (acc0 V c t.val t.isLt).1 (ix2 d j)
      = ∑ n ∈ Finset.range (t.val % 16 + 1), blockSum (featRow V c d (t.val / 16 * 1024 + j.val)) n := by
  rw [acc0_first V c t h0]; unfold step0; dsimp only
  refine (pay4_apply (grid0.coords t) (lblk0 V c t) (xblk0 V c t) (k0_pay1 (F := Ideal)) d j).trans ?_
  rw [pay1_apply, zero_add, feat_block V c t d j, h0, Finset.sum_range_succ, Finset.sum_range_zero, zero_add]

/-- The feature accumulator after every point. -/
theorem acc0_fst (c : Dev nD) (d : Fin 512) (j : Fin 1024) : ∀ (m : ℕ) (t : Fin cfg0.N), t.val = m →
    (acc0 V c t.val t.isLt).1 (ix2 d j)
      = ∑ n ∈ Finset.range (t.val % 16 + 1), blockSum (featRow V c d (t.val / 16 * 1024 + j.val)) n := by
  intro m
  induction m with
  | zero =>
    intro t ht
    exact acc0_fst_first V c d j t (by rw [ht])
  | succ m ih =>
    intro t ht
    by_cases h0 : t.val % 16 = 0
    · exact acc0_fst_first V c d j t h0
    · have hlt : t.val - 1 < cfg0.N := Nat.lt_of_le_of_lt (Nat.sub_le _ _) t.isLt
      have ih' : (acc0 V c (t.val - 1) hlt).1 (ix2 d j)
          = ∑ n ∈ Finset.range ((t.val - 1) % 16 + 1), blockSum (featRow V c d ((t.val - 1) / 16 * 1024 + j.val)) n :=
        ih ⟨t.val - 1, hlt⟩ (by show t.val - 1 = m; omega)
      have e1 : (t.val - 1) % 16 + 1 = t.val % 16 := by omega
      have e2 : (t.val - 1) / 16 = t.val / 16 := by omega
      rw [e1, e2] at ih'
      rw [acc0_next V c t h0]; unfold step0; dsimp only
      refine (pay4_apply (grid0.coords t) (lblk0 V c t) (xblk0 V c t) (acc0 V c (t.val - 1) hlt).1 d j).trans ?_
      rw [feat_block V c t d j, ih', Finset.sum_range_succ]

/-- The count accumulator after a first row block. -/
theorem acc0_snd_first (c : Dev nD) (j : Fin 1024) (t : Fin cfg0.N) (h0 : t.val % 16 = 0) :
    (acc0 V c t.val t.isLt).2 (ix2 (0 : Fin 1) j)
      = ∑ n ∈ Finset.range (t.val % 16 + 1), blockSum (cntRow V c (t.val / 16 * 1024 + j.val)) n := by
  rw [acc0_first V c t h0]; unfold step0; dsimp only
  refine (pay5_apply (grid0.coords t) (lblk0 V c t) (k0_pay2 (F := Ideal)) j).trans ?_
  rw [pay2_apply, zero_add, cnt_block V c t j, h0, Finset.sum_range_succ, Finset.sum_range_zero, zero_add]

/-- The count accumulator after every point. -/
theorem acc0_snd (c : Dev nD) (j : Fin 1024) : ∀ (m : ℕ) (t : Fin cfg0.N), t.val = m →
    (acc0 V c t.val t.isLt).2 (ix2 (0 : Fin 1) j)
      = ∑ n ∈ Finset.range (t.val % 16 + 1), blockSum (cntRow V c (t.val / 16 * 1024 + j.val)) n := by
  intro m
  induction m with
  | zero =>
    intro t ht
    exact acc0_snd_first V c j t (by rw [ht])
  | succ m ih =>
    intro t ht
    by_cases h0 : t.val % 16 = 0
    · exact acc0_snd_first V c j t h0
    · have hlt : t.val - 1 < cfg0.N := Nat.lt_of_le_of_lt (Nat.sub_le _ _) t.isLt
      have ih' : (acc0 V c (t.val - 1) hlt).2 (ix2 (0 : Fin 1) j)
          = ∑ n ∈ Finset.range ((t.val - 1) % 16 + 1), blockSum (cntRow V c ((t.val - 1) / 16 * 1024 + j.val)) n :=
        ih ⟨t.val - 1, hlt⟩ (by show t.val - 1 = m; omega)
      have e1 : (t.val - 1) % 16 + 1 = t.val % 16 := by omega
      have e2 : (t.val - 1) / 16 = t.val / 16 := by omega
      rw [e1, e2] at ih'
      rw [acc0_next V c t h0]; unfold step0; dsimp only
      refine (pay5_apply (grid0.coords t) (lblk0 V c t) (acc0 V c (t.val - 1) hlt).2 j).trans ?_
      rw [cnt_block V c t j, ih', Finset.sum_range_succ]

/-! ## What is copied out

At a last row block all sixteen row blocks are in: the sums run over all 32768 rows. -/

/-- The feature accumulator at (d, j), where it is copied out, is the feature sum at feature d and code 1024 (t / 16) + j. -/
theorem acc0_last_fst (c : Dev nD) (t : Fin cfg0.N) (h : t.val % 16 = 15) (d : Fin 512) (j : Fin 1024) :
    (acc0 V c t.val t.isLt).1 (ix2 d j) = Cert.Spec.segsum (flat0 V c) (lab0 V c) (ix2 d ⟨(t.val / 16) * 1024 + j.val, by have := t.isLt; have := j.isLt; have hN : cfg0.N = 64 := N_0; omega⟩) := by
  rw [acc0_fst V c d j t.val t rfl, h]
  exact sum_blockSum (featRow V c d (t.val / 16 * 1024 + j.val))

/-- The count accumulator at (0, j), where it is copied out, is the count at code 1024 (t / 16) + j. -/
theorem acc0_last_snd (c : Dev nD) (t : Fin cfg0.N) (h : t.val % 16 = 15) (j : Fin 1024) :
    (acc0 V c t.val t.isLt).2 (ix2 0 j) = Cert.Spec.counts (lab0 V c) (ix1 ⟨(t.val / 16) * 1024 + j.val, by have := t.isLt; have := j.isLt; have hN : cfg0.N = 64 := N_0; omega⟩) := by
  rw [acc0_snd V c j t.val t rfl, h]
  exact sum_blockSum (cntRow V c (t.val / 16 * 1024 + j.val))

end Cert.KernelIdeal.Hand

end
-- ==== Proof.KIScatterArr.lean ====
/-
  The first kernel region's two output arrays after all 64 grid points. Each output is written back, one block of
  1024 columns at a time, at the last row block of each of the 4 column blocks (the points t with t % 16 = 15); the
  block written at such a point is column block t / 16 of its array. So if, at each of those points, what the
  accumulator holds is that column block of one function of the whole array, the array ends holding that function:
  each write-back is the function read through its block, and the 4 blocks cover all 4096 columns.
-/
import proofs.«408632_j30477087933017_3_alg».proof.Proof.KIScatter
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx
open Idealize.ShloMosaic.TcCoe
open Idealize.ShloMosaic.Pipeline (Dat)

variable {F : FTy → Type} [FloatOps F]
variable (V : (c : Dev nD) → (b : Ref sig .tc) → Buf (Elt F) ((c : Thread nD τ).loc b))

/-! ## The feature sums: 512 x 4096, in blocks of 512 x 1024 -/

/-- The block of the first output at point t: all 512 rows, column block t / 16. -/
theorem colblk0_2 : ∀ t : Fin cfg0.N, win0_2.index t (0 : Fin 2) = 0 ∧ win0_2.index t (1 : Fin 2) = t.val / 16 :=
  (by decide +kernel : ∀ t : Fin grid0.N, win0_2.index t (0 : Fin 2) = 0 ∧ win0_2.index t (1 : Fin 2) = t.val / 16)

/-- What a copying point t writes back is G read through the point's block: entry (d, j) of the accumulator is
    G at row d, column 1024 (t / 16) + j. -/
theorem flushed0_2_eq (c : Dev nD) (G : S512x4096.Idx → Elt F .f32)
    (hG : ∀ (t : Fin cfg0.N), t.val % 16 = 15 → ∀ (d : Fin 512) (j : Fin 1024) (hb : (t.val / 16) * 1024 + j.val < 4096),
      (acc0 V c t.val t.isLt).1 (ix2 d j) = G (ix2 d ⟨(t.val / 16) * 1024 + j.val, hb⟩))
    (t : Fin cfg0.N) (hf : (cfg0.win 2).flush t = true) :
    (dat0 V c).flushed 2 t = ((cfg0.win 2).blk t).view.read (Elt F) G := by
  have h15 : t.val % 16 = 15 := (flush0_2 t).mp hf
  show (cfg0.win 2).cut (grid0.coords t) ((dat0 V c).after 2 t) = _
  rw [after0_2]
  funext y
  have hN : t.val < 64 := lt_of_lt_of_eq t.isLt (show cfg0.N = 64 from N_0)
  obtain ⟨e0, e1⟩ := colblk0_2 t
  have hy1 : (y 1).val < 1024 := (y 1).isLt
  have hb : t.val / 16 * 1024 + (y 1).val < 4096 := by omega
  have hL : (cfg0.win 2).cut (grid0.coords t) (acc0 V c t.val t.isLt).1 y = (acc0 V c t.val t.isLt).1 (ix2 (y 0) (y 1)) :=
    congrArg (acc0 V c t.val t.isLt).1 (eq_ix2 (n0 := 512) (n1 := 1024) y)
  have hR : View.read (Elt F) ((cfg0.win 2).blk t).view G y = G (((cfg0.win 2).blk t).view.emb y) := rfl
  rw [hL, hR, hG t h15 (y 0) (y 1) hb]
  congr 1
  funext a; apply Fin.ext
  match a with
  | ⟨0, _⟩ => show (y 0).val = win0_2.index t (0 : Fin 2) * 512 + 1 * (y 0).val; omega
  | ⟨1, _⟩ => show t.val / 16 * 1024 + (y 1).val = win0_2.index t (1 : Fin 2) * 1024 + 1 * (y 1).val; omega

/-- An entry of the array is in point t's block iff each coordinate is in the block's range on its axis. -/
theorem mem_blk0_2 (t : Fin cfg0.N) (i : S512x4096.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v3_0).slice (win0_2.rect t)).set ↔ _
  rw [View.set_slice_whole, Rect.mem_set_unit]
  exact Iff.rfl

/-- Every entry is in a copying point's block: column k is in column block k / 1024, written back at point
    16 (k / 1024) + 15. -/
theorem cover0_2 (i : S512x4096.Idx) :
    ∃ t : Fin cfg0.N, (cfg0.win 2).flush t = true ∧ i ∈ ((cfg0.win 2).blk t).view.set := by
  have hi0 : (i 0).val < 512 := (i 0).isLt
  have hi1 : (i 1).val < 4096 := (i 1).isLt
  have hN : cfg0.N = 64 := N_0
  obtain ⟨t, ht⟩ : ∃ t : Fin cfg0.N, t.val = 16 * ((i 1).val / 1024) + 15 := ⟨⟨_, by rw [hN]; omega⟩, rfl⟩
  obtain ⟨e0, e1⟩ := colblk0_2 t
  refine ⟨t, (flush0_2 t).mpr (by omega), ?_⟩
  rw [mem_blk0_2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- If at every copying point the feature accumulator is block (t / 16) of one 512 x 4096 function G, the first output array ends as G. -/
theorem arr2_of_blocks (c : Dev nD) (G : S512x4096.Idx → Elt F .f32)
    (hG : ∀ (t : Fin cfg0.N), t.val % 16 = 15 → ∀ (d : Fin 512) (j : Fin 1024) (hb : (t.val / 16) * 1024 + j.val < 4096),
      (acc0 V c t.val t.isLt).1 (ix2 d j) = G (ix2 d ⟨(t.val / 16) * 1024 + j.val, hb⟩)) :
    ((dat0 V c).arrAt 2 cfg0.N : S512x4096.Idx → Elt F .f32) = G :=
  (dat0 V c).arrAt_eq_of_cover 2 G (flushed0_2_eq V c G hG) cover0_2

/-! ## The counts: 1 x 4096, in blocks of 1 x 1024 -/

/-- The block of the second output at point t: the one row, column block t / 16. -/
theorem colblk0_3 : ∀ t : Fin cfg0.N, win0_3.index t (0 : Fin 2) = 0 ∧ win0_3.index t (1 : Fin 2) = t.val / 16 :=
  (by decide +kernel : ∀ t : Fin grid0.N, win0_3.index t (0 : Fin 2) = 0 ∧ win0_3.index t (1 : Fin 2) = t.val / 16)

/-- What a copying point t writes back is G read through the point's block: entry (0, j) of the accumulator is
    G at column 1024 (t / 16) + j. -/
theorem flushed0_3_eq (c : Dev nD) (G : S1x4096.Idx → Elt F .f32)
    (hG : ∀ (t : Fin cfg0.N), t.val % 16 = 15 → ∀ (j : Fin 1024) (hb : (t.val / 16) * 1024 + j.val < 4096),
      (acc0 V c t.val t.isLt).2 (ix2 0 j) = G (ix2 0 ⟨(t.val / 16) * 1024 + j.val, hb⟩))
    (t : Fin cfg0.N) (hf : (cfg0.win 3).flush t = true) :
    (dat0 V c).flushed 3 t = ((cfg0.win 3).blk t).view.read (Elt F) G := by
  have h15 : t.val % 16 = 15 := (flush0_3 t).mp hf
  show (cfg0.win 3).cut (grid0.coords t) ((dat0 V c).after 3 t) = _
  rw [after0_3]
  funext y
  have hN : t.val < 64 := lt_of_lt_of_eq t.isLt (show cfg0.N = 64 from N_0)
  obtain ⟨e0, e1⟩ := colblk0_3 t
  have hy0 : (y 0).val < 1 := (y 0).isLt
  have hy1 : (y 1).val < 1024 := (y 1).isLt
  have hb : t.val / 16 * 1024 + (y 1).val < 4096 := by omega
  have hy : (y : S1x1024.Idx) = ix2 (0 : Fin 1) (y 1) :=
    (eq_ix2 (n0 := 1) (n1 := 1024) y).trans (by rw [Fin.eq_zero (y 0)]; rfl)
  have hL : (cfg0.win 3).cut (grid0.coords t) (acc0 V c t.val t.isLt).2 y = (acc0 V c t.val t.isLt).2 (ix2 (0 : Fin 1) (y 1)) :=
    congrArg (acc0 V c t.val t.isLt).2 hy
  have hR : View.read (Elt F) ((cfg0.win 3).blk t).view G y = G (((cfg0.win 3).blk t).view.emb y) := rfl
  rw [hL, hR, hG t h15 (y 1) hb]
  congr 1
  funext a; apply Fin.ext
  match a with
  | ⟨0, _⟩ => show (0 : Nat) = win0_3.index t (0 : Fin 2) * 1 + 1 * (y 0).val; omega
  | ⟨1, _⟩ => show t.val / 16 * 1024 + (y 1).val = win0_3.index t (1 : Fin 2) * 1024 + 1 * (y 1).val; omega

/-- An entry of the array is in point t's block iff each coordinate is in the block's range on its axis. -/
theorem mem_blk0_3 (t : Fin cfg0.N) (i : S1x4096.Idx) :
    i ∈ ((cfg0.win 3).blk t).view.set ↔ ∀ a : Fin 2, win0_3.index t a * S1x1024.size a ≤ (i a).val ∧ (i a).val < win0_3.index t a * S1x1024.size a + S1x1024.size a := by
  show i ∈ ((View.whole main_v3_1).slice (win0_3.rect t)).set ↔ _
  rw [View.set_slice_whole, Rect.mem_set_unit]
  exact Iff.rfl

/-- Every entry is in a copying point's block: column k is in column block k / 1024, written back at point
    16 (k / 1024) + 15. -/
theorem cover0_3 (i : S1x4096.Idx) :
    ∃ t : Fin cfg0.N, (cfg0.win 3).flush t = true ∧ i ∈ ((cfg0.win 3).blk t).view.set := by
  have hi0 : (i 0).val < 1 := (i 0).isLt
  have hi1 : (i 1).val < 4096 := (i 1).isLt
  have hN : cfg0.N = 64 := N_0
  obtain ⟨t, ht⟩ : ∃ t : Fin cfg0.N, t.val = 16 * ((i 1).val / 1024) + 15 := ⟨⟨_, by rw [hN]; omega⟩, rfl⟩
  obtain ⟨e0, e1⟩ := colblk0_3 t
  refine ⟨t, (flush0_3 t).mpr (by omega), ?_⟩
  rw [mem_blk0_3]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 1024 ≤ (i 1).val ∧ (i 1).val < win0_3.index t (1 : Fin 2) * 1024 + 1024; omega

/-- The same for the count accumulator and the second output array (1 x 4096). -/
theorem arr3_of_blocks (c : Dev nD) (G : S1x4096.Idx → Elt F .f32)
    (hG : ∀ (t : Fin cfg0.N), t.val % 16 = 15 → ∀ (j : Fin 1024) (hb : (t.val / 16) * 1024 + j.val < 4096),
      (acc0 V c t.val t.isLt).2 (ix2 0 j) = G (ix2 0 ⟨(t.val / 16) * 1024 + j.val, hb⟩)) :
    ((dat0 V c).arrAt 3 cfg0.N : S1x4096.Idx → Elt F .f32) = G :=
  (dat0 V c).arrAt_eq_of_cover 3 G (flushed0_3_eq V c G hG) cover0_3

end Cert.KernelIdeal.Hand

end
-- ==== Proof.KIGatherAcc.lean ====
/-
  What the second kernel region's accumulator holds when it is copied out, on the extended reals.

  The grid is 16 row blocks by 8 code blocks, code blocks innermost. At row block i and code block e the body adds to
  the accumulator (2048 x 512) the product  H · Tᵀ  of the rows' one-hot label matrix over the code block,
  H(r, j) = [label(2048 i + r) = 512 e + j], with the code block's columns of the codebook, T(d, j) = codebook(d, 512 e + j);
  the product contracts axis 1 of both operands. The accumulator is zero before code block 0. So after code block e
  its entry (r, d) is the sum, over the codes k below 512 (e + 1), of [label(2048 i + r) = k] · codebook(d, k); after
  code block 7 that is the sum over all 4096 codes, which is codebook(d, label) when the label names a code and 0
  otherwise: the row's code looked up in the codebook. Only 1 · x = x, 0 · x = 0 and the regrouping of a finite sum
  are used, so no entry needs to be finite.
-/
import proofs.«408632_j30477087933017_3_alg».proof.Proof.KIGather
import proofs.«408632_j30477087933017_3_alg».proof.Proof.Spec
import proofs.«408632_j30477087933017_3_alg».proof.Proof.LibBlockedMatmul
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx

/-! ## The one-hot entry

The label less the code block's first code, compared as 32-bit words with the lane number: the words agree exactly
when the label, read as a natural number, is that code of the block (a code is below 4096, far below 2^32). -/

theorem word1_eq_iff (l : BitVec 32) (e : ℕ) (he : e < 8) (j : Fin 512) :
    IntOp.subi l (Scalar.muli (BitVec.ofNat 32 e) 512#32) = BitVec.ofNat 32 j.val ↔ l.toNat = e * 512 + j.val := by
  have hj := j.isLt
  have hl := l.isLt
  rw [← BitVec.toNat_inj]
  show (l - BitVec.ofNat 32 e * 512#32).toNat = (BitVec.ofNat 32 j.val).toNat ↔ _
  rw [BitVec.toNat_sub, BitVec.toNat_mul, BitVec.toNat_ofNat, BitVec.toNat_ofNat]
  show (2 ^ 32 - e % 2 ^ 32 * 512 % 2 ^ 32 + l.toNat) % 2 ^ 32 = j.val % 2 ^ 32 ↔ _
  norm_num
  omega

/-- The compare's bit, widened and converted, is the extended real 1 or 0: the label's indicator at the code. -/
theorem hot1_entry (l : BitVec 32) (e : ℕ) (he : e < 8) (j : Fin 512) :
    (FloatOps.sitofp (F := Ideal) .f32 ((IntOp.cmpi .eq (IntOp.subi l (Scalar.muli (BitVec.ofNat 32 e) 512#32)) (BitVec.ofNat 32 j.val)).setWidth 32) : EReal)
      = Cert.Spec.hot l (e * 512 + j.val) := by
  show ((((BitVec.ofBool (IntOp.subi l (Scalar.muli (BitVec.ofNat 32 e) 512#32) == BitVec.ofNat 32 j.val)).setWidth 32).toInt : ℝ) : EReal) = _
  unfold Cert.Spec.hot
  by_cases h : l.toNat = e * 512 + j.val
  · rw [if_pos h, beq_iff_eq.mpr ((word1_eq_iff l e he j).mpr h)]
    have h1 : ((BitVec.ofBool true).setWidth 32).toInt = 1 := by decide
    rw [h1]; norm_num
  · rw [if_neg h, beq_eq_false_iff_ne.mpr (fun hh => h ((word1_eq_iff l e he j).mp hh))]
    have h0 : ((BitVec.ofBool false).setWidth 32).toInt = 0 := by decide
    rw [h0]; norm_num

/-! ## The product's operand indices

The product contracts axis 1 of both operands: at output (r, d) and contraction position k the left operand is read
at (r, k), the right at (d, k). -/

theorem lhs_dot1_0 (j : S2048x512.Idx) (k : dot_S2048x512_S512x512_S2048x512_1_1_0_0_n_n.contr.Idx) :
    (dot_S2048x512_S512x512_S2048x512_1_1_0_0_n_n.lhsIdx j k 0 : ℕ) = j 0 := by
  simp [DotDims.lhsIdx, dot_S2048x512_S512x512_S2048x512_1_1_0_0_n_n]; rfl
theorem lhs_dot1_1 (j : S2048x512.Idx) (k : dot_S2048x512_S512x512_S2048x512_1_1_0_0_n_n.contr.Idx) :
    (dot_S2048x512_S512x512_S2048x512_1_1_0_0_n_n.lhsIdx j k 1 : ℕ) = k ⟨0, by decide⟩ := by
  simp [DotDims.lhsIdx, dot_S2048x512_S512x512_S2048x512_1_1_0_0_n_n]; rfl
theorem rhs_dot1_0 (j : S2048x512.Idx) (k : dot_S2048x512_S512x512_S2048x512_1_1_0_0_n_n.contr.Idx) :
    (dot_S2048x512_S512x512_S2048x512_1_1_0_0_n_n.rhsIdx j k 0 : ℕ) = j 1 := by
  simp [DotDims.rhsIdx, dot_S2048x512_S512x512_S2048x512_1_1_0_0_n_n]; rfl
theorem rhs_dot1_1 (j : S2048x512.Idx) (k : dot_S2048x512_S512x512_S2048x512_1_1_0_0_n_n.contr.Idx) :
    (dot_S2048x512_S512x512_S2048x512_1_1_0_0_n_n.rhsIdx j k 1 : ℕ) = k ⟨0, by decide⟩ := by
  simp [DotDims.rhsIdx, dot_S2048x512_S512x512_S2048x512_1_1_0_0_n_n]; rfl

/-! ## One point's work at an index

The accumulator's entry plus, over the 512 codes of the point's code block, the label's indicator at the code times
the codebook's entry for the feature and the code. -/

theorem k1_pay2_apply (i : grid1.Coords) (v6 : Vec Ideal S2048x1 .i32) (v16 : Vec Ideal S512x512 .f32) (a : Vec Ideal S2048x512 .f32)
    (r : Fin 2048) (d : Fin 512) :
    k1_pay2 i v6 v16 a (ix2 r d)
      = a (ix2 r d) + ∑ j : Fin 512, Cert.Spec.hot (v6 (ix2 r 0)) ((i 1).val * 512 + j.val) * v16 (ix2 d j) := by
  unfold k1_pay2
  simp only [shapeCast_self]
  rw [addf_apply]
  refine congrArg (a (ix2 r d) + ·) ?_
  simp only [matmul]
  rw [Ideal.matmul_constant_zero_apply,
    ← Equiv.sum_comp (contrEquiv1 dot_S2048x512_S512x512_S2048x512_1_1_0_0_n_n 512 rfl rfl).symm]
  refine Finset.sum_congr rfl fun j _ => ?_
  have c2 := contrEquiv1_symm_val dot_S2048x512_S512x512_S2048x512_1_1_0_0_n_n 512 rfl rfl j
  have l2 : dot_S2048x512_S512x512_S2048x512_1_1_0_0_n_n.lhsIdx (ix2 r d)
      ((contrEquiv1 dot_S2048x512_S512x512_S2048x512_1_1_0_0_n_n 512 rfl rfl).symm j) = ix2 r j := by
    funext ax; apply Fin.ext
    match ax with
    | ⟨0, _⟩ => exact lhs_dot1_0 _ _
    | ⟨1, _⟩ => exact (lhs_dot1_1 _ _).trans c2
  have r2 : dot_S2048x512_S512x512_S2048x512_1_1_0_0_n_n.rhsIdx (ix2 r d)
      ((contrEquiv1 dot_S2048x512_S512x512_S2048x512_1_1_0_0_n_n 512 rfl rfl).symm j) = ix2 d j := by
    funext ax; apply Fin.ext
    match ax with
    | ⟨0, _⟩ => exact rhs_dot1_0 _ _
    | ⟨1, _⟩ => exact (rhs_dot1_1 _ _).trans c2
  rw [l2, r2, truncf_apply, truncf_apply, sitofp_apply, extui_apply]
  refine congrArg (· * v16 (ix2 d j)) ?_
  have hb : broadcastTo S2048x512 (subi v6 (broadcast S2048x1 (Scalar.muli (BitVec.ofNat 32 (i 1).val) 512#32)))
      broadcasts_S2048x1_S2048x512 (ix2 r j)
        = IntOp.subi (v6 (ix2 r 0)) (Scalar.muli (BitVec.ofNat 32 (i 1).val) 512#32) :=
    broadcastTo_apply _ _ (ix2 r j) (ix2 r 0) (fun ax => by
      match ax with
      | ⟨0, _⟩ => rfl
      | ⟨1, _⟩ => rfl)
  have hi : iota Kind.tc S2048x512 32 [1] iota_S2048x512_d1_w32 (ix2 r j) = BitVec.ofNat 32 j.val :=
    iota_single_apply _ _ _ _ _ _
  show FloatOps.sitofp (F := Ideal) .f32 ((IntOp.cmpi .eq (broadcastTo S2048x512 (subi v6 (broadcast S2048x1 (Scalar.muli (BitVec.ofNat 32 (i 1).val) 512#32)))
      broadcasts_S2048x1_S2048x512 (ix2 r j)) (iota Kind.tc S2048x512 32 [1] iota_S2048x512_d1_w32 (ix2 r j))).setWidth 32) = _
  rw [hb, hi]
  exact hot1_entry (v6 (ix2 r 0)) (i 1).val (i 1).isLt j

/-- Clearing the accumulator writes the extended real 0 everywhere. -/
theorem k1_pay1_apply (j : S2048x512.Idx) : (k1_pay1 (F := Ideal)) j = 0 := by
  unfold k1_pay1
  simp only [shapeCast_self]
  exact Ideal.ofBits_zero_f32

variable (V : (c : Dev nD) → (b : Ref sig .tc) → Buf (Elt Ideal) ((c : Thread nD τ).loc b))

/-- The codebook as the region finds it (512 x 4096), -/
abbrev book1 (c : Dev nD) : Vec Ideal S512x4096 .f32 := V c main_arg2
/-- and the labels, one per row. -/
def lab1 (c : Dev nD) : Cert.Spec.SN.Idx → BitVec 32 := fun n => (V c main_v1 : Vec Ideal S32768x1 .i32) (ix2 (n 0) 0)

/-! ## Where the blocks sit in their arrays

Point t is row block t / 8, code block t % 8. The label window's block is rows 2048·(t / 8) onwards of the label
column; the codebook window's one block is the whole codebook; the code block's columns start at 512·(t % 8). -/

theorem idx1_facts : ∀ t : Fin cfg1.N, win1_1.index t (0 : Fin 2) = t.val / 8 ∧ win1_1.index t (1 : Fin 2) = 0
    ∧ win1_0.index t (0 : Fin 2) = 0 ∧ win1_0.index t (1 : Fin 2) = 0
    ∧ k1_off1 (grid1.coords t) (0 : Fin 2) = 0 ∧ k1_off1 (grid1.coords t) (1 : Fin 2) = (t.val % 8) * 512
    ∧ (grid1.coords t 1).val = t.val % 8 :=
  (by decide +kernel : ∀ t : Fin grid1.N, _)

/-- Row r of the row block of the point at position n, as a row of the whole array. -/
def row1 (n : ℕ) (hn : n < cfg1.N) (r : Fin 2048) : Fin 32768 :=
  ⟨(n / 8) * 2048 + r.val, by have hN : cfg1.N = 128 := N_1; have := r.isLt; omega⟩

theorem lblk1_apply (c : Dev nD) (t : Fin cfg1.N) (r : Fin 2048) :
    lblk1 V c t (ix2 r 0) = lab1 V c (ix1 (row1 t.val t.isLt r)) := by
  obtain ⟨e0, e1, -⟩ := idx1_facts t
  show (V c main_v1 : Vec Ideal S32768x1 .i32) (((cfg1.win 1).blk t).view.emb (ix2 r 0)) = (V c main_v1 : Vec Ideal S32768x1 .i32) (ix2 (row1 t.val t.isLt r) 0)
  refine congrArg _ (funext fun a => Fin.ext ?_)
  match a with
  | ⟨0, _⟩ => show win1_1.index t (0 : Fin 2) * 2048 + 1 * r.val = (t.val / 8) * 2048 + r.val; rw [e0]; omega
  | ⟨1, _⟩ => show win1_1.index t (1 : Fin 2) * 1 + 1 * 0 = 0; rw [e1]

theorem wblk1_apply (c : Dev nD) (t : Fin cfg1.N) (d : Fin 512) (k : Fin 4096) :
    wblk1 V c t (ix2 d k) = book1 V c (ix2 d k) := by
  obtain ⟨-, -, e2, e3, -⟩ := idx1_facts t
  show (V c main_arg2 : Vec Ideal S512x4096 .f32) (((cfg1.win 0).blk t).view.emb (ix2 d k)) = (V c main_arg2 : Vec Ideal S512x4096 .f32) (ix2 d k)
  refine congrArg _ (funext fun a => Fin.ext ?_)
  match a with
  | ⟨0, _⟩ => show win1_0.index t (0 : Fin 2) * 512 + 1 * d.val = d.val; rw [e2]; omega
  | ⟨1, _⟩ => show win1_0.index t (1 : Fin 2) * 4096 + 1 * k.val = k.val; rw [e3]; omega

theorem etile1_apply (t : Fin cfg1.N) (x0 : Vec Ideal S512x4096 .f32) (d j : Fin 512) :
    etile1 (grid1.coords t) x0 (ix2 d j)
      = x0 (ix2 d ⟨(t.val % 8) * 512 + j.val, by have := j.isLt; omega⟩) := by
  obtain ⟨-, -, -, -, e4, e5, -⟩ := idx1_facts t
  unfold etile1
  refine congrArg x0 (funext fun a => Fin.ext ?_)
  match a with
  | ⟨0, _⟩ => show k1_off1 (grid1.coords t) (0 : Fin 2) + 1 * d.val = d.val; rw [e4]; omega
  | ⟨1, _⟩ => show k1_off1 (grid1.coords t) (1 : Fin 2) + 1 * j.val = (t.val % 8) * 512 + j.val; rw [e5]; omega

/-! ## The accumulator after each point

The term of code k in a row's lookup sum is the label's indicator at k times the codebook's entry for the feature
and k (0 beyond the 4096 codes). One point adds the 512 terms of its code block; starting from zero at the first
code block, after code block e the accumulator holds the terms of the code blocks up to e. -/

/-- The term of code k in row n's lookup sum at feature d. -/
def term1 (c : Dev nD) (n : Fin 32768) (d : Fin 512) (k : ℕ) : EReal :=
  if h : k < 4096 then Cert.Spec.hot (lab1 V c (ix1 n)) k * book1 V c (ix2 d ⟨k, h⟩) else 0

/-- One point's work at an index: the 512 terms of the point's code block are added. -/
theorem step1_apply (c : Dev nD) (t : Fin cfg1.N) (p : Vec Ideal S2048x512 .f32) (r : Fin 2048) (d : Fin 512) :
    step1 V c t p (ix2 r d)
      = p (ix2 r d) + ∑ j : Fin 512, term1 V c (row1 t.val t.isLt r) d ((t.val % 8) * 512 + j.val) := by
  obtain ⟨-, -, -, -, -, -, e6⟩ := idx1_facts t
  unfold step1
  refine (k1_pay2_apply (grid1.coords t) (lblk1 V c t) (etile1 (grid1.coords t) (wblk1 V c t)) p r d).trans ?_
  refine congrArg (p (ix2 r d) + ·) (Finset.sum_congr rfl fun j _ => ?_)
  have hk : (t.val % 8) * 512 + j.val < 4096 := by have := j.isLt; omega
  rw [lblk1_apply V c t r, etile1_apply t (wblk1 V c t) d j, wblk1_apply V c t d, e6]
  unfold term1
  rw [dif_pos hk]

/-- After the point at position n the accumulator holds the terms of the code blocks up to n % 8. -/
theorem acc1_partial (c : Dev nD) : ∀ (n : ℕ) (hn : n < cfg1.N) (r : Fin 2048) (d : Fin 512),
    acc1 V c n hn (ix2 r d)
      = ∑ e ∈ Finset.range (n % 8 + 1), ∑ j : Fin 512, term1 V c (row1 n hn r) d (e * 512 + j.val) := by
  intro n
  induction n with
  | zero =>
    intro hn r d
    rw [acc1_first V c ⟨0, hn⟩ rfl, step1_apply, k1_pay1_apply, zero_add]
    exact (Finset.sum_range_one (fun e => ∑ j : Fin 512, term1 V c (row1 0 hn r) d (e * 512 + j.val))).symm
  | succ n ih =>
    intro hn r d
    by_cases h0 : (n + 1) % 8 = 0
    · rw [acc1_first V c ⟨n + 1, hn⟩ h0, step1_apply, k1_pay1_apply, zero_add]
      show ∑ j : Fin 512, term1 V c (row1 (n + 1) hn r) d ((n + 1) % 8 * 512 + j.val) = _
      rw [h0, Finset.sum_range_one]
    · rw [acc1_next V c ⟨n + 1, hn⟩ h0, step1_apply]
      show acc1 V c n (Nat.lt_of_succ_lt hn) (ix2 r d) + ∑ j : Fin 512, term1 V c (row1 (n + 1) hn r) d ((n + 1) % 8 * 512 + j.val) = _
      have hrow : row1 (n + 1) hn r = row1 n (Nat.lt_of_succ_lt hn) r := by
        unfold row1; exact Fin.ext (by show (n + 1) / 8 * 2048 + r.val = n / 8 * 2048 + r.val; omega)
      have hmod : (n + 1) % 8 = n % 8 + 1 := by omega
      rw [ih (Nat.lt_of_succ_lt hn) r d, hrow, hmod, Finset.sum_range_succ (n := n % 8 + 1)]

/-- All 4096 terms of a row's lookup sum: the codebook's entry at the row's label, 0 for a label that names no code
    (1 · x = x and 0 · x = 0 for every extended real). -/
theorem sum_term1 (c : Dev nD) (n : Fin 32768) (d : Fin 512) :
    ∑ k : Fin 4096, term1 V c n d k.val = Cert.Spec.pick (book1 V c) (lab1 V c) (ix2 n d) := by
  have hterm : ∀ k : Fin 4096, term1 V c n d k.val = Cert.Spec.hot (lab1 V c (ix1 n)) k.val * book1 V c (ix2 d k) := fun k => by
    unfold term1; rw [dif_pos k.isLt]
  show _ = if h : (lab1 V c (ix1 n)).toNat < 4096 then book1 V c (ix2 d ⟨(lab1 V c (ix1 n)).toNat, h⟩) else 0
  by_cases h : (lab1 V c (ix1 n)).toNat < 4096
  · rw [dif_pos h, Finset.sum_eq_single (⟨(lab1 V c (ix1 n)).toNat, h⟩ : Fin 4096)]
    · rw [hterm, Cert.Spec.hot_self, one_mul]
    · intro k _ hne
      rw [hterm, Cert.Spec.hot_of_ne (fun e => hne (Fin.ext e.symm)), zero_mul]
    · intro hni; exact absurd (Finset.mem_univ _) hni
  · rw [dif_neg h]
    refine Finset.sum_eq_zero fun k _ => ?_
    rw [hterm, Cert.Spec.hot_of_ne (fun e => h (e ▸ k.isLt)), zero_mul]

/-- At a last code block the accumulator holds each row's code looked up in the codebook. -/
theorem acc1_last (c : Dev nD) (t : Fin cfg1.N) (h : t.val % 8 = 7) (r : Fin 2048) (d : Fin 512) :
    acc1 V c t.val t.isLt (ix2 r d) = Cert.Spec.pick (book1 V c) (lab1 V c) (ix2 ⟨(t.val / 8) * 2048 + r.val, by have := t.isLt; have hN : cfg1.N = 128 := N_1; have := r.isLt; omega⟩ d) := by
  rw [acc1_partial V c t.val t.isLt r d, h]
  show ∑ e ∈ Finset.range 8, ∑ j : Fin 512, term1 V c (row1 t.val t.isLt r) d (e * 512 + j.val) = Cert.Spec.pick (book1 V c) (lab1 V c) (ix2 (row1 t.val t.isLt r) d)
  rw [← sum_term1 V c (row1 t.val t.isLt r) d, Finset.sum_range (fun e => ∑ j : Fin 512, term1 V c (row1 t.val t.isLt r) d (e * 512 + j.val))]
  exact (Cert.Spec.sum_blocks_of_eq 8 512 4096 rfl (fun k => term1 V c (row1 t.val t.isLt r) d k.val)
    (fun e j => by have := e.isLt; have := j.isLt; omega)).symm

end Cert.KernelIdeal.Hand

end
-- ==== Proof.KIGatherArr.lean ====
/-
  From blocks to the array, for the second kernel region. The region's output is a 32768 x 512 array, staged in blocks
  of 2048 rows (all 512 columns); the grid is 16 row blocks by 8 code blocks, the code blocks innermost, and the output
  block of row block i is written back once, at the last code block: point 8 i + 7. Stated here: if at each of those
  points the accumulator is row block i of ONE 32768 x 512 function, the array ends as that function — each write-back
  writes its block of the function, and the 16 blocks cover every row.
-/
import proofs.«408632_j30477087933017_3_alg».proof.Proof.KIGather
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx
open Idealize.ShloMosaic.Pipeline (Dat)

variable {F : FTy → Type} [FloatOps F]

variable (V : (c : Dev nD) → (b : Ref sig .tc) → Buf (Elt F) ((c : Thread nD τ).loc b))

/-- The output's block at point t: row block t / 8, the one column block (decided over the 128 points). -/
theorem oindex1 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)

/-- An index of the array is in point t's output block iff each coordinate is in the block's range on its axis. -/
theorem mem_oblk1 (t : Fin cfg1.N) (i : S32768x512.Idx) :
    i ∈ ((cfg1.win 2).blk t).view.set ↔ ∀ a : Fin 2, win1_2.index t a * S2048x512.size a ≤ (i a).val ∧ (i a).val < win1_2.index t a * S2048x512.size a + S2048x512.size a := by
  show i ∈ ((View.whole main_v5).slice (win1_2.rect t)).set ↔ _
  rw [View.set_slice_whole, Rect.mem_set_unit]
  exact Iff.rfl

/-- What a copying point writes back is its block of G: rows 2048 (t / 8) onwards, all columns. -/
theorem flushed1_eq (c : Dev nD) (G : S32768x512.Idx → Elt F .f32)
    (hG : ∀ (t : Fin cfg1.N), t.val % 8 = 7 → ∀ (r : Fin 2048) (d : Fin 512) (hb : (t.val / 8) * 2048 + r.val < 32768),
      acc1 V c t.val t.isLt (ix2 r d) = G (ix2 ⟨(t.val / 8) * 2048 + r.val, hb⟩ d))
    (t : Fin cfg1.N) (hf : (cfg1.win 2).flush t = true) :
    (dat1 V c).flushed 2 t = ((cfg1.win 2).blk t).view.read (Elt F) G := by
  show (cfg1.win 2).cut (grid1.coords t) ((dat1 V c).after 2 t) = _
  rw [after1_2]
  have h7 : t.val % 8 = 7 := (flush1_2 t).mp hf
  have hN : t.val < 128 := lt_of_lt_of_eq t.isLt (show cfg1.N = 128 from N_1)
  obtain ⟨e0, e1⟩ := oindex1 t
  funext j
  obtain ⟨r, d, rfl⟩ : ∃ (r : Fin 2048) (d : Fin 512), j = ix2 r d := ⟨j 0, j 1, eq_ix2 j⟩
  have hb : (t.val / 8) * 2048 + r.val < 32768 := by have := r.isLt; omega
  show acc1 V c t.val t.isLt (ix2 r d) = G (((cfg1.win 2).blk t).view.emb (ix2 r d))
  rw [hG t h7 r d hb]
  congr 1
  funext a; apply Fin.ext
  match a with
  | ⟨0, _⟩ => show (t.val / 8) * 2048 + r.val = win1_2.index t (0 : Fin 2) * 2048 + 1 * r.val; omega
  | ⟨1, _⟩ => show d.val = win1_2.index t (1 : Fin 2) * 512 + 1 * d.val; omega

/-- If at every copying point the accumulator is row block (t / 8) of one 32768 x 512 function G, the output array
    ends as G: row n is covered by the point 8 (n / 2048) + 7. -/
theorem arr_of_blocks1 (c : Dev nD) (G : S32768x512.Idx → Elt F .f32)
    (hG : ∀ (t : Fin cfg1.N), t.val % 8 = 7 → ∀ (r : Fin 2048) (d : Fin 512) (hb : (t.val / 8) * 2048 + r.val < 32768),
      acc1 V c t.val t.isLt (ix2 r d) = G (ix2 ⟨(t.val / 8) * 2048 + r.val, hb⟩ d)) :
    ((dat1 V c).arrAt 2 cfg1.N : S32768x512.Idx → Elt F .f32) = G := by
  refine (dat1 V c).arrAt_eq_of_cover 2 G (flushed1_eq V c G hG) fun i => ?_
  have hi0 : (i 0).val < 32768 := (i 0).isLt
  have hi1 : (i 1).val < 512 := (i 1).isLt
  have hN : cfg1.N = 128 := N_1
  have ht : 8 * ((i 0).val / 2048) + 7 < cfg1.N := by rw [hN]; omega
  refine ⟨⟨8 * ((i 0).val / 2048) + 7, ht⟩, (flush1_2 _).mpr (by show (8 * ((i 0).val / 2048) + 7) % 8 = 7; omega), ?_⟩
  rw [mem_oblk1]
  obtain ⟨e0, e1⟩ := oindex1 ⟨8 * ((i 0).val / 2048) + 7, ht⟩
  have e0' : win1_2.index ⟨8 * ((i 0).val / 2048) + 7, ht⟩ (0 : Fin 2) = (i 0).val / 2048 := by rw [e0]; show (8 * ((i 0).val / 2048) + 7) / 8 = _; omega
  intro a
  match a with
  | ⟨0, _⟩ => show win1_2.index _ (0 : Fin 2) * 2048 ≤ (i 0).val ∧ (i 0).val < win1_2.index _ (0 : Fin 2) * 2048 + 2048; rw [e0']; omega
  | ⟨1, _⟩ => show win1_2.index _ (1 : Fin 2) * 512 ≤ (i 1).val ∧ (i 1).val < win1_2.index _ (1 : Fin 2) * 512 + 512; rw [e1]; omega

end Cert.KernelIdeal.Hand

end
-- ==== Proof.KIValues.lean ====
/-
  What the two kernel regions leave, as functions of the program's arguments. The first region's output arrays are the
  per-code feature sums of the flattened rows and the per-code counts; the second region's output array is each row's
  code looked up in the codebook. Read through the reshapes around the regions: the labels enter as a column whose
  entry (n, 0) is the n-th label; the rows enter narrowed to bf16, which changes no extended real; the counts leave as a
  1 x 4096 array read back as a vector; the looked-up rows leave as 32768 x 512 and are rearranged batch by height by
  width, position (b, h, w) holding row 1024 b + 32 h + w.
-/
import proofs.«408632_j30477087933017_3_alg».proof.Proof.KIResults
import proofs.«408632_j30477087933017_3_alg».proof.Proof.KIScatterAcc
import proofs.«408632_j30477087933017_3_alg».proof.Proof.KIScatterArr
import proofs.«408632_j30477087933017_3_alg».proof.Proof.KIGatherAcc
import proofs.«408632_j30477087933017_3_alg».proof.Proof.KIGatherArr
import proofs.«408632_j30477087933017_3_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

/-- The label column the first region finds, read at (n, 0), is the n-th label. -/
theorem lab0_E1 (c : Dev nD) : lab0 (E1 m) c = (m ((c : Thread nD τ).loc main_arg1) : IVec S32768 32) := by
  funext n
  unfold lab0
  rw [E1_main_v1 m c]
  refine shapeCast_apply _ _ _ n ?_
  rw [Shape.rowMajor_val_one, Shape.rowMajor_val_two]
  show (n 0).val = (n 0).val * 1 + 0
  omega

/-- The second region finds the same column. -/
theorem lab1_E3 (c : Dev nD) : lab1 (E3 m) c = (m ((c : Thread nD τ).loc main_arg1) : IVec S32768 32) := by
  funext n
  unfold lab1
  rw [E3_main_v1 m c, E1_main_v1 m c]
  refine shapeCast_apply _ _ _ n ?_
  rw [Shape.rowMajor_val_one, Shape.rowMajor_val_two]
  show (n 0).val = (n 0).val * 1 + 0
  omega

/-- The narrowed flattened rows are the flattened rows: narrowing changes no extended real. -/
theorem flat0_E1 (c : Dev nD) :
    flat0 (E1 m) c = shapeCast S32768x512 (m ((c : Thread nD τ).loc main_arg0) : FVec Ideal S32x32x32x512 .f32) shapeCasts_S32x32x32x512_S32768x512 := by
  show (E1 m c main_v2 : FVec Ideal S32768x512 .bf16) = _
  rw [E1_main_v2 m c]
  rfl

/-- The codebook the second region finds is the launch's. -/
theorem book1_E3 (c : Dev nD) : book1 (E3 m) c = (m ((c : Thread nD τ).loc main_arg2) : FVec Ideal S512x4096 .f32) :=
  E3_main_arg2 m c

/-- The first region's first output array: the per-code feature sums. -/
theorem segsum_val (c : Dev nD) :
    ((dat0 (E1 m) c).arrAt 2 cfg0.N : S512x4096.Idx → EReal)
      = Cert.Spec.segsum (shapeCast S32768x512 (m ((c : Thread nD τ).loc main_arg0) : FVec Ideal S32x32x32x512 .f32) shapeCasts_S32x32x32x512_S32768x512)
          (m ((c : Thread nD τ).loc main_arg1) : IVec S32768 32) := by
  have h := arr2_of_blocks (E1 m) c (Cert.Spec.segsum (flat0 (E1 m) c) (lab0 (E1 m) c))
    (fun t ht d j hb => acc0_last_fst (E1 m) c t ht d j)
  rw [h, lab0_E1, flat0_E1]

/-- Its second output array, read back as a vector: the per-code counts. -/
theorem counts_val (c : Dev nD) :
    shapeCast S4096 ((dat0 (E1 m) c).arrAt 3 cfg0.N : S1x4096.Idx → EReal) shapeCasts_S1x4096_S4096
      = Cert.Spec.counts (m ((c : Thread nD τ).loc main_arg1) : IVec S32768 32) := by
  have h := arr3_of_blocks (E1 m) c (fun j : S1x4096.Idx => Cert.Spec.counts (lab0 (E1 m) c) (ix1 (j 1)))
    (fun t ht j hb => acc0_last_snd (E1 m) c t ht j)
  rw [h, lab0_E1]
  funext e
  refine (shapeCast_apply _ _ e (ix2 0 (e 0)) ?_).trans ?_
  · rw [Shape.rowMajor_val_one, Shape.rowMajor_val_two]
    show 0 * 4096 + (e 0).val = (e 0).val
    omega
  · exact congrArg _ (eq_ix1 e).symm

/-- The second region's output array, rearranged batch by height by width: each row's code looked up. -/
theorem pick_val (c : Dev nD) :
    shapeCast S32x32x32x512 ((dat1 (E3 m) c).arrAt 2 cfg1.N : S32768x512.Idx → EReal) shapeCasts_S32768x512_S32x32x32x512
      = Cert.Spec.pick4 (m ((c : Thread nD τ).loc main_arg2) : FVec Ideal S512x4096 .f32) (m ((c : Thread nD τ).loc main_arg1) : IVec S32768 32) := by
  have h := arr_of_blocks1 (E3 m) c (Cert.Spec.pick (book1 (E3 m) c) (lab1 (E3 m) c))
    (fun t ht r d hb => acc1_last (E3 m) c t ht r d)
  rw [h, lab1_E3, book1_E3]
  funext i
  refine shapeCast_apply _ _ i (ix2 (Cert.Spec.rowOf (i 0) (i 1) (i 2)) (i 3)) ?_
  rw [Shape.rowMajor_val_two, Shape.rowMajor_val_four]
  show ((i 0).val * 1024 + (i 1).val * 32 + (i 2).val) * 512 + (i 3).val = (((i 0).val * 32 + (i 1).val) * 32 + (i 2).val) * 512 + (i 3).val
  ring

end Cert.KernelIdeal.Hand

end
-- ==== Proof.RefRun.lean ====
/-
  The reference program's run. @main reads five arrays: the rows `main_arg0` (32·32·32 = 32768 of them, 512 wide), their
  codes `main_arg1` (one i32 per row), the codebook `main_arg2` (512 by 4096) and the running statistics `main_arg3`
  (4096) and `main_arg4` (512 by 4096). With the f32 constants `a = 0x3F7D70A4` (nearest 0.99), `b = 0x3C23D70A`
  (nearest 0.01), `ε = 0x3727C5AC` (nearest 1e-5), `κ = 0x3D27C5AC` (nearest 0.04096) and `0x4B800000 = 2^24`, and
  `j n` the code of row `n` shifted up by 4096 when it is negative, it computes
  · the lookup `main_v3`: the gather of row `j n` of the transposed codebook (`main_v2[e, d] = main_arg2[d, e]`),
    kept where `0 ≤ j n ≤ 4095`, the constant `0x7FC00000` elsewhere;
  · two accumulating scatters into zeros: of ones at the indices `j n` (the counts `main_v12`, 4096), and of the rows
    `main_v0[n, ·] = main_arg0[n, ·]` at the indices `main_arg1[n]` (the sums `main_v15`, 4096 by 512; transposed, `main_v16`);
  · the closing arithmetic `main_v21 = main_arg3·a + b·main_v12`, `main_v26 = main_arg4·a + b·main_v16`,
    `s = Σ main_v21` (`main_v27`), `main_v34 = (main_v21 + ε)/(s + κ)·s`, `main_v37[d, e] = main_v26[d, e] / main_v34[e]`,
    `main_v41 = Σ (main_v3 − main_arg0)² / 2^24`;
  and returns `main_v3`, `main_v41`, `main_v1` (the codes as a 32x32x32 block), `main_v37`, `main_v21`, `main_v26`.

  @main is a straight line of seventy-eight operations once the lookup's definition (and the selection it calls) is
  unfolded at its call: `seq ops`. Every weakly fair execution from a memory with zero counters terminates with each
  buffer `b` at `after ops` of the launch contents (`run_main`); no operation writes an argument (`after_argK`).
-/
import proofs.«408632_j30477087933017_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the call's operations inline. -/
abbrev ops : List (HloOp τ sig (Elt F)) :=
  [ -- the rows flattened, `main_v0[n, ·]` row `n` of `main_arg0`; the codes as a 32x32x32 block; the codebook transposed, `main_v2[e, d] = main_arg2[d, e]`
    reshape main_arg0 main_v0 rfl shapeCasts_S32x32x32x512_S32768x512,
    reshape main_arg1 main_v1 rfl shapeCasts_S32768_S32x32x32,
    unary main_arg2 main_v2 ((transpose S4096x512 [1, 0] · transposes_S512x4096_S4096x512_1_0) : (⟨S512x4096, .f32⟩ : BufTy).Contents (Elt F) → (⟨S4096x512, .f32⟩ : BufTy).Contents (Elt F)),
    -- the lookup's index: the code, shifted up by 4096 where it is negative (`main_call0_v4`), as a trailing column (`main_call0_v5`)
    TRef.nullary main_call0.c (constantI S_ 32 0#32),
    TRef.unary main_call0.c main_call0.v0 (broadcastInDim S32x32x32 ![] bcast_S_S32x32x32),
    TRef.binary (.of main_v1 : TRef sig ⟨S32x32x32, .i32⟩) main_call0.v0 main_call0.v1 (cmpi .slt),
    TRef.nullary main_call0.c_0 (constantI S_ 32 4096#32),
    TRef.unary main_call0.c_0 main_call0.v2 (broadcastInDim S32x32x32 ![] bcast_S_S32x32x32),
    TRef.binary (.of main_v1 : TRef sig ⟨S32x32x32, .i32⟩) main_call0.v2 main_call0.v3 addi,
    TRef.ternary main_call0.v1 main_call0.v3 (.of main_v1 : TRef sig ⟨S32x32x32, .i32⟩) main_call0.call0.v0 select,
    TRef.unary main_call0.call0.v0 main_call0.v5 (broadcastInDim S32x32x32x1 ![0, 1, 2] bcast_S32x32x32_S32x32x32x1_0_1_2),
    -- whether the index lies in `[0, 4095]`, per row (`main_call0_v12`)
    TRef.nullary main_call0.c_1 (constantI S1 32 4095#32),
    TRef.nullary main_call0.c_2 (constantI S_ 32 0#32),
    TRef.unary main_call0.c_2 main_call0.v6 (broadcastInDim S32x32x32x1 ![] bcast_S_S32x32x32x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S32x32x32x1 ![0, 1, 2, 3] bcast_S1x1x1x1_S32x32x32x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S32x32x32x1_S32x32x32_d3 h_S_),
    -- the row of the transposed codebook at each index (`main_call0_v13`), kept where the index is in range, the constant `0x7FC00000` elsewhere: `main_v3`
    TRef.binary (.of main_v2 : TRef sig ⟨S4096x512, .f32⟩) main_call0.v5 main_call0.v13 (fun x i => Host.gather gather_S4096x512_S32x32x32x1_S32x32x32x512_3_0_n_n_0_3_1512 x i),
    TRef.unary main_call0.v12 main_call0.v14 (broadcastInDim S32x32x32x512 ![0, 1, 2] bcast_S32x32x32_S32x32x32x512_0_1_2),
    TRef.nullary main_call0.cst (constant S_ .f32 0x7FC00000#32),
    TRef.unary main_call0.cst main_call0.v15 (broadcastInDim S32x32x32x512 ![] bcast_S_S32x32x32x512),
    TRef.ternary main_call0.v14 main_call0.v13 main_call0.v15 main_call0.v16 select,
    -- ones accumulated at each row's code (shifted up by 4096 where negative, `main_v10`) into a zero vector: `main_v12`
    nullary main_cst (constant S_ .f32 0x00000000#32),
    unary main_cst main_v4 (broadcastInDim S4096 ![] bcast_S_S4096 : (⟨S_, .f32⟩ : BufTy).Contents (Elt F) → (⟨S4096, .f32⟩ : BufTy).Contents (Elt F)),
    nullary main_c (constantI S_ 32 0#32),
    unary main_c main_v5 (broadcastInDim S32768 ![] bcast_S_S32768 : (⟨S_, .i32⟩ : BufTy).Contents (Elt F) → (⟨S32768, .i32⟩ : BufTy).Contents (Elt F)),
    binary main_arg1 main_v5 main_v6 (cmpi .slt : (⟨S32768, .i32⟩ : BufTy).Contents (Elt F) → (⟨S32768, .i32⟩ : BufTy).Contents (Elt F) → (⟨S32768, .i1⟩ : BufTy).Contents (Elt F)),
    nullary main_c_0 (constantI S_ 32 4096#32),
    unary main_c_0 main_v7 (broadcastInDim S32768 ![] bcast_S_S32768 : (⟨S_, .i32⟩ : BufTy).Contents (Elt F) → (⟨S32768, .i32⟩ : BufTy).Contents (Elt F)),
    binary main_arg1 main_v7 main_v8 (addi : (⟨S32768, .i32⟩ : BufTy).Contents (Elt F) → (⟨S32768, .i32⟩ : BufTy).Contents (Elt F) → (⟨S32768, .i32⟩ : BufTy).Contents (Elt F)),
    ternary main_v6 main_v8 main_arg1 main_v9 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v9 main_v10 (broadcastInDim S32768x1 ![0] bcast_S32768_S32768x1_0 : (⟨S32768, .i32⟩ : BufTy).Contents (Elt F) → (⟨S32768x1, .i32⟩ : BufTy).Contents (Elt F)),
    nullary main_cst_1 (constant S_ .f32 0x3F800000#32),
    unary main_cst_1 main_v11 (broadcastInDim S32768 ![] bcast_S_S32768 : (⟨S_, .f32⟩ : BufTy).Contents (Elt F) → (⟨S32768, .f32⟩ : BufTy).Contents (Elt F)),
    ternary main_v4 main_v10 main_v11 main_v12 ((fun x i u => Host.scatterAdd scatter_S4096_S32768x1_S32768_n_0_0_1 x i u) : (⟨S4096, .f32⟩ : BufTy).Contents (Elt F) → (⟨S32768x1, .i32⟩ : BufTy).Contents (Elt F) → (⟨S32768, .f32⟩ : BufTy).Contents (Elt F) → (⟨S4096, .f32⟩ : BufTy).Contents (Elt F)),
    -- each row of `main_v0` accumulated at its code (`main_v14`) into a zero 4096 by 512 array (`main_v15`), then transposed: `main_v16`
    nullary main_cst_2 (constant S_ .f32 0x00000000#32),
    unary main_cst_2 main_v13 (broadcastInDim S4096x512 ![] bcast_S_S4096x512 : (⟨S_, .f32⟩ : BufTy).Contents (Elt F) → (⟨S4096x512, .f32⟩ : BufTy).Contents (Elt F)),
    unary main_arg1 main_v14 (broadcastInDim S32768x1 ![0] bcast_S32768_S32768x1_0 : (⟨S32768, .i32⟩ : BufTy).Contents (Elt F) → (⟨S32768x1, .i32⟩ : BufTy).Contents (Elt F)),
    ternary main_v13 main_v14 main_v0 main_v15 ((fun x i u => Host.scatterAdd scatter_S4096x512_S32768x1_S32768x512_1_0_0_1 x i u) : (⟨S4096x512, .f32⟩ : BufTy).Contents (Elt F) → (⟨S32768x1, .i32⟩ : BufTy).Contents (Elt F) → (⟨S32768x512, .f32⟩ : BufTy).Contents (Elt F) → (⟨S4096x512, .f32⟩ : BufTy).Contents (Elt F)),
    unary main_v15 main_v16 ((transpose S512x4096 [1, 0] · transposes_S4096x512_S512x4096_1_0) : (⟨S4096x512, .f32⟩ : BufTy).Contents (Elt F) → (⟨S512x4096, .f32⟩ : BufTy).Contents (Elt F)),
    -- `main_v21 = main_arg3 · 0x3F7D70A4 + 0x3C23D70A · main_v12`
    nullary main_cst_3 (constant S_ .f32 0x3F7D70A4#32),
    unary main_cst_3 main_v17 (broadcastInDim S4096 ![] bcast_S_S4096 : (⟨S_, .f32⟩ : BufTy).Contents (Elt F) → (⟨S4096, .f32⟩ : BufTy).Contents (Elt F)),
    binary main_arg3 main_v17 main_v18 (mulf : (⟨S4096, .f32⟩ : BufTy).Contents (Elt F) → (⟨S4096, .f32⟩ : BufTy).Contents (Elt F) → (⟨S4096, .f32⟩ : BufTy).Contents (Elt F)),
    nullary main_cst_4 (constant S_ .f32 0x3C23D70A#32),
    unary main_cst_4 main_v19 (broadcastInDim S4096 ![] bcast_S_S4096 : (⟨S_, .f32⟩ : BufTy).Contents (Elt F) → (⟨S4096, .f32⟩ : BufTy).Contents (Elt F)),
    binary main_v19 main_v12 main_v20 (mulf : (⟨S4096, .f32⟩ : BufTy).Contents (Elt F) → (⟨S4096, .f32⟩ : BufTy).Contents (Elt F) → (⟨S4096, .f32⟩ : BufTy).Contents (Elt F)),
    binary main_v18 main_v20 main_v21 (addf : (⟨S4096, .f32⟩ : BufTy).Contents (Elt F) → (⟨S4096, .f32⟩ : BufTy).Contents (Elt F) → (⟨S4096, .f32⟩ : BufTy).Contents (Elt F)),
    -- `main_v26 = main_arg4 · 0x3F7D70A4 + 0x3C23D70A · main_v16`
    nullary main_cst_5 (constant S_ .f32 0x3F7D70A4#32),
    unary main_cst_5 main_v22 (broadcastInDim S512x4096 ![] bcast_S_S512x4096 : (⟨S_, .f32⟩ : BufTy).Contents (Elt F) → (⟨S512x4096, .f32⟩ : BufTy).Contents (Elt F)),
    binary main_arg4 main_v22 main_v23 (mulf : (⟨S512x4096, .f32⟩ : BufTy).Contents (Elt F) → (⟨S512x4096, .f32⟩ : BufTy).Contents (Elt F) → (⟨S512x4096, .f32⟩ : BufTy).Contents (Elt F)),
    nullary main_cst_6 (constant S_ .f32 0x3C23D70A#32),
    unary main_cst_6 main_v24 (broadcastInDim S512x4096 ![] bcast_S_S512x4096 : (⟨S_, .f32⟩ : BufTy).Contents (Elt F) → (⟨S512x4096, .f32⟩ : BufTy).Contents (Elt F)),
    binary main_v24 main_v16 main_v25 (mulf : (⟨S512x4096, .f32⟩ : BufTy).Contents (Elt F) → (⟨S512x4096, .f32⟩ : BufTy).Contents (Elt F) → (⟨S512x4096, .f32⟩ : BufTy).Contents (Elt F)),
    binary main_v23 main_v25 main_v26 (addf : (⟨S512x4096, .f32⟩ : BufTy).Contents (Elt F) → (⟨S512x4096, .f32⟩ : BufTy).Contents (Elt F) → (⟨S512x4096, .f32⟩ : BufTy).Contents (Elt F)),
    -- `main_v27 = Σ main_v21`; `main_v34 = (main_v21 + 0x3727C5AC) / (main_v27 + 0x3D27C5AC) · main_v27`
    nullary main_cst_7 (constant S_ .f32 0x00000000#32),
    binary main_v21 main_cst_7 main_v27 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_8 (constant S_ .f32 0x3727C5AC#32),
    unary main_cst_8 main_v28 (broadcastInDim S4096 ![] bcast_S_S4096 : (⟨S_, .f32⟩ : BufTy).Contents (Elt F) → (⟨S4096, .f32⟩ : BufTy).Contents (Elt F)),
    binary main_v21 main_v28 main_v29 (addf : (⟨S4096, .f32⟩ : BufTy).Contents (Elt F) → (⟨S4096, .f32⟩ : BufTy).Contents (Elt F) → (⟨S4096, .f32⟩ : BufTy).Contents (Elt F)),
    nullary main_cst_9 (constant S_ .f32 0x3D27C5AC#32),
    binary main_v27 main_cst_9 main_v30 (addf : (⟨S_, .f32⟩ : BufTy).Contents (Elt F) → (⟨S_, .f32⟩ : BufTy).Contents (Elt F) → (⟨S_, .f32⟩ : BufTy).Contents (Elt F)),
    unary main_v30 main_v31 (broadcastInDim S4096 ![] bcast_S_S4096 : (⟨S_, .f32⟩ : BufTy).Contents (Elt F) → (⟨S4096, .f32⟩ : BufTy).Contents (Elt F)),
    binary main_v29 main_v31 main_v32 (Host.divf : (⟨S4096, .f32⟩ : BufTy).Contents (Elt F) → (⟨S4096, .f32⟩ : BufTy).Contents (Elt F) → (⟨S4096, .f32⟩ : BufTy).Contents (Elt F)),
    unary main_v27 main_v33 (broadcastInDim S4096 ![] bcast_S_S4096 : (⟨S_, .f32⟩ : BufTy).Contents (Elt F) → (⟨S4096, .f32⟩ : BufTy).Contents (Elt F)),
    binary main_v32 main_v33 main_v34 (mulf : (⟨S4096, .f32⟩ : BufTy).Contents (Elt F) → (⟨S4096, .f32⟩ : BufTy).Contents (Elt F) → (⟨S4096, .f32⟩ : BufTy).Contents (Elt F)),
    -- `main_v37[d, e] = main_v26[d, e] / main_v34[e]`
    unary main_v34 main_v35 (broadcastInDim S1x4096 ![1] bcast_S4096_S1x4096_1 : (⟨S4096, .f32⟩ : BufTy).Contents (Elt F) → (⟨S1x4096, .f32⟩ : BufTy).Contents (Elt F)),
    unary main_v35 main_v36 (broadcastInDim S512x4096 ![0, 1] bcast_S1x4096_S512x4096_0_1 : (⟨S1x4096, .f32⟩ : BufTy).Contents (Elt F) → (⟨S512x4096, .f32⟩ : BufTy).Contents (Elt F)),
    binary main_v26 main_v36 main_v37 (Host.divf : (⟨S512x4096, .f32⟩ : BufTy).Contents (Elt F) → (⟨S512x4096, .f32⟩ : BufTy).Contents (Elt F) → (⟨S512x4096, .f32⟩ : BufTy).Contents (Elt F)),
    -- `main_v41 = Σ (main_v3 − main_arg0)² / 0x4B800000`
    binary main_v3 main_arg0 main_v38 (subf : (⟨S32x32x32x512, .f32⟩ : BufTy).Contents (Elt F) → (⟨S32x32x32x512, .f32⟩ : BufTy).Contents (Elt F) → (⟨S32x32x32x512, .f32⟩ : BufTy).Contents (Elt F)),
    binary main_v38 main_v38 main_v39 (mulf : (⟨S32x32x32x512, .f32⟩ : BufTy).Contents (Elt F) → (⟨S32x32x32x512, .f32⟩ : BufTy).Contents (Elt F) → (⟨S32x32x32x512, .f32⟩ : BufTy).Contents (Elt F)),
    nullary main_cst_10 (constant S_ .f32 0x00000000#32),
    binary main_v39 main_cst_10 main_v40 ((fun x v => Host.reduceAdd x v reducesTo_S32x32x32x512_S_d0_1_2_3 h_S_) : (⟨S32x32x32x512, .f32⟩ : BufTy).Contents (Elt F) → (⟨S_, .f32⟩ : BufTy).Contents (Elt F) → (⟨S_, .f32⟩ : BufTy).Contents (Elt F)),
    nullary main_cst_11 (constant S_ .f32 0x4B800000#32),
    binary main_v40 main_cst_11 main_v41 (Host.divf : (⟨S_, .f32⟩ : BufTy).Contents (Elt F) → (⟨S_, .f32⟩ : BufTy).Contents (Elt F) → (⟨S_, .f32⟩ : BufTy).Contents (Elt F)) ]

/-- @main is that straight line by computation: the lookup's and the selection's definitions unfold at their calls,
    the records at their fields, and sequencing re-associates (a bind of a step is the step continued by the bind). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., unary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., nullary_bufs_sub .., unary_bufs_sub .., unary_bufs_sub ..,
    ternary_bufs_sub .., unary_bufs_sub .., nullary_bufs_sub .., unary_bufs_sub .., binary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., nullary_bufs_sub .., binary_bufs_sub ..,
    nullary_bufs_sub .., unary_bufs_sub .., binary_bufs_sub .., nullary_bufs_sub .., binary_bufs_sub .., unary_bufs_sub ..,
    binary_bufs_sub .., unary_bufs_sub .., binary_bufs_sub .., unary_bufs_sub .., unary_bufs_sub .., binary_bufs_sub ..,
    binary_bufs_sub .., binary_bufs_sub .., nullary_bufs_sub .., binary_bufs_sub .., nullary_bufs_sub .., binary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## No operation writes an argument -/

/-- The references the operations write: every value of @main and of the lookup, none of the five arguments. -/
abbrev opsW : List (Ref sig .tc) :=
  [ main_v0, main_v1, main_v2, main_call0_c, main_call0_v0, main_call0_v1, main_call0_c_0, main_call0_v2,
    main_call0_v3, main_call0_v4, main_call0_v5, main_call0_c_1, main_call0_c_2, main_call0_v6, main_call0_v7, main_call0_v8,
    main_call0_v9, main_call0_v10, main_call0_v11, main_call0_c_3, main_call0_v12, main_call0_v13, main_call0_v14, main_call0_cst,
    main_call0_v15, main_v3, main_cst, main_v4, main_c, main_v5, main_v6, main_c_0,
    main_v7, main_v8, main_v9, main_v10, main_cst_1, main_v11, main_v12, main_cst_2,
    main_v13, main_v14, main_v15, main_v16, main_cst_3, main_v17, main_v18, main_cst_4,
    main_v19, main_v20, main_v21, main_cst_5, main_v22, main_v23, main_cst_6, main_v24,
    main_v25, main_v26, main_cst_7, main_v27, main_cst_8, main_v28, main_v29, main_cst_9,
    main_v30, main_v31, main_v32, main_v33, main_v34, main_v35, main_v36, main_v37,
    main_v38, main_v39, main_cst_10, main_v40, main_cst_11, main_v41 ]

theorem ops_writes : (ops : List (HloOp τ sig (Elt F))).Forall fun op => op.writes ⊆ (opsW.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

/-- A reference the operations do not write holds at the end what it held at the start. -/
theorem after_of_not_mem (V : Valuation τ sig (Elt F)) (r : Ref sig .tc) (h : r ∉ opsW) :
    after ops V (r : DevRef τ sig) = V (r : DevRef τ sig) :=
  after_of_writes_sub ops V ops_writes h

theorem after_arg0 (V : Valuation τ sig (Elt F)) : after ops V (main_arg0 : DevRef τ sig) = V (main_arg0 : DevRef τ sig) :=
  after_of_not_mem V main_arg0 (by decide)
theorem after_arg1 (V : Valuation τ sig (Elt F)) : after ops V (main_arg1 : DevRef τ sig) = V (main_arg1 : DevRef τ sig) :=
  after_of_not_mem V main_arg1 (by decide)
theorem after_arg2 (V : Valuation τ sig (Elt F)) : after ops V (main_arg2 : DevRef τ sig) = V (main_arg2 : DevRef τ sig) :=
  after_of_not_mem V main_arg2 (by decide)
theorem after_arg3 (V : Valuation τ sig (Elt F)) : after ops V (main_arg3 : DevRef τ sig) = V (main_arg3 : DevRef τ sig) :=
  after_of_not_mem V main_arg3 (by decide)
theorem after_arg4 (V : Valuation τ sig (Elt F)) : after ops V (main_arg4 : DevRef τ sig) = V (main_arg4 : DevRef τ sig) :=
  after_of_not_mem V main_arg4 (by decide)

end Cert.ReferenceIdeal.Hand

end
-- ==== Proof.RefSpec.lean ====
/-
  The reference program's three indexed computations, each shown equal to its specification on the extended reals:
  the wrap of negative indices leaves an in-range label alone; a scatter of ones at the labels counts the rows per
  code; a scatter of the rows at the labels, transposed, sums the rows per code feature-major; and the guarded
  gather of the transposed codebook at the labels looks each row's code up.
-/
import proofs.«408632_j30477087933017_3_alg».proof.ReferenceIdeal
import proofs.«408632_j30477087933017_3_alg».proof.Proof.Spec
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Pipeline.Value
import Idealize.ShloMosaic.Lib.ValueLayout
import Idealize.ShloMosaic.Lib.StableHlo.Predicate

noncomputable section

namespace Cert.ReferenceIdeal.Hand

open Idealize.ShloMosaic Idealize.ShloMosaic.ValueIdx Cert.ReferenceIdeal Cert.ReferenceIdeal.Facts₀ Cert.ReferenceIdeal.Facts

variable [Cert.ReferenceIdeal.Facts]

/-- A word below 4096 as a natural number is not below zero as a signed word. -/
theorem slt_zero_of_lt (l : BitVec 32) (h : l.toNat < 4096) : IntOp.cmpi .slt l 0#32 = 0#1 := by
  have : l.slt 0#32 = false := by
    rw [BitVec.slt_eq_decide]
    have : l.toInt = (l.toNat : Int) := by
      rw [BitVec.toInt_eq_toNat_cond]; rw [if_pos (by omega)]
    simp [this]
  show BitVec.ofBool (l.slt 0#32) = 0#1
  rw [this]; rfl

/-- A label in range is not negative as a signed word, so jnp's wrap of negative indices leaves it alone. -/
theorem wrap_eq (lab : IVec S32768 32) (hr : ∀ n, (lab n).toNat < 4096) :
    select (cmpi .slt lab (broadcastInDim S32768 ![] bcast_S_S32768 (constantI S_ 32 0#32)))
      (addi lab (broadcastInDim S32768 ![] bcast_S_S32768 (constantI S_ 32 4096#32))) lab = lab := by
  funext i
  rw [select_apply]
  show Scalar.select (IntOp.cmpi .slt (lab i) 0#32) _ _ = _
  rw [slt_zero_of_lt _ (hr i), select_zero]

/-! ## The counting scatter's result index -/

/-- The scatter indices' position that update row `n` reads: row `n` of the one-column index array. -/
theorem siIdx_count (n : Fin 32768) (c : Fin scatter_S4096_S32768x1_S32768_n_0_0_1.scatterDimsToOperandDims.length) :
    scatter_S4096_S32768x1_S32768_n_0_0_1.siIdx (ix1 n) c = ix2 n (0 : Fin 1) := by
  funext b; refine Fin.ext ?_
  match b with
  | ⟨0, _⟩ => rfl
  | ⟨1, _⟩ =>
    have hc : c.val = 0 := by have := c.isLt; change c.val < 1 at this; omega
    exact hc

/-- Update row `n` of the counting scatter lands at the code its index word names, when that is a code. -/
theorem resultIdx_count (idx : IVec S32768x1 32) (n : Fin 32768) (h : (idx (ix2 n (0 : Fin 1))).toNat < 4096) :
    scatter_S4096_S32768x1_S32768_n_0_0_1.resultIdx? (ix1 n) idx = some (ix1 ⟨(idx (ix2 n (0 : Fin 1))).toNat, h⟩) := by
  have hmem : (0 : Fin 1) ∈ scatter_S4096_S32768x1_S32768_n_0_0_1.scatterDimsToOperandDims := List.mem_singleton.mpr rfl
  have hti : (idx (ix2 n (0 : Fin 1))).toInt = ((idx (ix2 n (0 : Fin 1))).toNat : Int) :=
    StableHlo.Predicate.toInt_eq_toNat_of_lt (by omega)
  have hs : scatter_S4096_S32768x1_S32768_n_0_0_1.start (ix1 n) idx 0 = ((idx (ix2 n (0 : Fin 1))).toNat : Int) := by
    unfold ScatterDims.start
    rw [dif_pos hmem, siIdx_count, hti]
  have hw : scatter_S4096_S32768x1_S32768_n_0_0_1.window (ix1 n) 0 = 0 := by
    unfold ScatterDims.window
    rw [dif_neg]
    show (0 : Fin 1) ∉ (List.finRange 1).filter (· ∉ [0])
    decide
  unfold ScatterDims.resultIdx?
  rw [dif_pos (by
    intro a
    obtain rfl : a = 0 := Subsingleton.elim _ _
    rw [hs, hw]
    show _ ∧ _ < ((4096 : Nat) : Int)
    omega)]
  refine congrArg some (funext fun a => Fin.ext ?_)
  obtain rfl : a = 0 := Subsingleton.elim _ _
  show (scatter_S4096_S32768x1_S32768_n_0_0_1.start (ix1 n) idx 0 + _).toNat = _
  rw [hs, hw]; simp

/-! ## Small reads -/

/-- The binary32 word of one. -/
theorem ofBits_one_f32 : Ideal.ofBits .f32 0x3F800000#32 = 1 := by
  simp [Ideal.ofBits, Ideal.ieee, -EReal.coe_mul]; norm_num

/-- The labels as a one-column index array read, at row `n`, label `n`. -/
theorem bcast_col_apply (lab : IVec S32768 32) (n : Fin 32768) :
    broadcastInDim S32768x1 ![0] bcast_S32768_S32768x1_0 lab (ix2 n (0 : Fin 1)) = lab (ix1 n) :=
  broadcastInDim_apply _ _ lab _ _ (fun a => by
    obtain rfl : a = 0 := Subsingleton.elim _ _
    show n.val = if (32768 : Nat) = 1 then 0 else n.val
    rw [if_neg (by decide)])

/-- Two rank-one indices agree when their coordinates do. -/
theorem some_ix1_eq_iff {m : Nat} (k : Fin m) (e : (⟨1, ![m]⟩ : Shape).Idx) : some (ix1 k) = some e ↔ k.val = (e 0).val := by
  constructor
  · intro h; rw [← Option.some.inj h]; rfl
  · intro h; rw [eq_ix1 e]; exact congrArg some (congrArg ix1 (Fin.ext h))

/-- Scattering a 1 per row into zeros at the row's label counts the rows per code. -/
theorem counts_eq (lab : IVec S32768 32) (hr : ∀ n, (lab n).toNat < 4096) :
    Host.scatterAdd (F := Ideal) scatter_S4096_S32768x1_S32768_n_0_0_1
      (broadcastInDim S4096 ![] bcast_S_S4096 (constant (F := Ideal) S_ .f32 0x00000000#32))
      (broadcastInDim S32768x1 ![0] bcast_S32768_S32768x1_0 lab)
      (broadcastInDim S32768 ![] bcast_S_S32768 (constant (F := Ideal) S_ .f32 0x3F800000#32)) = Cert.Spec.counts lab := by
  funext e
  show Ideal.hostScatterAdd scatter_S4096_S32768x1_S32768_n_0_0_1 _ _ _ e = _
  unfold Ideal.hostScatterAdd Cert.Spec.counts
  have hx : broadcastInDim S4096 ![] bcast_S_S4096 (constant (F := Ideal) S_ .f32 0x00000000#32) e = 0 := Ideal.ofBits_zero_f32
  rw [hx, zero_add, Finset.sum_filter, ← Equiv.sum_comp idxEquiv1.symm]
  refine Finset.sum_congr rfl fun n _ => ?_
  have hn : (broadcastInDim S32768x1 ![0] bcast_S32768_S32768x1_0 lab (ix2 n (0 : Fin 1))).toNat < 4096 := by
    rw [bcast_col_apply]; exact hr _
  show ite (scatter_S4096_S32768x1_S32768_n_0_0_1.resultIdx? (ix1 n) _ = some e) (Ideal.ofBits .f32 0x3F800000#32) 0 = _
  rw [resultIdx_count _ n hn, ofBits_one_f32]
  unfold Cert.Spec.hot
  refine if_congr ?_ rfl rfl
  rw [some_ix1_eq_iff]
  show (broadcastInDim S32768x1 ![0] bcast_S32768_S32768x1_0 lab (ix2 n (0 : Fin 1))).toNat = _ ↔ _
  rw [bcast_col_apply]

/-! ## The row scatter's result index -/

/-- The scatter indices' position that update element `(n, k)` reads: row `n` of the one-column index array. -/
theorem siIdx_seg (n : Fin 32768) (k : Fin 512)
    (c : Fin scatter_S4096x512_S32768x1_S32768x512_1_0_0_1.scatterDimsToOperandDims.length) :
    scatter_S4096x512_S32768x1_S32768x512_1_0_0_1.siIdx (ix2 n k) c = ix2 n (0 : Fin 1) := by
  funext b; refine Fin.ext ?_
  match b with
  | ⟨0, _⟩ => rfl
  | ⟨1, _⟩ =>
    have hc : c.val = 0 := by have := c.isLt; change c.val < 1 at this; omega
    exact hc

/-- Update element `(n, k)` of the row scatter lands at feature `k` of the code its index word names, when that is a code. -/
theorem resultIdx_seg (idx : IVec S32768x1 32) (n : Fin 32768) (k : Fin 512) (h : (idx (ix2 n (0 : Fin 1))).toNat < 4096) :
    scatter_S4096x512_S32768x1_S32768x512_1_0_0_1.resultIdx? (ix2 n k) idx
      = some (ix2 ⟨(idx (ix2 n (0 : Fin 1))).toNat, h⟩ k) := by
  have hmem : (0 : Fin 2) ∈ scatter_S4096x512_S32768x1_S32768x512_1_0_0_1.scatterDimsToOperandDims := List.mem_singleton.mpr rfl
  have hti : (idx (ix2 n (0 : Fin 1))).toInt = ((idx (ix2 n (0 : Fin 1))).toNat : Int) :=
    StableHlo.Predicate.toInt_eq_toNat_of_lt (by omega)
  have hs0 : scatter_S4096x512_S32768x1_S32768x512_1_0_0_1.start (ix2 n k) idx 0 = ((idx (ix2 n (0 : Fin 1))).toNat : Int) := by
    unfold ScatterDims.start
    rw [dif_pos hmem, siIdx_seg, hti]
  have hs1 : scatter_S4096x512_S32768x1_S32768x512_1_0_0_1.start (ix2 n k) idx 1 = 0 := by
    unfold ScatterDims.start
    rw [dif_neg]
    show (1 : Fin 2) ∉ [(0 : Fin 2)]
    decide
  have hw0 : scatter_S4096x512_S32768x1_S32768x512_1_0_0_1.window (ix2 n k) 0 = 0 := by
    unfold ScatterDims.window
    rw [dif_neg]
    show (0 : Fin 2) ∉ (List.finRange 2).filter (· ∉ [(0 : Fin 2)])
    decide
  have hw1 : scatter_S4096x512_S32768x1_S32768x512_1_0_0_1.window (ix2 n k) 1 = k.val := by
    unfold ScatterDims.window
    have hm : (1 : Fin 2) ∈ scatter_S4096x512_S32768x1_S32768x512_1_0_0_1.sKept := by
      show (1 : Fin 2) ∈ (List.finRange 2).filter (· ∉ [(0 : Fin 2)])
      decide
    rw [dif_pos hm]
    rfl
  unfold ScatterDims.resultIdx?
  rw [dif_pos (Fin.forall_fin_two.2 ⟨by
      rw [hs0, hw0]
      show _ ∧ _ < ((4096 : Nat) : Int)
      omega, by
      rw [hs1, hw1]
      show _ ∧ _ < ((512 : Nat) : Int)
      have := k.isLt
      omega⟩)]
  refine congrArg some (funext (Fin.forall_fin_two.2 ⟨Fin.ext ?_, Fin.ext ?_⟩))
  · show (scatter_S4096x512_S32768x1_S32768x512_1_0_0_1.start (ix2 n k) idx 0
      + (scatter_S4096x512_S32768x1_S32768x512_1_0_0_1.window (ix2 n k) 0 : Int)).toNat = (idx (ix2 n (0 : Fin 1))).toNat
    rw [hs0, hw0]; simp
  · show (scatter_S4096x512_S32768x1_S32768x512_1_0_0_1.start (ix2 n k) idx 1
      + (scatter_S4096x512_S32768x1_S32768x512_1_0_0_1.window (ix2 n k) 1 : Int)).toNat = k.val
    rw [hs1, hw1]; simp

/-- Two rank-two indices agree when both coordinates do. -/
theorem some_ix2_eq_iff {m p : Nat} (a a' : Fin m) (k k' : Fin p) :
    (some (ix2 a k) : Option (⟨2, ![m, p]⟩ : Shape).Idx) = some (ix2 a' k') ↔ a = a' ∧ k = k' := by
  constructor
  · intro h
    have := Option.some.inj h
    exact ⟨congrFun this 0, congrFun this 1⟩
  · rintro ⟨rfl, rfl⟩; rfl

/-- Scattering each row into zeros at its label's row, then transposing, sums the rows per code, feature-major. -/
theorem segsum_eq (flat : FVec Ideal S32768x512 .f32) (lab : IVec S32768 32) (hr : ∀ n, (lab n).toNat < 4096) :
    transpose S512x4096 [1, 0] (Host.scatterAdd (F := Ideal) scatter_S4096x512_S32768x1_S32768x512_1_0_0_1
      (broadcastInDim S4096x512 ![] bcast_S_S4096x512 (constant (F := Ideal) S_ .f32 0x00000000#32))
      (broadcastInDim S32768x1 ![0] bcast_S32768_S32768x1_0 lab) flat) transposes_S4096x512_S512x4096_1_0 = Cert.Spec.segsum flat lab := by
  funext i
  obtain ⟨d, e, rfl⟩ : ∃ (d : Fin 512) (e : Fin 4096), i = ix2 d e := ⟨i 0, i 1, eq_ix2 i⟩
  rw [transpose_ix2_apply]
  show Ideal.hostScatterAdd scatter_S4096x512_S32768x1_S32768x512_1_0_0_1 _ _ _ (ix2 e d) = _
  unfold Ideal.hostScatterAdd Cert.Spec.segsum
  have hx : broadcastInDim S4096x512 ![] bcast_S_S4096x512 (constant (F := Ideal) S_ .f32 0x00000000#32) (ix2 e d) = 0 :=
    Ideal.ofBits_zero_f32
  rw [hx, zero_add, Finset.sum_filter, sum_idx2]
  refine Finset.sum_congr rfl fun n _ => ?_
  have hn : (broadcastInDim S32768x1 ![0] bcast_S32768_S32768x1_0 lab (ix2 n (0 : Fin 1))).toNat < 4096 := by
    rw [bcast_col_apply]; exact hr _
  show ∑ k : Fin 512, ite (scatter_S4096x512_S32768x1_S32768x512_1_0_0_1.resultIdx? (ix2 n k) _ = some (ix2 e d)) (flat (ix2 n k)) 0
    = flat (ix2 n d) * Cert.Spec.hot (lab (ix1 n)) e.val
  have hlab : (broadcastInDim S32768x1 ![0] bcast_S32768_S32768x1_0 lab (ix2 n (0 : Fin 1))).toNat = (lab (ix1 n)).toNat := by
    rw [bcast_col_apply]
  rw [Finset.sum_eq_single d]
  · rw [resultIdx_seg _ n d hn]
    unfold Cert.Spec.hot
    by_cases hle : (lab (ix1 n)).toNat = e.val
    · rw [if_pos hle, mul_one, if_pos]
      rw [some_ix2_eq_iff]
      exact ⟨Fin.ext (hlab.trans hle), rfl⟩
    · rw [if_neg hle, mul_zero, if_neg]
      rw [some_ix2_eq_iff]
      exact fun h => hle (hlab.symm.trans (congrArg Fin.val h.1))
  · intro k _ hk
    rw [resultIdx_seg _ n k hn, if_neg]
    rw [some_ix2_eq_iff]
    exact fun h => hk h.2
  · intro h; exact absurd (Finset.mem_univ d) h

/-! ## The guarded row lookup -/

/-- The wrap of negative indices leaves any array of in-range labels alone, whatever its shape. -/
theorem wrap_any {s : Shape} (h : S_.BroadcastsInDim s (![] : Fin 0 → Fin s.rank)) (x : IVec s 32) (hx : ∀ i, (x i).toNat < 4096) :
    select (cmpi .slt x (broadcastInDim s ![] h (constantI S_ 32 0#32)))
      (addi x (broadcastInDim s ![] h (constantI S_ 32 4096#32))) x = x := by
  funext i
  rw [select_apply]
  show Scalar.select (IntOp.cmpi .slt (x i) 0#32) _ _ = _
  rw [slt_zero_of_lt _ (hx i), select_zero]

/-- The row index per position: a negative label shifted up by 4096, laid along a trailing unit axis. -/
def takeIdx (L : IVec S32x32x32 32) : IVec S32x32x32x1 32 :=
  broadcastInDim S32x32x32x1 ![0, 1, 2] bcast_S32x32x32_S32x32x32x1_0_1_2
    (select (cmpi .slt L (broadcastInDim S32x32x32 ![] bcast_S_S32x32x32 (constantI S_ 32 0#32)))
      (addi L (broadcastInDim S32x32x32 ![] bcast_S_S32x32x32 (constantI S_ 32 4096#32))) L)

/-- Whether each position's row index lies in `[0, 4095]`. -/
def takeMask (L : IVec S32x32x32 32) : IVec S32x32x32 1 :=
  Host.reduce IntOp.andi
    (andi (cmpi .sge (takeIdx L) (broadcastInDim S32x32x32x1 ![] bcast_S_S32x32x32x1 (constantI S_ 32 0#32)))
      (cmpi .sle (takeIdx L) (broadcastInDim S32x32x32x1 ![0, 1, 2, 3] bcast_S1x1x1x1_S32x32x32x1_0_1_2_3
        (broadcastInDim S1x1x1x1 ![3] bcast_S1_S1x1x1x1_3 (constantI S1 32 4095#32)))))
    (constantI S_ 1 1#1) reducesTo_S32x32x32x1_S32x32x32_d3 h_S_

/-- The guarded row lookup as the reference program composes it: the rows of the table at the row indices, a row
    whose index lies outside `[0, 4095]` replaced by the default word. -/
def takeT {F : FTy → Type} [FloatOps F] (T : FVec F S4096x512 .f32) (L : IVec S32x32x32 32) : FVec F S32x32x32x512 .f32 :=
  select (broadcastInDim S32x32x32x512 ![0, 1, 2] bcast_S32x32x32_S32x32x32x512_0_1_2 (takeMask L))
    (Host.gather gather_S4096x512_S32x32x32x1_S32x32x32x512_3_0_n_n_0_3_1512 T (takeIdx L))
    (broadcastInDim S32x32x32x512 ![] bcast_S_S32x32x32x512 (constant (F := F) S_ .f32 0x7FC00000#32))

/-- On in-range labels the row index at `(b, h, w, 0)` is the label at `(b, h, w)`. -/
theorem takeIdx_apply (L : IVec S32x32x32 32) (hL : ∀ i, (L i).toNat < 4096) (b h w : Fin 32) (u : Fin 1) :
    takeIdx L (ix4 b h w u) = L (ix3 b h w) := by
  unfold takeIdx
  rw [wrap_any _ L hL]
  refine broadcastInDim_apply _ _ L _ _ (fun a => ?_)
  match a with
  | ⟨0, _⟩ => show b.val = if (32 : Nat) = 1 then 0 else b.val; rw [if_neg (by decide)]
  | ⟨1, _⟩ => show h.val = if (32 : Nat) = 1 then 0 else h.val; rw [if_neg (by decide)]
  | ⟨2, _⟩ => show w.val = if (32 : Nat) = 1 then 0 else w.val; rw [if_neg (by decide)]

/-- On in-range labels every row index is in range. -/
theorem takeIdx_lt (L : IVec S32x32x32 32) (hL : ∀ i, (L i).toNat < 4096) (j : S32x32x32x1.Idx) : (takeIdx L j).toNat < 4096 := by
  obtain ⟨b, h, w, u, rfl⟩ : ∃ (b h w : Fin 32) (u : Fin 1), j = ix4 b h w u := ⟨j 0, j 1, j 2, j 3, eq_ix4 j⟩
  rw [takeIdx_apply L hL]; exact hL _

/-- A left fold by `and` from 1 over ones is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- On in-range labels the in-bounds mask is all ones. -/
theorem takeMask_apply (L : IVec S32x32x32 32) (hL : ∀ i, (L i).toNat < 4096) (j : S32x32x32.Idx) : takeMask L j = 1#1 := by
  unfold takeMask
  rw [Host.reduce_eq_foldl]
  refine foldl_andi_ones _ (fun i => ?_) _
  show IntOp.andi (IntOp.cmpi .sge (takeIdx L i) 0#32) (IntOp.cmpi .sle (takeIdx L i) 4095#32) = 1#1
  have hlt := takeIdx_lt L hL i
  rw [(StableHlo.Predicate.sge_iff_toNat (by omega) (by decide)).2 (Nat.zero_le _),
    (StableHlo.Predicate.sle_iff_toNat (by omega) (by decide)).2 (by show _ ≤ 4095; omega)]
  rfl

/-- The labels in their three-axis arrangement read, at `(b, h, w)`, the label of row `b·1024 + h·32 + w`. -/
theorem lab3_apply (lab : IVec S32768 32) (b h w : Fin 32) :
    shapeCast S32x32x32 lab shapeCasts_S32768_S32x32x32 (ix3 b h w) = lab (ix1 (Cert.Spec.rowOf b h w)) :=
  shapeCast_apply lab _ _ _ (by
    rw [Shape.rowMajor_val_one, Shape.rowMajor_val_three]
    show b.val * 1024 + h.val * 32 + w.val = (b.val * 32 + h.val) * 32 + w.val
    omega)

/-- The start-indices position that result position `(b, h, w, k)` of the gather reads: `(b, h, w, 0)`. -/
theorem siIdx_take (b h w : Fin 32) (k : Fin 512)
    (c : Fin gather_S4096x512_S32x32x32x1_S32x32x32x512_3_0_n_n_0_3_1512.startIndexMap.length) :
    gather_S4096x512_S32x32x32x1_S32x32x32x512_3_0_n_n_0_3_1512.siIdx (ix4 b h w k) c = ix4 b h w (0 : Fin 1) := by
  funext a; refine Fin.ext ?_
  match a with
  | ⟨0, _⟩ => rfl
  | ⟨1, _⟩ => rfl
  | ⟨2, _⟩ => rfl
  | ⟨3, _⟩ =>
    have hc : c.val = 0 := by have := c.isLt; change c.val < 1 at this; omega
    exact hc

/-- The gather read at `(b, h, w, k)`: feature `k` of the table's row at the start index `idx[b, h, w, 0]`, when that
    index names a row (the clamp into the table then does nothing). -/
theorem gather_take4 {α : Type} (T : S4096x512.Idx → α) (idx : IVec S32x32x32x1 32) (b h w : Fin 32) (k : Fin 512)
    (hlt : (idx (ix4 b h w (0 : Fin 1))).toNat < 4096) :
    Host.gather gather_S4096x512_S32x32x32x1_S32x32x32x512_3_0_n_n_0_3_1512 T idx (ix4 b h w k)
      = T (ix2 ⟨(idx (ix4 b h w (0 : Fin 1))).toNat, hlt⟩ k) := by
  have hti : (idx (ix4 b h w (0 : Fin 1))).toInt = ((idx (ix4 b h w (0 : Fin 1))).toNat : Int) :=
    StableHlo.Predicate.toInt_eq_toNat_of_lt (by omega)
  have hmem : (0 : Fin 2) ∈ gather_S4096x512_S32x32x32x1_S32x32x32x512_3_0_n_n_0_3_1512.startIndexMap := List.mem_singleton.mpr rfl
  have hk0 : (0 : Fin 2) ∉ gather_S4096x512_S32x32x32x1_S32x32x32x512_3_0_n_n_0_3_1512.sKept := by
    show (0 : Fin 2) ∉ (List.finRange 2).filter (· ∉ ([0] ++ [] : List (Fin 2)))
    decide
  have hk1 : (1 : Fin 2) ∈ gather_S4096x512_S32x32x32x1_S32x32x32x512_3_0_n_n_0_3_1512.sKept := by
    show (1 : Fin 2) ∈ (List.finRange 2).filter (· ∉ ([0] ++ [] : List (Fin 2)))
    decide
  unfold Host.gather
  refine congrArg T (funext (Fin.forall_fin_two.2 ⟨Fin.ext ?_, Fin.ext ?_⟩))
  · show gather_S4096x512_S32x32x32x1_S32x32x32x512_3_0_n_n_0_3_1512.start (ix4 b h w k) idx 0
        + gather_S4096x512_S32x32x32x1_S32x32x32x512_3_0_n_n_0_3_1512.batchCoord (ix4 b h w k) 0
        + gather_S4096x512_S32x32x32x1_S32x32x32x512_3_0_n_n_0_3_1512.offCoord (ix4 b h w k) 0 = (idx (ix4 b h w (0 : Fin 1))).toNat
    rw [GatherDims.batchCoord_eq_zero _ _ _ List.not_mem_nil, GatherDims.offCoord_eq_zero _ _ _ hk0]
    unfold GatherDims.start
    rw [dif_pos hmem, siIdx_take, hti]
    show min (((idx (ix4 b h w (0 : Fin 1))).toNat : Int)).toNat (4096 - 1) + 0 + 0 = _
    rw [Int.toNat_natCast]
    omega
  · show gather_S4096x512_S32x32x32x1_S32x32x32x512_3_0_n_n_0_3_1512.start (ix4 b h w k) idx 1
        + gather_S4096x512_S32x32x32x1_S32x32x32x512_3_0_n_n_0_3_1512.batchCoord (ix4 b h w k) 1
        + gather_S4096x512_S32x32x32x1_S32x32x32x512_3_0_n_n_0_3_1512.offCoord (ix4 b h w k) 1 = k.val
    rw [GatherDims.batchCoord_eq_zero _ _ _ List.not_mem_nil]
    unfold GatherDims.start GatherDims.offCoord
    have hn1 : (1 : Fin 2) ∉ gather_S4096x512_S32x32x32x1_S32x32x32x512_3_0_n_n_0_3_1512.startIndexMap := by
      show (1 : Fin 2) ∉ [(0 : Fin 2)]
      decide
    rw [dif_neg hn1, dif_pos hk1]
    show 0 + 0 + k.val = k.val
    omega

/-- On in-range labels the guarded lookup of the transposed codebook is each row's code looked up in the
    feature-major codebook, in the three-axis arrangement of the rows. -/
theorem take_eq (embed : FVec Ideal S512x4096 .f32) (lab : IVec S32768 32) (hr : ∀ n, (lab n).toNat < 4096) :
    takeT (transpose S4096x512 [1, 0] embed transposes_S512x4096_S4096x512_1_0)
      (shapeCast S32x32x32 lab shapeCasts_S32768_S32x32x32) = Cert.Spec.pick4 embed lab := by
  have hL : ∀ i, (shapeCast S32x32x32 lab shapeCasts_S32768_S32x32x32 i).toNat < 4096 := fun i => hr _
  funext i
  obtain ⟨b, h, w, k, rfl⟩ : ∃ (b h w : Fin 32) (k : Fin 512), i = ix4 b h w k := ⟨i 0, i 1, i 2, i 3, eq_ix4 i⟩
  unfold takeT
  rw [select_apply]
  have hm : broadcastInDim S32x32x32x512 ![0, 1, 2] bcast_S32x32x32_S32x32x32x512_0_1_2
      (takeMask (shapeCast S32x32x32 lab shapeCasts_S32768_S32x32x32)) (ix4 b h w k) = 1#1 := takeMask_apply _ hL _
  rw [hm, select_one, gather_take4 _ _ b h w k (takeIdx_lt _ hL _), transpose_ix2_apply]
  unfold Cert.Spec.pick4 Cert.Spec.pick
  show _ = if h' : (lab (ix1 (Cert.Spec.rowOf b h w))).toNat < 4096 then embed (ix2 k ⟨_, h'⟩) else 0
  rw [dif_pos (hr _)]
  refine congrArg embed (congrArg (ix2 k) (Fin.ext ?_))
  show (takeIdx (shapeCast S32x32x32 lab shapeCasts_S32768_S32x32x32) (ix4 b h w (0 : Fin 1))).toNat
    = (lab (ix1 (Cert.Spec.rowOf b h w))).toNat
  rw [takeIdx_apply _ hL, lab3_apply]

end Cert.ReferenceIdeal.Hand

end
-- ==== Proof.RefValue.lean ====
/-
  The reference program's six results, read off the operations' fold and brought to the specification: the looked-up
  rows, the mean squared distance, the labels in their three-axis arrangement, and the three updated statistics, each
  as the closing arithmetic applied to the counts, the per-code feature sums and the lookup of the specification.
  Everywhere the label words are assumed below 4096 as natural numbers.
-/
import proofs.«408632_j30477087933017_3_alg».proof.Proof.RefRun
import proofs.«408632_j30477087933017_3_alg».proof.Proof.RefSpec
import proofs.«408632_j30477087933017_3_alg».proof.Proof.Spec
import proofs.«408632_j30477087933017_3_alg».proof.Proof.Tail

noncomputable section

namespace Cert.ReferenceIdeal.Hand

open Cert.ReferenceIdeal Cert.ReferenceIdeal.Facts₀ Cert.ReferenceIdeal.Facts Idealize.ShloMosaic Idealize.ShloMosaic.TcCoe
  Idealize.SL.Sem Idealize.ShloMosaic.StableHlo

variable [Cert.KernelIdeal.Facts] [Cert.ReferenceIdeal.Facts]

/-! ## The fold at each result, as the operations compose it -/

section Raw

attribute [local irreducible] Host.reduce Host.gather Host.scatterAdd Host.reduceAdd

set_option maxRecDepth 8192 in
set_option maxHeartbeats 1000000 in
/-- The looked-up rows are the guarded lookup of the transposed codebook at the rearranged labels. -/
theorem raw_v3 (V : Valuation τ sig (Elt Ideal)) :
    after ops V (main_v3 : DevRef τ sig)
      = takeT (F := Ideal) (transpose S4096x512 [1, 0] (V (main_arg2 : DevRef τ sig)) transposes_S512x4096_S4096x512_1_0)
          (shapeCast S32x32x32 (V (main_arg1 : DevRef τ sig)) shapeCasts_S32768_S32x32x32) := by
  after_results_simp
  rfl

set_option maxRecDepth 8192 in
set_option maxHeartbeats 1000000 in
/-- The rearranged labels. -/
theorem raw_v1 (V : Valuation τ sig (Elt Ideal)) :
    after ops V (main_v1 : DevRef τ sig) = shapeCast S32x32x32 (V (main_arg1 : DevRef τ sig)) shapeCasts_S32768_S32x32x32 := by
  after_results_simp
  rfl

/-- The counting scatter as the program composes it: ones scattered into zeros at the wrapped labels. -/
def countsT (lab : IVec S32768 32) : FVec Ideal S4096 .f32 :=
  Host.scatterAdd (F := Ideal) scatter_S4096_S32768x1_S32768_n_0_0_1
    (broadcastInDim S4096 ![] bcast_S_S4096 (constant (F := Ideal) S_ .f32 0x00000000#32))
    (broadcastInDim S32768x1 ![0] bcast_S32768_S32768x1_0
      (select (cmpi .slt lab (broadcastInDim S32768 ![] bcast_S_S32768 (constantI S_ 32 0#32)))
        (addi lab (broadcastInDim S32768 ![] bcast_S_S32768 (constantI S_ 32 4096#32))) lab))
    (broadcastInDim S32768 ![] bcast_S_S32768 (constant (F := Ideal) S_ .f32 0x3F800000#32))

/-- The row scatter as the program composes it: the flattened rows scattered into zeros at the labels, transposed. -/
def segsumT (x : FVec Ideal S32x32x32x512 .f32) (lab : IVec S32768 32) : FVec Ideal S512x4096 .f32 :=
  transpose S512x4096 [1, 0] (Host.scatterAdd (F := Ideal) scatter_S4096x512_S32768x1_S32768x512_1_0_0_1
    (broadcastInDim S4096x512 ![] bcast_S_S4096x512 (constant (F := Ideal) S_ .f32 0x00000000#32))
    (broadcastInDim S32768x1 ![0] bcast_S32768_S32768x1_0 lab)
    (shapeCast S32768x512 x shapeCasts_S32x32x32x512_S32768x512)) transposes_S4096x512_S512x4096_1_0

set_option maxRecDepth 8192 in
set_option maxHeartbeats 1000000 in
/-- The new cluster sizes are the moving average of the old ones and the scattered counts. -/
theorem raw_v21 (V : Valuation τ sig (Elt Ideal)) :
    after ops V (main_v21 : DevRef τ sig)
      = Cert.KernelIdeal.Tail.newCluster (V (main_arg3 : DevRef τ sig)) (countsT (V (main_arg1 : DevRef τ sig))) := by
  after_results_simp
  rfl

set_option maxRecDepth 8192 in
set_option maxHeartbeats 1000000 in
/-- The new feature averages are the moving average of the old ones and the scattered, transposed row sums. -/
theorem raw_v26 (V : Valuation τ sig (Elt Ideal)) :
    after ops V (main_v26 : DevRef τ sig)
      = Cert.KernelIdeal.Tail.newAvg (V (main_arg4 : DevRef τ sig))
          (segsumT (V (main_arg0 : DevRef τ sig)) (V (main_arg1 : DevRef τ sig))) := by
  after_results_simp
  rfl

set_option maxRecDepth 8192 in
set_option maxHeartbeats 1000000 in
/-- The new codebook is the new averages divided, column by column, by the smoothed new cluster sizes. -/
theorem raw_v37 (V : Valuation τ sig (Elt Ideal)) :
    after ops V (main_v37 : DevRef τ sig)
      = Cert.KernelIdeal.Tail.newEmbed
          (Cert.KernelIdeal.Tail.newAvg (V (main_arg4 : DevRef τ sig))
            (segsumT (V (main_arg0 : DevRef τ sig)) (V (main_arg1 : DevRef τ sig))))
          (Cert.KernelIdeal.Tail.newCluster (V (main_arg3 : DevRef τ sig)) (countsT (V (main_arg1 : DevRef τ sig)))) := by
  after_results_simp
  rfl

set_option maxRecDepth 8192 in
set_option maxHeartbeats 1000000 in
/-- The distance is the mean square of the looked-up rows less the input rows. -/
theorem raw_v41 (V : Valuation τ sig (Elt Ideal)) :
    after ops V (main_v41 : DevRef τ sig)
      = Cert.KernelIdeal.Tail.meanSq
          (takeT (F := Ideal) (transpose S4096x512 [1, 0] (V (main_arg2 : DevRef τ sig)) transposes_S512x4096_S4096x512_1_0)
            (shapeCast S32x32x32 (V (main_arg1 : DevRef τ sig)) shapeCasts_S32768_S32x32x32))
          (V (main_arg0 : DevRef τ sig)) := by
  after_results_simp
  rfl

end Raw

/-! ## The six results against the specification -/

section Results

variable (V : Valuation τ sig (Elt Ideal))
  (hr : ∀ n, ((V (main_arg1 : DevRef τ sig) : IVec S32768 32) n).toNat < 4096)

include hr

/-- On in-range labels the scattered counts are the specification's counts. -/
theorem countsT_eq : countsT (V (main_arg1 : DevRef τ sig)) = Cert.Spec.counts (V (main_arg1 : DevRef τ sig) : IVec S32768 32) := by
  unfold countsT
  rw [wrap_eq _ hr, counts_eq _ hr]

/-- On in-range labels the scattered row sums are the specification's per-code feature sums of the flattened rows. -/
theorem segsumT_eq :
    segsumT (V (main_arg0 : DevRef τ sig)) (V (main_arg1 : DevRef τ sig))
      = Cert.Spec.segsum (shapeCast S32768x512 (V (main_arg0 : DevRef τ sig)) shapeCasts_S32x32x32x512_S32768x512)
          (V (main_arg1 : DevRef τ sig) : IVec S32768 32) := by
  unfold segsumT
  rw [segsum_eq _ _ hr]

theorem ref_v3 : after ops V (main_v3 : DevRef τ sig)
    = Cert.Spec.pick4 (V (main_arg2 : DevRef τ sig)) (V (main_arg1 : DevRef τ sig) : IVec S32768 32) := by
  rw [raw_v3, take_eq _ _ hr]

theorem ref_v41 : after ops V (main_v41 : DevRef τ sig)
    = Cert.KernelIdeal.Tail.meanSq (Cert.Spec.pick4 (V (main_arg2 : DevRef τ sig)) (V (main_arg1 : DevRef τ sig) : IVec S32768 32))
        (V (main_arg0 : DevRef τ sig)) := by
  rw [raw_v41, take_eq _ _ hr]

omit hr in
theorem ref_v1 : after ops V (main_v1 : DevRef τ sig)
    = shapeCast S32x32x32 (V (main_arg1 : DevRef τ sig) : IVec S32768 32) shapeCasts_S32768_S32x32x32 :=
  raw_v1 V

theorem ref_v21 : after ops V (main_v21 : DevRef τ sig)
    = Cert.KernelIdeal.Tail.newCluster (V (main_arg3 : DevRef τ sig))
        (Cert.Spec.counts (V (main_arg1 : DevRef τ sig) : IVec S32768 32)) := by
  rw [raw_v21, countsT_eq V hr]

theorem ref_v26 : after ops V (main_v26 : DevRef τ sig)
    = Cert.KernelIdeal.Tail.newAvg (V (main_arg4 : DevRef τ sig))
        (Cert.Spec.segsum (shapeCast S32768x512 (V (main_arg0 : DevRef τ sig)) shapeCasts_S32x32x32x512_S32768x512)
          (V (main_arg1 : DevRef τ sig) : IVec S32768 32)) := by
  rw [raw_v26, segsumT_eq V hr]

theorem ref_v37 : after ops V (main_v37 : DevRef τ sig)
    = Cert.KernelIdeal.Tail.newEmbed
        (Cert.KernelIdeal.Tail.newAvg (V (main_arg4 : DevRef τ sig))
          (Cert.Spec.segsum (shapeCast S32768x512 (V (main_arg0 : DevRef τ sig)) shapeCasts_S32x32x32x512_S32768x512)
            (V (main_arg1 : DevRef τ sig) : IVec S32768 32)))
        (Cert.KernelIdeal.Tail.newCluster (V (main_arg3 : DevRef τ sig))
          (Cert.Spec.counts (V (main_arg1 : DevRef τ sig) : IVec S32768 32))) := by
  rw [raw_v37, countsT_eq V hr, segsumT_eq V hr]

end Results

end Cert.ReferenceIdeal.Hand

end
-- ==== Proof.PreFacts.lean ====
import proofs.«408632_j30477087933017_3_alg».proof.Pre_finite_inputs
import proofs.«408632_j30477087933017_3_alg».proof.Proof.Gen.Pre_finite_inputs
import Idealize.ShloMosaic.Lib.ReduceAll
import Idealize.ShloMosaic.Lib.StableHlo.Predicate
noncomputable section
namespace Cert.PreFacts
open Idealize.ShloMosaic

/-- The rank-0 shape has exactly one index. -/
instance : Subsingleton Cert.Pre_finite_inputs.S_.Idx := ⟨fun _ _ => funext fun d => d.elim0⟩

/-- A 32-bit word whose signed reading lies in [0, 4096) has unsigned reading below 4096: a non-negative signed
    reading is the unsigned one. -/
theorem word_lt (a : BitVec 32) (h0 : (0#32 : BitVec 32).toInt ≤ a.toInt) (h1 : a.toInt < (4096#32 : BitVec 32).toInt) :
    a.toNat < 4096 := by
  have e0 : (0#32 : BitVec 32).toInt = 0 := by decide
  have e1 : (4096#32 : BitVec 32).toInt = 4096 := by decide
  rw [e0] at h0
  rw [e1] at h1
  rw [BitVec.toInt_eq_toNat_cond] at h0 h1
  split at h0 <;> omega

/-- Under the precondition every label word, read as a natural number, is below 4096 (it is non-negative as a signed word and signed-less-than 4096). -/
theorem label_lt {F : FTy → Type} [FloatOps F] [Cert.Pre_finite_inputs.Facts]
    (a0 : FVec F Cert.Pre_finite_inputs.S32x32x32x512 .f32) (a1 : IVec Cert.Pre_finite_inputs.S32768 32)
    (a2 : FVec F Cert.Pre_finite_inputs.S512x4096 .f32) (a3 : FVec F Cert.Pre_finite_inputs.S4096 .f32) (a4 : FVec F Cert.Pre_finite_inputs.S512x4096 .f32)
    (h : Cert.Pre_finite_inputs.fn (F := F) a0 a1 a2 a3 a4 = fun _ => 1#1) (n : Cert.Pre_finite_inputs.S32768.Idx) : (a1 n).toNat < 4096 := by
  -- the predicate's one word is the conjunction of six all-reductions; the last two are over the labels
  have h0 := congrFun h (fun d => d.elim0)
  dsimp only [Cert.Pre_finite_inputs.fn, Cert.Pre_finite_inputs.fn_part1] at h0
  obtain ⟨h01, h25⟩ := IntOp.andi_eq_one.1 h0
  obtain ⟨_, h21⟩ := IntOp.andi_eq_one.1 h01
  -- an all-reduction that is 1 had a 1 at row n: 0 ≤ label (signed) and label < 4096 (signed)
  have hge := Host.reduce_andi_all _ _ _ _ _ h21 n
  have hlt := Host.reduce_andi_all _ _ _ _ _ h25 n
  exact word_lt (a1 n) (IntOp.cmpi_sge.1 hge) (IntOp.cmpi_slt.1 hlt)

end Cert.PreFacts
-- ==== Proof.lean ====
/-
  The certificate of a codebook update: a kernel program of two kernel regions against its array-language reference.

  There are 32768 rows of 512 features (arranged batch 32 by height 32 by width 32), one label per row, and a codebook
  of 4096 codes stored features by codes. Both programs return: each row's code looked up in the codebook; the mean
  squared distance between those and the rows; the labels rearranged; and the moving-average update of the codebook
  from the per-code counts and the per-code sums of the rows.

  The reference looks rows up by a gather and accumulates counts and sums by scatters. The kernel program builds, per
  block of rows and block of codes, the one-hot matrix of the labels (a label's word minus the block's first code
  compared with the lane number) and multiplies: the first region accumulates  rowsᵀ · one-hot  and the one-hot's
  column sums over the 16 row blocks, for each of 4 code blocks; the second accumulates  one-hot · codebookᵀ  over the
  8 code blocks, for each of 16 row blocks. On the extended reals a one-hot entry is exactly 1 or 0, 0 · x = 0 and
  1 · x = x for every x, and sums may be regrouped freely, so the accumulated products ARE the counts, the sums and
  the lookup — for labels that name a code. The reference's gather fills rows whose label names no code with a
  not-a-number, and its count scatter wraps negative labels while its sum scatter drops them; the statement's
  precondition therefore asks 0 ≤ label < 4096, under which the reference's index arithmetic is the identity and the
  two programs compute the same three arrays. The closing arithmetic is the same expression in both programs.

  The frames: each kernel region's body is run through its three cases (first, inner, last block of the reduction
  axis) against an invariant that carries the accumulators from grid point to grid point; the reference is a straight
  line of host operations. The one rewrite of the idealization (a round trip through bf16 of the one-hot matrix removed)
  is its rule's statement.
-/
import proofs.«408632_j30477087933017_3_alg».proof.Defs
import proofs.«408632_j30477087933017_3_alg».proof.Proof.Gen.Kernel
import proofs.«408632_j30477087933017_3_alg».proof.Proof.Gen.KernelIdeal
import proofs.«408632_j30477087933017_3_alg».proof.Proof.Gen.ReferenceIdeal
import proofs.«408632_j30477087933017_3_alg».proof.Proof.Gen.Pre_finite_inputs
import proofs.«408632_j30477087933017_3_alg».proof.Proof.KRun
import proofs.«408632_j30477087933017_3_alg».proof.Proof.KIValues
import proofs.«408632_j30477087933017_3_alg».proof.Proof.RefValue
import proofs.«408632_j30477087933017_3_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end and leaves its arguments alone. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is a straight line of host operations, none of which writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Hand.after_arg0 _),
     (h c Cert.ReferenceIdeal.main_arg1).trans (Cert.ReferenceIdeal.Hand.after_arg1 _),
     (h c Cert.ReferenceIdeal.main_arg2).trans (Cert.ReferenceIdeal.Hand.after_arg2 _),
     (h c Cert.ReferenceIdeal.main_arg3).trans (Cert.ReferenceIdeal.Hand.after_arg3 _),
     (h c Cert.ReferenceIdeal.main_arg4).trans (Cert.ReferenceIdeal.Hand.after_arg4 _)⟩)
    (Cert.ReferenceIdeal.Hand.run_main (F := Ideal) m ρ)

/-- The idealization's one rewrite: the one-hot matrix narrowed to bf16 and widened again is itself. -/
theorem preserves : Cert.preserves_Kernel_KernelIdeal :=
  IdealRules.truncf_extf.statement _ .f32 .bf16

section Algebraic

open Cert.KernelIdeal Cert.KernelIdeal.Gen Cert.KernelIdeal.Hand

set_option maxHeartbeats 1600000 in
/-- The two idealized programs, run from memories that agree on the arguments, end with equal results: each of the
    reference's six results, read off its operations, and each of the kernel program's, read off its last boundary,
    is the same function of the arguments — the lookup, the closing arithmetic of the counts and sums. -/
theorem algebraic : Cert.algebraic_KernelIdeal_ReferenceIdeal := by
  intro m ρ m' ρ' hpre hagree
  have hr : ∀ (c : Dev nD) (n : S32768.Idx), ((m ((c.tc : Thread nD τ).loc main_arg1) : IVec S32768 32) n).toNat < 4096 :=
    fun c n => Cert.PreFacts.label_lt (F := Ideal) _ _ _ _ _ (hpre c) n
  refine ⟨fun c => W5 m c (Proc.devRef .tc main_v6), fun c => W5 m c (Proc.devRef .tc main_v32), fun c => W5 m c (Proc.devRef .tc main_v7),
    fun c => W5 m c (Proc.devRef .tc main_v28), fun c => W5 m c (Proc.devRef .tc main_v12), fun c => W5 m c (Proc.devRef .tc main_v17), ?_, ?_⟩
  · exact (θ_run Cert.KernelIdeal.defs _ _).mono (fun r h c =>
      ⟨h c _ (mem_uc main_v6 (by decide)), h c _ (mem_uc main_v32 (by decide)), h c _ (mem_uc main_v7 (by decide)),
       h c _ (mem_uc main_v28 (by decide)), h c _ (mem_uc main_v12 (by decide)), h c _ (mem_uc main_v17 (by decide)),
       (h c _ (mem_uc main_arg0 (by decide))).trans (W5_main_arg0 m c), (h c _ (mem_uc main_arg1 (by decide))).trans (W5_main_arg1 m c),
       (h c _ (mem_uc main_arg2 (by decide))).trans (W5_main_arg2 m c), (h c _ (mem_uc main_arg3 (by decide))).trans (W5_main_arg3 m c),
       (h c _ (mem_uc main_arg4 (by decide))).trans (W5_main_arg4 m c)⟩) (run_all m ρ)
  · refine (θ_run Cert.ReferenceIdeal.defs _ _).mono (fun r h c => ?_) (Cert.ReferenceIdeal.Hand.run_main (F := Ideal) m' ρ')
    obtain ⟨e0, e1, e2, e3, e4⟩ := hagree c
    have hr' : ∀ n, ((StableHlo.launchContents m' c (Cert.ReferenceIdeal.main_arg1 : DevRef Cert.ReferenceIdeal.τ Cert.ReferenceIdeal.sig) : IVec Cert.ReferenceIdeal.S32768 32) n).toNat < 4096 :=
      fun n => by have := hr c n; rw [← e1] at this; exact this
    refine ⟨(h c Cert.ReferenceIdeal.main_v3).trans ?_, (h c Cert.ReferenceIdeal.main_v41).trans ?_, (h c Cert.ReferenceIdeal.main_v1).trans ?_,
      (h c Cert.ReferenceIdeal.main_v37).trans ?_, (h c Cert.ReferenceIdeal.main_v21).trans ?_, (h c Cert.ReferenceIdeal.main_v26).trans ?_,
      (h c Cert.ReferenceIdeal.main_arg0).trans (Cert.ReferenceIdeal.Hand.after_arg0 _),
      (h c Cert.ReferenceIdeal.main_arg1).trans (Cert.ReferenceIdeal.Hand.after_arg1 _),
      (h c Cert.ReferenceIdeal.main_arg2).trans (Cert.ReferenceIdeal.Hand.after_arg2 _),
      (h c Cert.ReferenceIdeal.main_arg3).trans (Cert.ReferenceIdeal.Hand.after_arg3 _),
      (h c Cert.ReferenceIdeal.main_arg4).trans (Cert.ReferenceIdeal.Hand.after_arg4 _)⟩
    · beta_reduce
      rw [Cert.ReferenceIdeal.Hand.ref_v3 _ hr', W5_v6, W4_main_v5, pick_val]
      exact congrArg₂ Cert.Spec.pick4 e2 e1
    · beta_reduce
      rw [Cert.ReferenceIdeal.Hand.ref_v41 _ hr', W5_v32, W4_main_v5, pick_val, W4_main_arg0]
      exact congrArg₂ Cert.KernelIdeal.Tail.meanSq (congrArg₂ Cert.Spec.pick4 e2 e1) e0
    · beta_reduce
      rw [Cert.ReferenceIdeal.Hand.ref_v1 _, W5_v7, W4_main_arg1]
      exact congrArg (fun l => shapeCast S32x32x32 l shapeCasts_S32768_S32x32x32) e1
    · beta_reduce
      rw [Cert.ReferenceIdeal.Hand.ref_v37 _ hr', W5_v28, W4_main_arg4, W4_main_v3_0, segsum_val, W4_main_arg3, W4_main_v4, W2_main_v3_1, counts_val]
      exact congrArg₂ Cert.KernelIdeal.Tail.newEmbed (congrArg₂ Cert.KernelIdeal.Tail.newAvg e4 (congrArg₂ Cert.Spec.segsum (congrArg (fun x => shapeCast S32768x512 (x : FVec Ideal S32x32x32x512 .f32) shapeCasts_S32x32x32x512_S32768x512) e0) e1))
        (congrArg₂ Cert.KernelIdeal.Tail.newCluster e3 (congrArg Cert.Spec.counts e1))
    · beta_reduce
      rw [Cert.ReferenceIdeal.Hand.ref_v21 _ hr', W5_v12, W4_main_arg3, W4_main_v4, W2_main_v3_1, counts_val]
      exact congrArg₂ Cert.KernelIdeal.Tail.newCluster e3 (congrArg Cert.Spec.counts e1)
    · beta_reduce
      rw [Cert.ReferenceIdeal.Hand.ref_v26 _ hr', W5_v17, W4_main_arg4, W4_main_v3_0, segsum_val]
      exact congrArg₂ Cert.KernelIdeal.Tail.newAvg e4 (congrArg₂ Cert.Spec.segsum (congrArg (fun x => shapeCast S32768x512 (x : FVec Ideal S32x32x32x512 .f32) shapeCasts_S32x32x32x512_S32768x512) e0) e1)

end Algebraic

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
